-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![32768, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  main_v3
-- ==== Pre_finite_inputs_ReferenceIdeal.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Kernel.lean ====
abbrev S4096x1024 : Shape := ⟨2, ![4096, 1024]⟩
abbrev S1x1024 : Shape := ⟨2, ![1, 1024]⟩
abbrev S2048x1024 : Shape := ⟨2, ![2048, 1024]⟩
abbrev S7x1x1024 : Shape := ⟨3, ![7, 1, 1024]⟩
abbrev S7 : Shape := ⟨1, ![7]⟩
abbrev S_ : Shape := ⟨0, ![]⟩
abbrev S1024 : Shape := ⟨1, ![1024]⟩
abbrev S1 : Shape := ⟨1, ![1]⟩
abbrev S1x1x1024 : Shape := ⟨3, ![1, 1, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S7x1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  (ofTc nBuf bufTy 1 17 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem0_1 : DmaSem sig := 1
abbrev cc0_sem1_0 : DmaSem sig := 2
abbrev barrier0 : Sem sig := 0

abbrev nD : Nat := 8
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v19 : BitVec 32 := Scalar.xori v2 c1_i32_8
  let c1_i32_10 : BitVec 32 := 1#32
  let v20 : BitVec 32 := Scalar.muli v19 c1_i32_10
  let v21 : BitVec 32 := Scalar.addi c0_i32_11 v20
  v21.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v22 : BitVec 32 := Scalar.xori v2 c3_i32
  let c1_i32_13 : BitVec 32 := 1#32
  let v23 : BitVec 32 := Scalar.muli v22 c1_i32_13
  let v24 : BitVec 32 := Scalar.addi c0_i32_14 v23
  v24.toNat
def k0_dev3 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v25 : BitVec 32 := Scalar.xori v2 c4_i32
  let c1_i32_16 : BitVec 32 := 1#32
  let v26 : BitVec 32 := Scalar.muli v25 c1_i32_16
  let v27 : BitVec 32 := Scalar.addi c0_i32_17 v26
  v27.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v28 : BitVec 32 := Scalar.xori v2 c2_i32
  let c1_i32_19 : BitVec 32 := 1#32
  let v29 : BitVec 32 := Scalar.muli v28 c1_i32_19
  let v30 : BitVec 32 := Scalar.addi c0_i32_20 v29
  v30.toNat
def k0_dev5 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v31 : BitVec 32 := Scalar.xori v2 c5_i32
  let c1_i32_22 : BitVec 32 := 1#32
  let v32 : BitVec 32 := Scalar.muli v31 c1_i32_22
  let v33 : BitVec 32 := Scalar.addi c0_i32_23 v32
  v33.toNat
def k0_dev6 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v34 : BitVec 32 := Scalar.xori v2 c7_i32
  let c1_i32_25 : BitVec 32 := 1#32
  let v35 : BitVec 32 := Scalar.muli v34 c1_i32_25
  let v36 : BitVec 32 := Scalar.addi c0_i32_26 v35
  v36.toNat
def k0_dev7 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v37 : BitVec 32 := Scalar.xori v2 c6_i32
  let c1_i32_28 : BitVec 32 := 1#32
  let v38 : BitVec 32 := Scalar.muli v37 c1_i32_28
  let v39 : BitVec 32 := Scalar.addi c0_i32_29 v38
  v39.toNat
def k0_cond2 (i : grid0.Coords) : BitVec 1 :=
  let arg0 : BitVec 32 := BitVec.ofNat 32 (i 0).val
  let c1_i32_6 : BitVec 32 := 1#32
  let v15 : BitVec 1 := Scalar.cmpi .eq arg0 c1_i32_6
  let v16 : BitVec 32 := Scalar.extui v15
  let c0_i32_7 : BitVec 32 := 0#32
  let v17 : BitVec 1 := Scalar.cmpi .ne v16 c0_i32_7
  v17

def k0_dev8 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_8 : BitVec 32 := 1#32
  let v19 : BitVec 32 := Scalar.xori v2 c1_i32_8
  let c1_i32_12 : BitVec 32 := 1#32
  let v20 : BitVec 32 := Scalar.muli v19 c1_i32_12
  let v21 : BitVec 32 := Scalar.addi c0_i32_13 v20
  v21.toNat
def k0_dev9 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v28 : BitVec 32 := Scalar.xori v2 c3_i32
  let c1_i32_19 : BitVec 32 := 1#32
  let v29 : BitVec 32 := Scalar.muli v28 c1_i32_19
  let v30 : BitVec 32 := Scalar.addi c0_i32_20 v29
  v30.toNat
def k0_dev10 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v37 : BitVec 32 := Scalar.xori v2 c4_i32
  let c1_i32_25 : BitVec 32 := 1#32
  let v38 : BitVec 32 := Scalar.muli v37 c1_i32_25
  let v39 : BitVec 32 := Scalar.addi c0_i32_26 v38
  v39.toNat
def k0_dev11 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_29 : BitVec 32 := 2#32
  let v46 : BitVec 32 := Scalar.xori v2 c2_i32_29
  let c1_i32_33 : BitVec 32 := 1#32
  let v47 : BitVec 32 := Scalar.muli v46 c1_i32_33
  let v48 : BitVec 32 := Scalar.addi c0_i32_34 v47
  v48.toNat
def k0_dev12 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v55 : BitVec 32 := Scalar.xori v2 c5_i32
  let c1_i32_40 : BitVec 32 := 1#32
  let v56 : BitVec 32 := Scalar.muli v55 c1_i32_40
  let v57 : BitVec 32 := Scalar.addi c0_i32_41 v56
  v57.toNat
def k0_dev13 (d0 : Dev nD) : Nat :=
  let c0_i32_49 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_44 : BitVec 32 := 7#32
  let v64 : BitVec 32 := Scalar.xori v2 c7_i32_44
  let c1_i32_48 : BitVec 32 := 1#32
  let v65 : BitVec 32 := Scalar.muli v64 c1_i32_48
  let v66 : BitVec 32 := Scalar.addi c0_i32_49 v65
  v66.toNat
def k0_dev14 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v73 : BitVec 32 := Scalar.xori v2 c6_i32
  let c1_i32_55 : BitVec 32 := 1#32
  let v74 : BitVec 32 := Scalar.muli v73 c1_i32_55
  let v75 : BitVec 32 := Scalar.addi c0_i32_56 v74
  v75.toNat
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  hamt_1 : (1#32 : BitVec 32).msb = false
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  shapeCasts_S1024_S1x1024 : S1024.ShapeCasts S1x1024
  hamt_7 : (7#32 : BitVec 32).msb = false
  inb_S7_S1_0 : ∀ a, (![0] : Fin 1 → Nat) a + S1.size a ≤ S7.size a
  squeezes_S1_S_ : S1.Squeezes S_
  inb_S7x1x1024_S1x1x1024_0_0_0 : ∀ a, (![0, 0, 0] : Fin 3 → Nat) a + S1x1x1024.size a ≤ S7x1x1024.size a
  squeezes_S1x1x1024_S1x1024 : S1x1x1024.Squeezes S1x1024
  inb_S7_S1_1 : ∀ a, (![1] : Fin 1 → Nat) a + S1.size a ≤ S7.size a
  inb_S7x1x1024_S1x1x1024_1_0_0 : ∀ a, (![1, 0, 0] : Fin 3 → Nat) a + S1x1x1024.size a ≤ S7x1x1024.size a
  inb_S7_S1_2 : ∀ a, (![2] : Fin 1 → Nat) a + S1.size a ≤ S7.size a
  inb_S7x1x1024_S1x1x1024_2_0_0 : ∀ a, (![2, 0, 0] : Fin 3 → Nat) a + S1x1x1024.size a ≤ S7x1x1024.size a
  inb_S7_S1_3 : ∀ a, (![3] : Fin 1 → Nat) a + S1.size a ≤ S7.size a
  inb_S7x1x1024_S1x1x1024_3_0_0 : ∀ a, (![3, 0, 0] : Fin 3 → Nat) a + S1x1x1024.size a ≤ S7x1x1024.size a
  inb_S7_S1_4 : ∀ a, (![4] : Fin 1 → Nat) a + S1.size a ≤ S7.size a
  inb_S7x1x1024_S1x1x1024_4_0_0 : ∀ a, (![4, 0, 0] : Fin 3 → Nat) a + S1x1x1024.size a ≤ S7x1x1024.size a
  inb_S7_S1_5 : ∀ a, (![5] : Fin 1 → Nat) a + S1.size a ≤ S7.size a
  inb_S7x1x1024_S1x1x1024_5_0_0 : ∀ a, (![5, 0, 0] : Fin 3 → Nat) a + S1x1x1024.size a ≤ S7x1x1024.size a
  inb_S7_S1_6 : ∀ a, (![6] : Fin 1 → Nat) a + S1.size a ≤ S7.size a
  inb_S7x1x1024_S1x1x1024_6_0_0 : ∀ a, (![6, 0, 0] : Fin 3 → Nat) a + S1x1x1024.size a ≤ S7x1x1024.size a
  h_S1x1x1024 : 0 < S1x1x1024.numel
  shapeCasts_S1x1x1024_S1x1024 : S1x1x1024.ShapeCasts S1x1024
  hcc0_scratch2 : 3 + S7.numel ≤ 17
  hcc0_scratch3 : 10 + S7.numel ≤ 17
  hrank0 : 0 < grid0.rank
  k0_dev1_lt : ∀ (i : grid0.Coords) (d0 : Dev nD), ∀ (k0_h1 : k0_cond1 i = 1#1), (k0_dev1 d0) < nD
  k0_dev2_lt : ∀ (i : grid0.Coords) (d0 : Dev nD), ∀ (k0_h1 : k0_cond1 i = 1#1), (k0_dev2 d0) < nD
  k0_dev3_lt : ∀ (i : grid0.Coords) (d0 : Dev nD), ∀ (k0_h1 : k0_cond1 i = 1#1), (k0_dev3 d0) < nD
  k0_dev4_lt : ∀ (i : grid0.Coords) (d0 : Dev nD), ∀ (k0_h1 : k0_cond1 i = 1#1), (k0_dev4 d0) < nD
  k0_dev5_lt : ∀ (i : grid0.Coords) (d0 : Dev nD), ∀ (k0_h1 : k0_cond1 i = 1#1), (k0_dev5 d0) < nD
  k0_dev6_lt : ∀ (i : grid0.Coords) (d0 : Dev nD), ∀ (k0_h1 : k0_cond1 i = 1#1), (k0_dev6 d0) < nD
  k0_dev7_lt : ∀ (i : grid0.Coords) (d0 : Dev nD), ∀ (k0_h1 : k0_cond1 i = 1#1), (k0_dev7 d0) < nD
  k0_dev8_lt : ∀ (i : grid0.Coords) (d0 : Dev nD), ∀ (k0_h2 : k0_cond2 i = 1#1), (k0_dev8 d0) < nD
  k0_dev9_lt : ∀ (i : grid0.Coords) (d0 : Dev nD), ∀ (k0_h2 : k0_cond2 i = 1#1), (k0_dev9 d0) < nD
  k0_dev10_lt : ∀ (i : grid0.Coords) (d0 : Dev nD), ∀ (k0_h2 : k0_cond2 i = 1#1), (k0_dev10 d0) < nD
  k0_dev11_lt : ∀ (i : grid0.Coords) (d0 : Dev nD), ∀ (k0_h2 : k0_cond2 i = 1#1), (k0_dev11 d0) < nD
  k0_dev12_lt : ∀ (i : grid0.Coords) (d0 : Dev nD), ∀ (k0_h2 : k0_cond2 i = 1#1), (k0_dev12 d0) < nD
  k0_dev13_lt : ∀ (i : grid0.Coords) (d0 : Dev nD), ∀ (k0_h2 : k0_cond2 i = 1#1), (k0_dev13 d0) < nD
  k0_dev14_lt : ∀ (i : grid0.Coords) (d0 : Dev nD), ∀ (k0_h2 : k0_cond2 i = 1#1), (k0_dev14 d0) < nD
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .f32 = 32 ∨ (Rect.block (s := S4096x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)

variable [Facts₀]

abbrev cc0_scratch2 : DmaSems sig S7 := SemArray.consecutive 3 S7 hcc0_scratch2
abbrev cc0_scratch3 : DmaSems sig S7 := SemArray.consecutive 10 S7 hcc0_scratch3

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32768x1024 : Shape := ⟨2, ![32768, 1024]⟩
abbrev S_ : Shape := ⟨0, ![]⟩
abbrev S1024 : Shape := ⟨1, ![1024]⟩
abbrev S1x1024 : Shape := ⟨2, ![1, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S_, .f32⟩
  | .hbm, ⟨2, _⟩ => ⟨S1024, .f32⟩
  | .hbm, ⟨3, _⟩ => ⟨S1x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S32768x1024_S1024_d0 : S32768x1024.ReducesTo [0] S1024
  h_S_ : 0 < S_.numel
  bcast_S1024_S1x1024_1 : S1024.BroadcastsInDim S1x1024 (![1] : Fin 1 → Fin S1x1024.rank)

variable [Facts₀]

class Facts : Prop extends Facts₀ where

variable [Facts]
-- ==== Proof.AccDefs.lean ====
/-
  The values the kernel computes, named once: what a device's accumulator holds after both grid points, what a
  receive slot holds once a peer's accumulator has landed in it, and what a device stores as its result.
  Device `c` exchanges with the seven devices `c xor μ k`, `μ = 1, 3, 4, 2, 5, 7, 6`.
-/
import proofs.«901089_g7700000000001090_dist_sum_ax0_shard0_i_m4096_n1024_v7x_i8_f32_1_alg».proof.Proof.Gen.KernelIdeal.Skeleton
import Idealize.ShloMosaic.Lib.ValueIdx

noncomputable section

namespace Cert.KernelIdeal.Acc

open Idealize.ShloMosaic Idealize.ShloMosaic.ValueIdx Cert.KernelIdeal Cert.KernelIdeal.Gen

variable {F : FTy → Type} [FloatOps F]

/-- The seven masks, in the order the kernel walks them. -/
def μ : Fin 7 → Nat := ![1, 3, 4, 2, 5, 7, 6]

/-- The device `c` exchanges its `k`-th slot with: `c xor μ k` (an involution for each `k`). -/
def peer (c : Dev nD) (k : Fin 7) : Dev nD := ⟨(c.val ^^^ μ k) % 8, Nat.mod_lt _ (by decide)⟩

theorem peer_peer (c : Dev nD) (k : Fin 7) : peer (peer c k) k = c := by revert c k; decide
theorem peer_ne (c : Dev nD) (k : Fin 7) : peer c k ≠ c := by revert c k; decide
theorem peer_inj (c : Dev nD) (k k' : Fin 7) (h : peer c k = peer c k') : k = k' := by revert c k k'; decide

/-- The accumulator after both grid points: zero, plus the column sums of the first block of rows, plus those of the second. -/
def accVal (b0 b1 : Vec F S2048x1024 .f32) : FVec F S1x1024 .f32 :=
  k0_pay2 (k0_pay2 (k0_pay1 (k0_pay3 (F := F))) b0) b1

/-- The accumulator after the first grid point only. -/
def accHalf (b0 : Vec F S2048x1024 .f32) : FVec F S1x1024 .f32 := k0_pay2 (k0_pay1 (k0_pay3 (F := F))) b0

/-- A row of 1024 as the one `[1, 1, 1024]` slot it lands in. -/
def slotVal (a : FVec F S1x1024 .f32) : Vec F S1x1x1024 .f32 := fun i => a (ix2 (i 1) (i 2))

/-- What a device stores: its accumulator plus the seven slots, added in slot order. -/
def outVal (a : FVec F S1x1024 .f32) (r : Fin 7 → Vec F S1x1x1024 .f32) : FVec F S1x1024 .f32 :=
  k0_pay6 (k0_pay5 (k0_pay4 a (r 0) (r 1)) (r 2) (r 3) (r 4)) (r 5) (r 6)

end Cert.KernelIdeal.Acc

end
-- ==== Proof.Proto.lean ====
/-
  The exchange's protocol, device by device. Every device owns one barrier cell (seven duties of one unit, duty `k`
  paid by the device `peer c k` and handing over slot `k` of that device's receive buffer together with the fact that
  its receive cell `k` stands at round 0), seven send cells (one duty each: a share of the accumulator, back once the
  copy has been read out) and seven receive cells (one duty each, paid by `peer c k`: slot `k` holding that device's
  accumulator). A device waits on its barrier owing only receive credits, and on its receive cells owing nothing.
-/
import proofs.«901089_g7700000000001090_dist_sum_ax0_shard0_i_m4096_n1024_v7x_i8_f32_1_alg».proof.Proof.AccDefs
import proofs.«901089_g7700000000001090_dist_sum_ax0_shard0_i_m4096_n1024_v7x_i8_f32_1_alg».proof.Proof.Gen.KernelIdeal
import proofs.«901089_g7700000000001090_dist_sum_ax0_shard0_i_m4096_n1024_v7x_i8_f32_1_alg».proof.Proof.Gen.KernelIdeal.Skeleton
import proofs.«901089_g7700000000001090_dist_sum_ax0_shard0_i_m4096_n1024_v7x_i8_f32_1_alg».proof.Proof.Gen.KernelIdeal.Launch
import proofs.«901089_g7700000000001090_dist_sum_ax0_shard0_i_m4096_n1024_v7x_i8_f32_1_alg».proof.Proof.Gen.KernelIdeal.Points
import proofs.«901089_g7700000000001090_dist_sum_ax0_shard0_i_m4096_n1024_v7x_i8_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Acc

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

abbrev accM : Memref sig .tc .vmem S1x1024 .f32 := Memref.whole cc0_scratch0
abbrev rcvM : Memref sig .tc .vmem S7x1x1024 .f32 := Memref.whole cc0_scratch1

theorem slot_inb (k : Fin 7) : ∀ a, (![k.val, 0, 0] : Fin 3 → Nat) a + S1x1x1024.size a ≤ S7x1x1024.size a := by
  intro a; have := k.isLt; fin_cases a <;> simp <;> omega
/-- Slot `k` of the receive buffer, as a `[1, 1024]` memref. -/
abbrev slotM (k : Fin 7) : Memref sig .tc .vmem S1x1024 .f32 :=
  (rcvM.slice (Rect.unit (s := S7x1x1024) ![k.val, 0, 0] S1x1x1024.size (slot_inb k)) (fun _ => rfl)).squeeze S1x1024 squeezes_S1x1x1024_S1x1024

def sendS : Fin 7 → DmaSems sig S_
  | 0 => (cc0_scratch2.slice (Rect.unit (s := S7) ![0] S1.size inb_S7_S1_0)).squeeze S_ squeezes_S1_S_
  | 1 => (cc0_scratch2.slice (Rect.unit (s := S7) ![1] S1.size inb_S7_S1_1)).squeeze S_ squeezes_S1_S_
  | 2 => (cc0_scratch2.slice (Rect.unit (s := S7) ![2] S1.size inb_S7_S1_2)).squeeze S_ squeezes_S1_S_
  | 3 => (cc0_scratch2.slice (Rect.unit (s := S7) ![3] S1.size inb_S7_S1_3)).squeeze S_ squeezes_S1_S_
  | 4 => (cc0_scratch2.slice (Rect.unit (s := S7) ![4] S1.size inb_S7_S1_4)).squeeze S_ squeezes_S1_S_
  | 5 => (cc0_scratch2.slice (Rect.unit (s := S7) ![5] S1.size inb_S7_S1_5)).squeeze S_ squeezes_S1_S_
  | 6 => (cc0_scratch2.slice (Rect.unit (s := S7) ![6] S1.size inb_S7_S1_6)).squeeze S_ squeezes_S1_S_

def recvS : Fin 7 → DmaSems sig S_
  | 0 => (cc0_scratch3.slice (Rect.unit (s := S7) ![0] S1.size inb_S7_S1_0)).squeeze S_ squeezes_S1_S_
  | 1 => (cc0_scratch3.slice (Rect.unit (s := S7) ![1] S1.size inb_S7_S1_1)).squeeze S_ squeezes_S1_S_
  | 2 => (cc0_scratch3.slice (Rect.unit (s := S7) ![2] S1.size inb_S7_S1_2)).squeeze S_ squeezes_S1_S_
  | 3 => (cc0_scratch3.slice (Rect.unit (s := S7) ![3] S1.size inb_S7_S1_3)).squeeze S_ squeezes_S1_S_
  | 4 => (cc0_scratch3.slice (Rect.unit (s := S7) ![4] S1.size inb_S7_S1_4)).squeeze S_ squeezes_S1_S_
  | 5 => (cc0_scratch3.slice (Rect.unit (s := S7) ![5] S1.size inb_S7_S1_5)).squeeze S_ squeezes_S1_S_
  | 6 => (cc0_scratch3.slice (Rect.unit (s := S7) ![6] S1.size inb_S7_S1_6)).squeeze S_ squeezes_S1_S_

abbrev barS : Sem sig := (SemArray.scalar (sig.barrier 0 rfl) : Sems sig S_).sem

abbrev barCell (c : Dev nD) : GSem nD τ sig := ((c : Thread nD τ), .reg barS)
abbrev sendCell (c : Dev nD) (k : Fin 7) : GSem nD τ sig := ((c : Thread nD τ), .dma (sendS k).sem)
abbrev recvCell (c : Dev nD) (k : Fin 7) : GSem nD τ sig := ((c : Thread nD τ), .dma (recvS k).sem)

/-- The fifteen semaphores of a device's protocol: the barrier, the seven send, the seven receive semaphores. -/
def csem : Fin 15 → SemLoc sig
  | 0 => .reg barS
  | 1 => .dma (sendS 0).sem | 2 => .dma (sendS 1).sem | 3 => .dma (sendS 2).sem | 4 => .dma (sendS 3).sem
  | 5 => .dma (sendS 4).sem | 6 => .dma (sendS 5).sem | 7 => .dma (sendS 6).sem
  | 8 => .dma (recvS 0).sem | 9 => .dma (recvS 1).sem | 10 => .dma (recvS 2).sem | 11 => .dma (recvS 3).sem
  | 12 => .dma (recvS 4).sem | 13 => .dma (recvS 5).sem | 14 => .dma (recvS 6).sem
def sJ (k : Fin 7) : Fin 15 := ⟨1 + k.val, by omega⟩
def rJ (k : Fin 7) : Fin 15 := ⟨8 + k.val, by omega⟩
theorem csem_sJ (k : Fin 7) : csem (sJ k) = .dma (sendS k).sem := by fin_cases k <;> rfl
theorem csem_rJ (k : Fin 7) : csem (rJ k) = .dma (recvS k).sem := by fin_cases k <;> rfl
theorem csem_inj : Function.Injective csem := by decide
abbrev kcell (cj : Dev nD × Fin 15) : GSem nD τ sig := ((cj.1 : Thread nD τ), csem cj.2)

/-- The fourteen semaphores that are the kernel's own (scoped): all but the barrier. -/
def osem (j : Fin 14) : SemLoc sig := csem ⟨j.val + 1, by omega⟩

abbrev N : ℕ := (accM : Memref sig .tc .vmem S1x1024 .f32).view.dmaCredit
theorem N_pos : 0 < N := View.dmaCredit_pos _ (by decide)

theorem send_ne_bar (k : Fin 7) : (SemLoc.dma (sendS k).sem : SemLoc sig) ≠ .reg barS := fun h => by cases h
theorem recv_ne_bar (k : Fin 7) : (SemLoc.dma (recvS k).sem : SemLoc sig) ≠ .reg barS := fun h => by cases h
theorem send_ne_recv : ∀ k k' : Fin 7, (SemLoc.dma (sendS k).sem : SemLoc sig) ≠ .dma (recvS k').sem := by decide
theorem sendS_inj : ∀ k k' : Fin 7, (SemLoc.dma (sendS k).sem : SemLoc sig) = .dma (sendS k').sem → k = k' := by decide
theorem recvS_inj : ∀ k k' : Fin 7, (SemLoc.dma (recvS k).sem : SemLoc sig) = .dma (recvS k').sem → k = k' := by decide

/-- Which send (receive) semaphore a semaphore is, if any. -/
def sendIx (s : SemLoc sig) : Option (Fin 7) := (List.finRange 7).find? fun k => decide (s = .dma (sendS k).sem)
def recvIx (s : SemLoc sig) : Option (Fin 7) := (List.finRange 7).find? fun k => decide (s = .dma (recvS k).sem)
theorem sendIx_send : ∀ k : Fin 7, sendIx (.dma (sendS k).sem) = some k := by decide
theorem recvIx_recv : ∀ k : Fin 7, recvIx (.dma (recvS k).sem) = some k := by decide
theorem recvIx_send : ∀ k : Fin 7, recvIx (.dma (sendS k).sem) = none := by decide
theorem sendIx_bar : sendIx (.reg barS) = none := by decide
theorem recvIx_bar : recvIx (.reg barS) = none := by decide

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- The two blocks of rows of a device's array, as the two grid points stage them. -/
abbrev xb (c : Dev nD) (t : Fin cfg0.N) : Vec F S2048x1024 .f32 := iblk m c 0 t
/-- A device's accumulator after its first grid point, and after both. -/
def accH (c : Dev nD) : (cc0_scratch0 : Ref sig .tc).ty.Contents (Elt F) := accHalf (xb m c t0_0)
def accOf (c : Dev nD) : (cc0_scratch0 : Ref sig .tc).ty.Contents (Elt F) := accVal (xb m c t0_0) (xb m c t0_1)
/-- A receive buffer every slot of which holds the row `a`. -/
def slotFill (a : FVec F S1x1024 .f32) : (cc0_scratch1 : Ref sig .tc).ty.Contents (Elt F) := fun i => a (ix2 (i 1) (i 2))
/-- What a device stores as its result. -/
def outOf (c : Dev nD) : (cc0_stg1_0 : Ref sig .tc).ty.Contents (Elt F) :=
  outVal (accOf m c) (fun k => slotVal (accOf m (peer c k)))

/-! ## Shares of the accumulator: one for each copy in flight, one kept for the load -/

def restN : ℕ → PosShare TreeShare
  | 0 => fullShare
  | n + 1 => (restN n).right
def shr (k : Fin 7) : PosShare TreeShare := (restN k.val).left

def accPts (q : PosShare TreeShare) (c : Dev nD) (f : (cc0_scratch0 : Ref sig .tc).ty.Contents (Elt F)) : sProp 𝕄 :=
  (accM : Memref sig .tc .vmem S1x1024 .f32).view.loc (c : Thread nD τ) ↦[(accM : Memref sig .tc .vmem S1x1024 .f32).view.set]{q} (f : Buf (Elt F) ((accM : Memref sig .tc .vmem S1x1024 .f32).view.loc (c : Thread nD τ)))
def slotPts (c : Dev nD) (k : Fin 7) (f : (cc0_scratch1 : Ref sig .tc).ty.Contents (Elt F)) : sProp 𝕄 :=
  (slotM k).view.loc (c : Thread nD τ) ↦[(slotM k).view.set]{fullShare} (f : Buf (Elt F) ((slotM k).view.loc (c : Thread nD τ)))

omit [FloatOps F] in
instance accPts_storable (q) (c : Dev nD) (f) : BI.Storable (upEmb : UEmb _ 𝕄) (accPts (F := F) q c f) := by unfold accPts; infer_instance
omit [FloatOps F] in
instance slotPts_storable (c : Dev nD) (k) (f) : BI.Storable (upEmb : UEmb _ 𝕄) (slotPts (F := F) c k f) := by unfold slotPts; infer_instance

/-! ## The schedule -/

def barPay (c : Dev nD) (d : Fin 7) : sProp 𝕄 := iprop(∃ f, slotPts (peer c d) d f)
def recvPay (c : Dev nD) (k : Fin 7) : sProp 𝕄 := slotPts c k (slotFill (accOf m (peer c k)))
def sendPay (c : Dev nD) (k : Fin 7) : sProp 𝕄 := accPts (shr k) c (accOf m c)

/-- One round, round 0: a barrier cell has seven duties of one unit; a send or receive cell one duty of a row's credit. -/
def rd : Rounds.Schedule (GSem nD τ sig) (Fin 7) 𝕄 where
  duties g r := if r = 0 ∧ g.1.2 = .tc then
      (if g.2 = .reg barS then Finset.univ else if (sendIx g.2).isSome ∨ (recvIx g.2).isSome then {0} else ∅) else ∅
  unitless _ := False
  amount g _ _ := if g.2 = .reg barS then 1 else N
  payload g _ d :=
    if g.2 = .reg barS then barPay g.1.1 d
    else match recvIx g.2 with
      | some k => recvPay m g.1.1 k
      | none => match sendIx g.2 with
        | some k => sendPay m g.1.1 k
        | none => iprop(emp)
  amount_pos g _ _ _ := by
    by_cases h : g.2 = .reg barS
    · rw [if_pos h]; exact Nat.one_pos
    · rw [if_neg h]; exact N_pos

instance rd_payload_storable (g : GSem nD τ sig) (r : ℕ) (d : Fin 7) :
    BI.Storable (upEmb : UEmb _ 𝕄) ((rd (F := F) m).payload g r d) := by
  show BI.Storable upEmb (if g.2 = .reg barS then barPay g.1.1 d
    else match recvIx g.2 with
      | some k => recvPay m g.1.1 k
      | none => match sendIx g.2 with
        | some k => sendPay m g.1.1 k
        | none => iprop(emp))
  unfold barPay recvPay sendPay slotPts accPts
  (repeat' split) <;> infer_instance

section Sched
variable (c : Dev nD) (k : Fin 7)

theorem duties_bar : (rd (F := F) m).duties (barCell c) 0 = Finset.univ := by dsimp only [rd]; rw [if_pos ⟨rfl, rfl⟩, if_pos rfl]
theorem duties_send : (rd (F := F) m).duties (sendCell c k) 0 = {0} := by
  dsimp only [rd]; rw [if_pos ⟨rfl, rfl⟩, if_neg (send_ne_bar k), if_pos (Or.inl (by rw [sendIx_send]; rfl))]
theorem duties_recv : (rd (F := F) m).duties (recvCell c k) 0 = {0} := by
  dsimp only [rd]; rw [if_pos ⟨rfl, rfl⟩, if_neg (recv_ne_bar k), if_pos (Or.inr (by rw [recvIx_recv]; rfl))]
theorem duties_later (g : GSem nD τ sig) : ∀ r, 1 ≤ r → (rd (F := F) m).duties g r = ∅ :=
  fun r hr => by dsimp only [rd]; rw [if_neg fun h => by omega]

theorem amount_bar (d : Fin 7) : (rd (F := F) m).amount (barCell c) 0 d = 1 := by dsimp only [rd]; exact if_pos rfl
theorem amount_send (d : Fin 7) : (rd (F := F) m).amount (sendCell c k) 0 d = N := by dsimp only [rd]; exact if_neg (send_ne_bar k)
theorem amount_recv (d : Fin 7) : (rd (F := F) m).amount (recvCell c k) 0 d = N := by dsimp only [rd]; exact if_neg (recv_ne_bar k)

theorem expect_bar : (rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell c k) 0 = N := by
  unfold Schedule.expect Schedule.amountOf; rw [duties_send, Finset.sum_singleton, amount_send]
theorem expect_recv : (rd (F := F) m).expect (recvCell c k) 0 = N := by
  unfold Schedule.expect Schedule.amountOf; rw [duties_recv, Finset.sum_singleton, amount_recv]

theorem payload_bar (d : Fin 7) : (rd (F := F) m).payload (barCell c) 0 d = barPay c d := by dsimp only [rd]; rw [if_pos rfl]
theorem payload_send (d : Fin 7) : (rd (F := F) m).payload (sendCell c k) 0 d = sendPay m c k := by
  dsimp only [rd]; rw [if_neg (send_ne_bar k)]; simp only [recvIx_send, sendIx_send]
theorem payload_recv (d : Fin 7) : (rd (F := F) m).payload (recvCell c k) 0 d = recvPay m c k := by
  dsimp only [rd]; rw [if_neg (recv_ne_bar k)]; simp only [recvIx_recv]

end Sched

example (c : Dev nD) (k : Fin 7) : (slotM k).view.loc (c : Thread nD τ) = (c : Thread nD τ).loc cc0_scratch1 := rfl
example : slotM 2 = (rcvM.slice (Rect.unit (s := S7x1x1024) ![2, 0, 0] S1x1x1024.size inb_S7x1x1024_S1x1x1024_2_0_0) (fun _ => rfl)).squeeze S1x1024 squeezes_S1x1x1024_S1x1024 := rfl
example : ∀ k : Fin 7, (slotM k).view.dmaCredit = N := by decide

/-! ## What each device owes at launch; the levels -/

/-- Tallies summed so that the first of the list is the outermost (last) summand: the first step peels it. -/
def owedL (base : CellTallies nD τ sig Unit) (f : Fin 7 → CellTallies nD τ sig Unit) : List (Fin 7) → CellTallies nD τ sig Unit
  | [] => base
  | k :: ks => owedL base f ks + f k

abbrev all7 : List (Fin 7) := [0, 1, 2, 3, 4, 5, 6]

/-- The credit of receive cell `k` of `peer c k` (the copy device `c` sends there); one unit of that device's barrier. -/
def Vt (c : Dev nD) (k : Fin 7) : CellTallies nD τ sig Unit := tallyAt (recvCell (peer c k) k) () N
def Bt (c : Dev nD) (k : Fin 7) : CellTallies nD τ sig Unit := tallyAt (barCell (peer c k)) () 1
/-- After its signals a device owes its seven copies; at launch also its seven signals. -/
def O₁ (c : Dev nD) : CellTallies nD τ sig Unit := owedL 0 (Vt c) all7
def O₀ (c : Dev nD) : CellTallies nD τ sig Unit := owedL (O₁ c) (Bt c) all7

theorem owedL_pos {base : CellTallies nD τ sig Unit} {f : Fin 7 → CellTallies nD τ sig Unit} {g : GSem nD τ sig} {u : Unit} :
    ∀ l : List (Fin 7), 0 < owedL base f l g u → 0 < base g u ∨ ∃ k, 0 < f k g u
  | [], h => Or.inl h
  | k :: ks, h => by
    unfold owedL at h
    rw [Pi.add_apply, Finsupp.add_apply] at h
    rcases Nat.add_pos_iff_pos_or_pos.mp h with h | h
    · exact owedL_pos ks h
    · exact Or.inr ⟨k, h⟩

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem O₁_pos {c : Dev nD} {g : GSem nD τ sig} {u : Unit} (h : 0 < O₁ c g u) : ∃ k, g = recvCell (peer c k) k := by
  rcases owedL_pos all7 h with h | ⟨k, h⟩
  · exact absurd h (Nat.lt_irrefl 0)
  · exact ⟨k, tallyAt_pos h⟩

theorem O₀_pos {c : Dev nD} {g : GSem nD τ sig} {u : Unit} (h : 0 < O₀ c g u) :
    (∃ k, g = recvCell (peer c k) k) ∨ ∃ k, g = barCell (peer c k) := by
  rcases owedL_pos all7 h with h | ⟨k, h⟩
  · exact Or.inl (O₁_pos h)
  · exact Or.inr ⟨k, tallyAt_pos h⟩

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 7) : lv (recvCell c k) () = 2 := by
  unfold lv; rw [if_neg (recv_ne_bar k), recvIx_recv]; rfl

omit [FloatOps F] in
/-- A wait on a semaphore at level 0 (a staging semaphore, a send cell) is below everything a device may owe. -/
theorem mayWait_low (c : Dev nD) (sm : SemLoc sig) (hsm : lv ((c : Thread nD τ), sm) () = 0) (O : CellTallies nD τ sig Unit)
    (hO : O = O₀ c ∨ O = O₁ c ∨ O = 0) :
    (levAts L lv : sProp 𝕄) ⊢ MayWait (c : Thread nD τ) sm () O := by
  have key : ∀ O' : CellTallies nD τ sig Unit, (∀ g u, 0 < O' g u → (∃ k, g = recvCell (peer c k) k) ∨ ∃ k, g = barCell (peer c k)) →
      (levAts L lv : sProp 𝕄) ⊢ MayWait (c : Thread nD τ) sm () O' := fun O' hpos =>
    MayOwe.of_cut (L := L) (lev := lv) 0 (fun p hp => by rw [Finset.mem_singleton.mp hp, L_tc]; exact Finset.mem_singleton_self _)
      (fun g u hg => by rcases hpos g u hg with ⟨k, rfl⟩ | ⟨k, rfl⟩ <;> exact Finset.mem_singleton_self _)
      (fun p hp => by rw [Finset.mem_singleton.mp hp, hsm])
      (fun g u hg => by
        rcases hpos g u hg with ⟨k, rfl⟩ | ⟨k, rfl⟩
        · rw [lv_recv]; decide
        · rw [lv_bar]; decide)
  rcases hO with rfl | rfl | rfl
  · exact key _ fun g u h => O₀_pos h
  · exact key _ fun g u h => Or.inl (O₁_pos h)
  · rw [MayWait_zero]; iintro -; iempintro

omit [FloatOps F] in
/-- At its barrier wait a device owes receive credits only: receive cells lie above barrier cells. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp]; exact (lv_bar c).le)
    (fun g u hg => by obtain ⟨k, rfl⟩ := O₁_pos hg; rw [lv_recv]; decide)

/-! ## Ghost state and the invariants between grid points -/

/-- Every cell's invariant, under the names `K` the launch allocated them at, and that every cell stands at round 0. -/
def records (K : Dev nD × Fin 15 → ℕ) : sProp 𝕄 :=
  iprop((bigSep Finset.univ fun cj : Dev nD × Fin 15 => cellInv ER (rd m) (K cj) (kcell cj))
    ∗ bigSep Finset.univ fun cj : Dev nD × Fin 15 => reached ER (kcell cj) 0)

instance records_persistent (K : Dev nD × Fin 15 → ℕ) : BI.Persistent (records m K) := by unfold records; infer_instance

/-- A device's positions in its own fifteen cells. -/
def positions (c : Dev nD) : sProp 𝕄 := bigSep Finset.univ fun j : Fin 15 => atPos ER (kcell (c, j)) 0 ∅ 0
/-- The tokens of the duties device `c` pays: duty `k` of `peer c k`'s barrier, that device's receive duty `k`, its own send duty `k`. -/
def sigToks (c : Dev nD) : sProp 𝕄 := bigSep Finset.univ fun k : Fin 7 => dutyTok ER (barCell (peer c k)) 0 k
def xferToks (c : Dev nD) : sProp 𝕄 := bigSep Finset.univ fun k : Fin 7 =>
  iprop(dutyTok ER (recvCell (peer c k) k) 0 0 ∗ dutyTok ER (sendCell c k) 0 0)
/-- The credit a device is dealt: its barrier's seven units, each receive cell's row. -/
def creds (c : Dev nD) : sProp 𝕄 :=
  iprop(cred (tallyAt (barCell c) () 7) ∗ bigSep Finset.univ fun k : Fin 7 => cred (tallyAt (recvCell c k) () N))

def ghost (K : Dev nD × Fin 15 → ℕ) (c : Dev nD) : sProp 𝕄 := iprop(records m K ∗ positions c ∗ sigToks c ∗ xferToks c)
def start (c : Dev nD) : sProp 𝕄 := iprop((∃ K, ghost m K c) ∗ creds c ∗ levAts L lv)

/-- Before the first point: the ghost state, both scratch buffers at arbitrary contents. -/
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- Between the points: the signals sent (their tokens spent, the receive slots handed to the peers), the accumulator at its first half. -/
def Φ₁ (c : Dev nD) : sProp 𝕄 :=
  iprop((∃ K, records m K ∗ positions c ∗ xferToks c) ∗ creds c ∗ levAts L lv
    ∗ (((c : Thread nD τ).loc cc0_scratch0) ↦{fullShare} accH m c))
/-- After the last point: both scratch buffers back whole, the fourteen own semaphores at zero, their cells closed. -/
def Φ₂ (c : Dev nD) : sProp 𝕄 :=
  iprop((∃ f, ((c : Thread nD τ).loc cc0_scratch0) ↦{fullShare} f) ∗ (∃ f, ((c : Thread nD τ).loc cc0_scratch1) ↦{fullShare} f)
    ∗ bigSep Finset.univ fun j : Fin 14 => semVal ((c : Thread nD τ), osem j) 0)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xb m c t
    | ⟨1, _⟩ => outOf m c
  Φ t := match t with
    | ⟨0, _⟩ => Φ₀ m c
    | ⟨1, _⟩ => Φ₁ m c
    | ⟨_ + 2, _⟩ => Φ₂ c
  q _ := fullShare
  owed t := match t with
    | ⟨0, _⟩ => O₀ c
    | ⟨1, _⟩ => O₁ c
    | ⟨_ + 2, _⟩ => 0

abbrev 𝒱₀ : Variants := Variants.none

end Cert.KernelIdeal.Proto

end
-- ==== Proof.SlotMem.lean ====
/-
  The memory of the exchange: the receive buffer seen as its seven slots (which elements a slot is, that the slots
  partition the buffer, what a landed row leaves in a slot and what a load of the slot reads back), and the
  accumulator (its points-to as a whole buffer, its split into the shares lent to the copies in flight).
-/
import proofs.«901089_g7700000000001090_dist_sum_ax0_shard0_i_m4096_n1024_v7x_i8_f32_1_alg».proof.Proof.Proto
import Idealize.ShloMosaic.Lib.Pipeline.Value

noncomputable section

namespace Cert.KernelIdeal.SlotMem

open Cert.KernelIdeal Cert.KernelIdeal.Gen Cert.KernelIdeal.Acc Cert.KernelIdeal.Proto

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Where the row index `y` of slot `k` sits in the receive buffer: at `(k, y 0, y 1)`. -/
theorem slot_emb_val (k : Fin 7) (y : S1x1024.Idx) :
    (((slotM k).view.emb y 0 : Nat) = k.val) ∧ (((slotM k).view.emb y 1 : Nat) = (y 0).val) ∧ (((slotM k).view.emb y 2 : Nat) = (y 1).val) := by
  have e : Shape.reshapeEquiv (squeezes_S1x1x1024_S1x1024).numel_eq y = Fin.cons ⟨0, Nat.one_pos⟩ y :=
    Shape.reshapeEquiv_cons_one (n := 2) (d := ![1, 1024]) _ y
  have h : (slotM k).view.emb y = (Rect.unit (s := S7x1x1024) ![k.val, 0, 0] S1x1x1024.size (slot_inb k)).emb (Shape.reshapeEquiv (squeezes_S1x1x1024_S1x1024).numel_eq y) := rfl
  rw [h, e]
  refine ⟨?_, ?_, ?_⟩
  · rw [Rect.emb_apply]; simp; rfl
  · rw [Rect.emb_apply]; simp; rfl
  · rw [Rect.emb_apply]; simp; rfl

/-- The slot's elements are those with first coordinate `k`. -/
theorem mem_slot_set (k : Fin 7) (i : S7x1x1024.Idx) : i ∈ (slotM k).view.set ↔ (i 0).val = k.val := by
  have hs : (slotM k).view.set = (Rect.unit (s := S7x1x1024) ![k.val, 0, 0] S1x1x1024.size (slot_inb k)).set := by
    show ((rcvM.view.slice (Rect.unit (s := S7x1x1024) ![k.val, 0, 0] S1x1x1024.size (slot_inb k))).reshape S1x1024 _).set = _
    rw [View.set_reshape]; exact View.set_slice_whole cc0_scratch1 _
  rw [hs, Rect.mem_set_unit]
  constructor
  · intro h; have := h 0; simp at this; omega
  · intro h a
    fin_cases a
    · simp; omega
    · have := (i 1).isLt; simp at this ⊢; omega
    · have := (i 2).isLt; simp at this ⊢; omega

/-- Every element of slot `k` is the image of the row index made of its last two coordinates. -/
theorem slot_emb_of (k : Fin 7) (i : S7x1x1024.Idx) (h : (i 0).val = k.val) :
    (slotM k).view.emb (ix2 (i 1) (i 2)) = i := by
  obtain ⟨h0, h1, h2⟩ := slot_emb_val k (ix2 (i 1) (i 2))
  funext a
  match a with
  | ⟨0, _⟩ => exact Fin.ext (h0.trans h.symm)
  | ⟨1, _⟩ => exact Fin.ext h1
  | ⟨2, _⟩ => exact Fin.ext h2

omit [FloatOps F] in
/-- What a copy of a whole accumulator row leaves in slot `k`: on the slot's elements, the row at the last two coordinates. -/
theorem landed_eq (c : Dev nD) (k : Fin 7) (fd : (cc0_scratch1 : Ref sig .tc).ty.Contents (Elt F))
    (fs : (cc0_scratch0 : Ref sig .tc).ty.Contents (Elt F)) :
    slotPts (F := F) c k ((slotM k).view.write (Elt F) fd ((accM : Memref sig .tc .vmem S1x1024 .f32).view.read (Elt F) fs) Finset.univ)
      = slotPts c k (slotFill fs) := by
  unfold slotPts
  refine pointsTo_congr (fun i hi => ?_)
  have hk := (mem_slot_set k i).mp hi
  have he := slot_emb_of k i hk
  have hw := View.write_emb_of_mem (v := (slotM k).view) (Val := Elt F) fd
    ((accM : Memref sig .tc .vmem S1x1024 .f32).view.read (Elt F) fs) (M := Finset.univ) (x := ix2 (i 1) (i 2)) (Finset.mem_univ _)
  rw [he] at hw
  exact hw.trans rfl

/-! ## The seven slots partition the receive buffer -/

/-- The elements of the receive buffer whose first coordinate is at least `j`. -/
def tail (j : ℕ) : Finset S7x1x1024.Idx := Finset.univ.filter fun i => j ≤ (i 0).val

theorem mem_tail (j : ℕ) (i : S7x1x1024.Idx) : i ∈ tail j ↔ j ≤ (i 0).val := by simp [tail]

theorem tail_zero : tail 0 = Finset.univ := by ext i; simp [mem_tail]

theorem tail_succ (k : Fin 7) : tail k.val = (slotM k).view.set ∪ tail (k.val + 1) := by
  ext i; rw [Finset.mem_union, mem_slot_set, mem_tail, mem_tail]; omega

theorem tail_six : tail 6 = (slotM 6).view.set := by
  ext i; rw [mem_slot_set, mem_tail]; have : (i 0).val < 7 := (i 0).isLt; show 6 ≤ (i 0).val ↔ (i 0).val = 6; omega

theorem tail_disj (k : Fin 7) : Disjoint (slotM k).view.set (tail (k.val + 1)) := by
  rw [Finset.disjoint_left]; intro i hi ht; rw [mem_slot_set] at hi; rw [mem_tail] at ht; omega

omit [FloatOps F] in
theorem eq_of_bi {P Q : sProp 𝕄} (h : P ⊣⊢ Q) : P = Q := BI.equiv_iff.mp ⟨h.1, h.2⟩

omit [FloatOps F] in
theorem tail_step (c : Dev nD) (k : Fin 7) (j j' : ℕ) (hj : j = k.val) (hj' : j' = k.val + 1)
    (f : (cc0_scratch1 : Ref sig .tc).ty.Contents (Elt F)) :
    ((((c : Thread nD τ).loc cc0_scratch1) ↦[tail j]{fullShare} f : sProp 𝕄))
      = iprop(slotPts c k f ∗ (((c : Thread nD τ).loc cc0_scratch1) ↦[tail j']{fullShare} f)) := by
  subst hj hj'
  rw [tail_succ k]
  exact eq_of_bi (pointsTo_union (tail_disj k))

omit [FloatOps F] in
theorem rcv_split_eq (c : Dev nD) (f : (cc0_scratch1 : Ref sig .tc).ty.Contents (Elt F)) :
    (((c : Thread nD τ).loc cc0_scratch1) ↦{fullShare} f : sProp 𝕄)
      = iprop(slotPts c 0 f ∗ slotPts c 1 f ∗ slotPts c 2 f ∗ slotPts c 3 f ∗ slotPts c 4 f ∗ slotPts c 5 f ∗ slotPts c 6 f) := by
  have h6 : ((((c : Thread nD τ).loc cc0_scratch1) ↦[tail 6]{fullShare} f : sProp 𝕄)) = slotPts c 6 f := by
    rw [tail_six]; rfl
  rw [← tail_zero, tail_step c 0 0 1 rfl rfl f, tail_step c 1 1 2 rfl rfl f, tail_step c 2 2 3 rfl rfl f,
    tail_step c 3 3 4 rfl rfl f, tail_step c 4 4 5 rfl rfl f, tail_step c 5 5 6 rfl rfl f, h6]

omit [FloatOps F] in
/-- The seven slots partition the receive buffer. -/
theorem rcv_split (c : Dev nD) (f : (cc0_scratch1 : Ref sig .tc).ty.Contents (Elt F)) :
    (((c : Thread nD τ).loc cc0_scratch1) ↦{fullShare} f : sProp 𝕄)
      ⊣⊢ iprop(slotPts c 0 f ∗ slotPts c 1 f ∗ slotPts c 2 f ∗ slotPts c 3 f ∗ slotPts c 4 f ∗ slotPts c 5 f ∗ slotPts c 6 f) := by
  rw [rcv_split_eq]

omit [FloatOps F] in
/-- Slots held at different contents rejoin as the whole buffer at the contents that follow each slot's own. -/
theorem rcv_join (c : Dev nD) (f : Fin 7 → (cc0_scratch1 : Ref sig .tc).ty.Contents (Elt F)) :
    iprop(slotPts c 0 (f 0) ∗ slotPts c 1 (f 1) ∗ slotPts c 2 (f 2) ∗ slotPts c 3 (f 3) ∗ slotPts c 4 (f 4) ∗ slotPts c 5 (f 5) ∗ slotPts c 6 (f 6))
      ⊢ (∃ g, ((c : Thread nD τ).loc cc0_scratch1) ↦{fullShare} g : sProp 𝕄) := by
  let g : (cc0_scratch1 : Ref sig .tc).ty.Contents (Elt F) := fun i => f ⟨(i 0).val, (i 0).isLt⟩ i
  have hk : ∀ k : Fin 7, slotPts (F := F) c k (f k) = slotPts c k g := fun k => by
    unfold slotPts
    refine pointsTo_congr (fun i hi => ?_)
    have hi' := (mem_slot_set k i).mp hi
    have e : (⟨(i 0).val, (i 0).isLt⟩ : Fin 7) = k := Fin.ext hi'
    show f k i = f ⟨(i 0).val, (i 0).isLt⟩ i
    rw [e]
  rw [hk 0, hk 1, hk 2, hk 3, hk 4, hk 5, hk 6, ← rcv_split_eq c g]
  iintro H
  iexists g
  iexact H

omit [FloatOps F] in
/-- What a load of slot `k` reads from a buffer that holds the row `a` there. -/
theorem read_slot (k : Fin 7) (g : (cc0_scratch1 : Ref sig .tc).ty.Contents (Elt F)) (a : FVec F S1x1024 .f32)
    (h : ∀ i ∈ (slotM k).view.set, g i = slotFill a i) :
    (rcvM : Memref sig .tc .vmem S7x1x1024 .f32).view.readAt (Elt F)
      (Rect.unit (s := S7x1x1024) ![k.val, 0, 0] S1x1x1024.size (slot_inb k)).toLoadRect g = slotVal a := by
  funext x
  have e0 : (((Rect.unit (s := S7x1x1024) ![k.val, 0, 0] S1x1x1024.size (slot_inb k)).emb x 0 : Nat)) = k.val := by
    rw [Rect.emb_apply]; have : (x 0).val < 1 := (x 0).isLt; simp; omega
  have e1 : (Rect.unit (s := S7x1x1024) ![k.val, 0, 0] S1x1x1024.size (slot_inb k)).emb x 1 = x 1 :=
    Fin.ext (by rw [Rect.emb_apply]; simp)
  have e2 : (Rect.unit (s := S7x1x1024) ![k.val, 0, 0] S1x1x1024.size (slot_inb k)).emb x 2 = x 2 :=
    Fin.ext (by rw [Rect.emb_apply]; simp)
  have hg := h _ ((mem_slot_set k _).mpr e0)
  show g ((Rect.unit (s := S7x1x1024) ![k.val, 0, 0] S1x1x1024.size (slot_inb k)).emb x) = a (ix2 (x 1) (x 2))
  rw [hg]
  show a (ix2 ((Rect.unit (s := S7x1x1024) ![k.val, 0, 0] S1x1x1024.size (slot_inb k)).emb x 1)
    ((Rect.unit (s := S7x1x1024) ![k.val, 0, 0] S1x1x1024.size (slot_inb k)).emb x 2)) = a (ix2 (x 1) (x 2))
  rw [e1, e2]

/-- At `k = 2` this is the kernel's own load of slot 2. -/
example (g : (cc0_scratch1 : Ref sig .tc).ty.Contents (Elt F)) :
    (rcvM : Memref sig .tc .vmem S7x1x1024 .f32).view.readAt (Elt F)
      (Rect.unit (s := S7x1x1024) ![(2 : Fin 7).val, 0, 0] S1x1x1024.size (slot_inb 2)).toLoadRect g
    = (rcvM : Memref sig .tc .vmem S7x1x1024 .f32).view.readAt (Elt F)
      (Rect.unit (s := S7x1x1024) ![2, 0, 0] S1x1x1024.size inb_S7x1x1024_S1x1x1024_2_0_0).toLoadRect g := rfl

/-! ## The accumulator -/

omit [FloatOps F] in
/-- A share of the accumulator splits into its left half and the rest kept for later. -/
theorem acc_share_split (n : ℕ) (c : Dev nD) (f : (cc0_scratch0 : Ref sig .tc).ty.Contents (Elt F)) :
    accPts (F := F) (restN n) c f ⊣⊢ iprop(accPts (restN n).left c f ∗ accPts (restN (n + 1)) c f) := by
  unfold accPts
  exact pointsTo_share (PosShare.mem_left_op_right (restN n))

omit [FloatOps F] in
theorem acc_share_split_eq (n : ℕ) (c : Dev nD) (f : (cc0_scratch0 : Ref sig .tc).ty.Contents (Elt F)) :
    accPts (F := F) (restN n) c f = iprop(accPts (restN n).left c f ∗ accPts (restN (n + 1)) c f) :=
  eq_of_bi (acc_share_split n c f)

omit [FloatOps F] in
theorem acc_shares_eq (c : Dev nD) (f : (cc0_scratch0 : Ref sig .tc).ty.Contents (Elt F)) :
    accPts (F := F) fullShare c f = iprop(accPts (shr 0) c f ∗ accPts (shr 1) c f ∗ accPts (shr 2) c f ∗ accPts (shr 3) c f ∗
      accPts (shr 4) c f ∗ accPts (shr 5) c f ∗ accPts (shr 6) c f ∗ accPts (restN 7) c f) := by
  show accPts (F := F) (restN 0) c f = iprop(accPts (restN 0).left c f ∗ accPts (restN 1).left c f ∗ accPts (restN 2).left c f ∗
      accPts (restN 3).left c f ∗ accPts (restN 4).left c f ∗ accPts (restN 5).left c f ∗ accPts (restN 6).left c f ∗ accPts (restN 7) c f)
  rw [acc_share_split_eq 0 c f, acc_share_split_eq 1 c f, acc_share_split_eq 2 c f, acc_share_split_eq 3 c f,
    acc_share_split_eq 4 c f, acc_share_split_eq 5 c f, acc_share_split_eq 6 c f]

omit [FloatOps F] in
/-- The accumulator at full share is seven shares, one for each copy in flight, and one kept for the load. -/
theorem acc_shares (c : Dev nD) (f : (cc0_scratch0 : Ref sig .tc).ty.Contents (Elt F)) :
    accPts (F := F) fullShare c f ⊣⊢ iprop(accPts (shr 0) c f ∗ accPts (shr 1) c f ∗ accPts (shr 2) c f ∗ accPts (shr 3) c f ∗
      accPts (shr 4) c f ∗ accPts (shr 5) c f ∗ accPts (shr 6) c f ∗ accPts (restN 7) c f) := by
  rw [acc_shares_eq]

omit [FloatOps F] in
/-- The accumulator's points-to through its memref is the whole buffer's. -/
theorem accPts_full (c : Dev nD) (f : (cc0_scratch0 : Ref sig .tc).ty.Contents (Elt F)) :
    accPts (F := F) fullShare c f = (((c : Thread nD τ).loc cc0_scratch0) ↦{fullShare} f : sProp 𝕄) := by
  unfold accPts; rw [View.set_whole]

omit [FloatOps F] in
/-- A load of the whole accumulator reads its contents. -/
theorem read_acc (f : (cc0_scratch0 : Ref sig .tc).ty.Contents (Elt F)) :
    (accM : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 (by funext a; fin_cases a <;> rfl) inb_S1x1024_S1x1024_0_0 f

omit [FloatOps F] in
/-- An unmasked store of the whole accumulator leaves its payload. -/
theorem write_acc (f w : (cc0_scratch0 : Ref sig .tc).ty.Contents (Elt F)) :
    ((accM : Memref sig .tc .vmem S1x1024 .f32).access
      (Rect.unit (s := S1x1024) ![0, 0] S1x1024.size inb_S1x1024_S1x1024_0_0) : View sig .tc _ _ _).write (Elt F) f w Finset.univ = w :=
  Memref.write_access_unit_zero_univ (Elt F) cc0_scratch0 (by funext a; fin_cases a <;> rfl) inb_S1x1024_S1x1024_0_0 f w

end Cert.KernelIdeal.SlotMem

end
-- ==== Proof.BodyCommon.lean ====
/-
  What every grid point's run shares: which device each of the kernel's device words names, which branch each
  point takes and which staging slot it is on, and how one cell's invariant is read out of the family.
-/
import proofs.«901089_g7700000000001090_dist_sum_ax0_shard0_i_m4096_n1024_v7x_i8_f32_1_alg».proof.Proof.Proto
import proofs.«901089_g7700000000001090_dist_sum_ax0_shard0_i_m4096_n1024_v7x_i8_f32_1_alg».proof.Proof.SlotMem

noncomputable section

namespace Cert.KernelIdeal.Body

open Cert.KernelIdeal Cert.KernelIdeal.Gen Cert.KernelIdeal.Acc Cert.KernelIdeal.Proto
open Idealize.ShloMosaic.Tactic
open Cert.KernelIdeal.SlotMem

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)
/-! ## The devices the kernel addresses -/

theorem dev1_val : ∀ c : Dev nD, k0_dev1 c = (peer c 0).val := by decide +kernel
theorem dev2_val : ∀ c : Dev nD, k0_dev2 c = (peer c 1).val := by decide +kernel
theorem dev3_val : ∀ c : Dev nD, k0_dev3 c = (peer c 2).val := by decide +kernel
theorem dev4_val : ∀ c : Dev nD, k0_dev4 c = (peer c 3).val := by decide +kernel
theorem dev5_val : ∀ c : Dev nD, k0_dev5 c = (peer c 4).val := by decide +kernel
theorem dev6_val : ∀ c : Dev nD, k0_dev6 c = (peer c 5).val := by decide +kernel
theorem dev7_val : ∀ c : Dev nD, k0_dev7 c = (peer c 6).val := by decide +kernel
theorem dev8_val : ∀ c : Dev nD, k0_dev8 c = (peer c 0).val := by decide +kernel
theorem dev9_val : ∀ c : Dev nD, k0_dev9 c = (peer c 1).val := by decide +kernel
theorem dev10_val : ∀ c : Dev nD, k0_dev10 c = (peer c 2).val := by decide +kernel
theorem dev11_val : ∀ c : Dev nD, k0_dev11 c = (peer c 3).val := by decide +kernel
theorem dev12_val : ∀ c : Dev nD, k0_dev12 c = (peer c 4).val := by decide +kernel
theorem dev13_val : ∀ c : Dev nD, k0_dev13 c = (peer c 5).val := by decide +kernel
theorem dev14_val : ∀ c : Dev nD, k0_dev14 c = (peer c 6).val := by decide +kernel

theorem cond1_0 : k0_cond1 (grid0.coords t0_0) = 1#1 := by decide
theorem cond2_0 : ¬ k0_cond2 (grid0.coords t0_0) = 1#1 := by decide
theorem cond1_1 : ¬ k0_cond1 (grid0.coords t0_1) = 1#1 := by decide
theorem cond2_1 : k0_cond2 (grid0.coords t0_1) = 1#1 := by decide
theorem slots00 : cfg0.slots t0_0 0 = 0 := by decide
theorem slots01 : cfg0.slots t0_0 1 = 0 := by decide
theorem slots10 : cfg0.slots t0_1 0 = 1 := by decide
theorem slots11 : cfg0.slots t0_1 1 = 0 := by decide

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem inv_at (K : Dev nD × Fin 15 → ℕ) (cj : Dev nD × Fin 15) :
    (bigSep Finset.univ fun cj : Dev nD × Fin 15 => (cellInv ER (rd m) (K cj) (kcell cj) : sProp 𝕄)) ⊢ cellInv ER (rd m) (K cj) (kcell cj) :=
  bigSep_elim (Finset.mem_univ cj)
omit [FloatOps F] in
theorem reached_at (cj : Dev nD × Fin 15) :
    (bigSep Finset.univ fun cj : Dev nD × Fin 15 => (reached ER (kcell cj) 0 : sProp 𝕄)) ⊢ reached ER (kcell cj) 0 :=
  bigSep_elim (Finset.mem_univ cj)

theorem dev1_eq (c : Dev nD) (h : k0_dev1 c < nD) : (⟨k0_dev1 c, h⟩ : Dev nD) = peer c 0 := Fin.ext (dev1_val c)
theorem dev2_eq (c : Dev nD) (h : k0_dev2 c < nD) : (⟨k0_dev2 c, h⟩ : Dev nD) = peer c 1 := Fin.ext (dev2_val c)
theorem dev3_eq (c : Dev nD) (h : k0_dev3 c < nD) : (⟨k0_dev3 c, h⟩ : Dev nD) = peer c 2 := Fin.ext (dev3_val c)
theorem dev4_eq (c : Dev nD) (h : k0_dev4 c < nD) : (⟨k0_dev4 c, h⟩ : Dev nD) = peer c 3 := Fin.ext (dev4_val c)
theorem dev5_eq (c : Dev nD) (h : k0_dev5 c < nD) : (⟨k0_dev5 c, h⟩ : Dev nD) = peer c 4 := Fin.ext (dev5_val c)
theorem dev6_eq (c : Dev nD) (h : k0_dev6 c < nD) : (⟨k0_dev6 c, h⟩ : Dev nD) = peer c 5 := Fin.ext (dev6_val c)
theorem dev7_eq (c : Dev nD) (h : k0_dev7 c < nD) : (⟨k0_dev7 c, h⟩ : Dev nD) = peer c 6 := Fin.ext (dev7_val c)
theorem dev8_eq (c : Dev nD) (h : k0_dev8 c < nD) : (⟨k0_dev8 c, h⟩ : Dev nD) = peer c 0 := Fin.ext (dev8_val c)
theorem dev9_eq (c : Dev nD) (h : k0_dev9 c < nD) : (⟨k0_dev9 c, h⟩ : Dev nD) = peer c 1 := Fin.ext (dev9_val c)
theorem dev10_eq (c : Dev nD) (h : k0_dev10 c < nD) : (⟨k0_dev10 c, h⟩ : Dev nD) = peer c 2 := Fin.ext (dev10_val c)
theorem dev11_eq (c : Dev nD) (h : k0_dev11 c < nD) : (⟨k0_dev11 c, h⟩ : Dev nD) = peer c 3 := Fin.ext (dev11_val c)
theorem dev12_eq (c : Dev nD) (h : k0_dev12 c < nD) : (⟨k0_dev12 c, h⟩ : Dev nD) = peer c 4 := Fin.ext (dev12_val c)
theorem dev13_eq (c : Dev nD) (h : k0_dev13 c < nD) : (⟨k0_dev13 c, h⟩ : Dev nD) = peer c 5 := Fin.ext (dev13_val c)
theorem dev14_eq (c : Dev nD) (h : k0_dev14 c < nD) : (⟨k0_dev14 c, h⟩ : Dev nD) = peer c 6 := Fin.ext (dev14_val c)

theorem inv_bar (K : Dev nD × Fin 15 → ℕ) (c' : Dev nD) :
    (bigSep Finset.univ fun cj : Dev nD × Fin 15 => (cellInv ER (rd m) (K cj) (kcell cj) : sProp 𝕄)) ⊢ cellInv ER (rd m) (K (c', 0)) (barCell c') :=
  inv_at m K (c', 0)
theorem inv_send (K : Dev nD × Fin 15 → ℕ) (c' : Dev nD) (k : Fin 7) :
    (bigSep Finset.univ fun cj : Dev nD × Fin 15 => (cellInv ER (rd m) (K cj) (kcell cj) : sProp 𝕄)) ⊢ cellInv ER (rd m) (K (c', sJ k)) (sendCell c' k) := by
  have h := inv_at m K (c', sJ k); rwa [show kcell (c', sJ k) = sendCell c' k from congrArg (Prod.mk _) (csem_sJ k)] at h
theorem inv_recv (K : Dev nD × Fin 15 → ℕ) (c' : Dev nD) (k : Fin 7) :
    (bigSep Finset.univ fun cj : Dev nD × Fin 15 => (cellInv ER (rd m) (K cj) (kcell cj) : sProp 𝕄)) ⊢ cellInv ER (rd m) (K (c', rJ k)) (recvCell c' k) := by
  have h := inv_at m K (c', rJ k); rwa [show kcell (c', rJ k) = recvCell c' k from congrArg (Prod.mk _) (csem_rJ k)] at h
omit [FloatOps F] in
theorem reached_bar (c' : Dev nD) :
    (bigSep Finset.univ fun cj : Dev nD × Fin 15 => (reached ER (kcell cj) 0 : sProp 𝕄)) ⊢ reached ER (barCell c') 0 :=
  reached_at (c', 0)
omit [FloatOps F] in
theorem reached_send (c' : Dev nD) (k : Fin 7) :
    (bigSep Finset.univ fun cj : Dev nD × Fin 15 => (reached ER (kcell cj) 0 : sProp 𝕄)) ⊢ reached ER (sendCell c' k) 0 := by
  have h := reached_at (F := F) (c', sJ k); rwa [show kcell (c', sJ k) = sendCell c' k from congrArg (Prod.mk _) (csem_sJ k)] at h
omit [FloatOps F] in
theorem reached_recv (c' : Dev nD) (k : Fin 7) :
    (bigSep Finset.univ fun cj : Dev nD × Fin 15 => (reached ER (kcell cj) 0 : sProp 𝕄)) ⊢ reached ER (recvCell c' k) 0 := by
  have h := reached_at (F := F) (c', rJ k); rwa [show kcell (c', rJ k) = recvCell c' k from congrArg (Prod.mk _) (csem_rJ k)] at h

omit [FloatOps F] in
/-- A device's fifteen positions, cell by cell. -/
theorem positions_eq (c : Dev nD) : positions (F := F) c = iprop(atPos ER (barCell c) 0 ∅ 0
    ∗ atPos ER (sendCell c 0) 0 ∅ 0 ∗ atPos ER (sendCell c 1) 0 ∅ 0 ∗ atPos ER (sendCell c 2) 0 ∅ 0 ∗ atPos ER (sendCell c 3) 0 ∅ 0
    ∗ atPos ER (sendCell c 4) 0 ∅ 0 ∗ atPos ER (sendCell c 5) 0 ∅ 0 ∗ atPos ER (sendCell c 6) 0 ∅ 0
    ∗ atPos ER (recvCell c 0) 0 ∅ 0 ∗ atPos ER (recvCell c 1) 0 ∅ 0 ∗ atPos ER (recvCell c 2) 0 ∅ 0 ∗ atPos ER (recvCell c 3) 0 ∅ 0
    ∗ atPos ER (recvCell c 4) 0 ∅ 0 ∗ atPos ER (recvCell c 5) 0 ∅ 0 ∗ atPos ER (recvCell c 6) 0 ∅ 0) :=
  bigSep_fin15 _

omit [FloatOps F] in
theorem hz2 : (![0, 0] : Fin 2 → Nat) = fun _ => 0 := funext fun a => by fin_cases a <;> rfl

abbrev RA : Rect S1x1024 := Rect.unit (s := S1x1024) ![0, 0] S1x1024.size inb_S1x1024_S1x1024_0_0
abbrev RX : Rect S2048x1024 := Rect.unit (s := S2048x1024) ![0, 0] S2048x1024.size inb_S2048x1024_S2048x1024_0_0

omit [FloatOps F] in
theorem read_x0 (g : (cc0_stg0_0 : Ref sig .tc).ty.Contents (Elt F)) :
    (Memref.whole cc0_stg0_0 : Memref sig .tc .vmem S2048x1024 .f32).view.readAt (Elt F) RX.toLoadRect g = g :=
  Memref.readAt_unit_zero (Elt F) cc0_stg0_0 hz2 _ g
omit [FloatOps F] in
theorem read_x1 (g : (cc0_stg0_1 : Ref sig .tc).ty.Contents (Elt F)) :
    (Memref.whole cc0_stg0_1 : Memref sig .tc .vmem S2048x1024 .f32).view.readAt (Elt F) RX.toLoadRect g = g :=
  Memref.readAt_unit_zero (Elt F) cc0_stg0_1 hz2 _ g

/-- The accumulator after one store of `w` over anything. -/
theorem acc_write1 (f w : (cc0_scratch0 : Ref sig .tc).ty.Contents (Elt F)) (L : List (View.Piece (Elt F) S1x1024 .f32)) :
    (accM : Memref sig .tc .vmem S1x1024 .f32).view.writes (Elt F) f (⟨RA, w⟩ :: L) = w := by
  rw [View.writes_cons]; exact write_acc _ w
/-- A load of the accumulator right after a store of `z` reads `z`. -/
theorem acc_readCov (z : (cc0_scratch0 : Ref sig .tc).ty.Contents (Elt F)) :
    (accM : Memref sig .tc .vmem S1x1024 .f32).view.readCov [(⟨RA, z⟩ : View.Piece (Elt F) S1x1024 .f32)] RA.toLoadRect = z :=
  View.readCov_unit_zero _ hz2 _ z

/-- What the first window's staging buffer holds at a point: that point's block of rows. -/
theorem before_x (c : Dev nD) (t : Fin cfg0.N) (d) : (dats m ρ 0 c).before (0 : Fin 2) t d = xb m c t :=
  ((dats m ρ 0 c).before_in_eq_fetched 0 rfl (fun _ => rfl) (fun _ _ _ => rfl)
    (fun t => by show xb m c t = _; unfold Dat.blockOf; rfl) t d).trans
    (by unfold Dat.fetched Dat.blockOf; rfl)

end Cert.KernelIdeal.Body
end
-- ==== Proof.Body0.lean ====
/-
  The first grid point on a device: it signals the seven peers' barrier cells, each signal handing the peer one slot of
  its own receive buffer, zeroes the accumulator and adds the column sums of its first block of rows.
-/
import proofs.«901089_g7700000000001090_dist_sum_ax0_shard0_i_m4096_n1024_v7x_i8_f32_1_alg».proof.Proof.BodyCommon

noncomputable section

namespace Cert.KernelIdeal.Body

open Cert.KernelIdeal Cert.KernelIdeal.Gen Cert.KernelIdeal.Acc Cert.KernelIdeal.Proto
open Idealize.ShloMosaic.Tactic
open Cert.KernelIdeal.SlotMem

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

section B0
variable (K : Dev nD × Fin 15 → ℕ)

def bodyPre0 (c : Dev nD) : sProp 𝕄 :=
  iprop(ghost m K c ∗ creds c ∗ levAts L lv
    ∗ (∃ f, accPts fullShare c f) ∗ (∃ f, ((c : Thread nD τ).loc cc0_scratch1) ↦{fullShare} f)
    ∗ (dats m ρ 0 c).owesAt () t0_0.castSucc
    ∗ (∃ d, owns (c : Thread nD τ) (Memref.whole cc0_stg0_0) fullShare ((dats m ρ 0 c).before (0 : Fin 2) t0_0 d))
    ∗ (∃ d, owns (c : Thread nD τ) (Memref.whole cc0_stg1_0) fullShare ((dats m ρ 0 c).before (1 : Fin 2) t0_0 d)))

def bodyPost0 (c : Dev nD) : sProp 𝕄 :=
  iprop(Φ₁ m c ∗ (dats m ρ 0 c).owesAt () t0_0.succ ∗ owns (c : Thread nD τ) (Memref.whole cc0_stg0_0) fullShare (xb m c t0_0)
    ∗ (∃ d, owns (c : Thread nD τ) (Memref.whole cc0_stg1_0) fullShare ((dats m ρ 0 c).before (1 : Fin 2) t0_0 d)))

/-- The payload of the duty device `c` pays on `peer c k`'s barrier cell: slot `k` of its own receive buffer. -/
theorem payload_bar_peer (c : Dev nD) (k : Fin 7) :
    (rd (F := F) m).payload (barCell (peer c k)) 0 k
      = iprop(∃ f : (cc0_scratch1 : Ref sig .tc).ty.Contents (Elt F), (slotM k).view.loc (c : Thread nD τ) ↦[(slotM k).view.set]{fullShare} (f : Buf (Elt F) ((slotM k).view.loc (c : Thread nD τ)))) := by
  rw [payload_bar]; unfold barPay slotPts; rw [peer_peer]

theorem mem_duties_bar (c : Dev nD) (k : Fin 7) : k ∈ (rd (F := F) m).duties (barCell c) 0 := by rw [duties_bar]; exact Finset.mem_univ _

attribute [local sl_rounds] duties_bar amount_bar payload_bar_peer mem_duties_bar
attribute [local sl_canon] dev1_eq dev2_eq dev3_eq dev4_eq dev5_eq dev6_eq dev7_eq

set_option maxHeartbeats 1600000 in
theorem sound_body0 (c : Dev nD) (Kt : PUnit → sProp 𝕄) :
    iprop(bodyPre0 m ρ K c ∗ (bodyPost0 m ρ c -∗ Kt ⟨⟩))
      ⊢ wp frame (wpE (defs₀ (F := F)) 𝒱₀ c none) Set.univ
          (cc0_body (grid0.coords t0_0) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre0 ghost records Dat.owesAt Pipeline.owesWithin
  rw [show sigToks (F := F) c = _ from bigSep_fin7 _, show (dats m ρ 0 c).owed t0_0.castSucc = O₀ c from rfl]
  simp only [O₀, owedL, Bt, all7]
  unfold owns accPts
  iintro ⟨⟨⟨⟨#HIs, #HRs⟩, Hpos, ⟨Ht0, Ht1, Ht2, Ht3, Ht4, Ht5, Ht6⟩, Hxf⟩, Hcr, #Hlev, ⟨%fa, Hacc⟩, ⟨%fr, Hrcv⟩, ⟨%W, %hW, HO⟩, ⟨%d0, %g0, %hg0, Hx⟩, ⟨%d1, %g1, %hg1, Hout⟩⟩, Hk⟩
  ihave HI0 := (inv_bar m K (peer c 0)) $$ HIs; icases HI0 with #HI0
  ihave HI1 := (inv_bar m K (peer c 1)) $$ HIs; icases HI1 with #HI1
  ihave HI2 := (inv_bar m K (peer c 2)) $$ HIs; icases HI2 with #HI2
  ihave HI3 := (inv_bar m K (peer c 3)) $$ HIs; icases HI3 with #HI3
  ihave HI4 := (inv_bar m K (peer c 4)) $$ HIs; icases HI4 with #HI4
  ihave HI5 := (inv_bar m K (peer c 5)) $$ HIs; icases HI5 with #HI5
  ihave HI6 := (inv_bar m K (peer c 6)) $$ HIs; icases HI6 with #HI6
  ihave Hr0 := (reached_bar (F := F) (peer c 0)) $$ HRs; icases Hr0 with #Hr0
  ihave Hr1 := (reached_bar (F := F) (peer c 1)) $$ HRs; icases Hr1 with #Hr1
  ihave Hr2 := (reached_bar (F := F) (peer c 2)) $$ HRs; icases Hr2 with #Hr2
  ihave Hr3 := (reached_bar (F := F) (peer c 3)) $$ HRs; icases Hr3 with #Hr3
  ihave Hr4 := (reached_bar (F := F) (peer c 4)) $$ HRs; icases Hr4 with #Hr4
  ihave Hr5 := (reached_bar (F := F) (peer c 5)) $$ HRs; icases Hr5 with #Hr5
  ihave Hr6 := (reached_bar (F := F) (peer c 6)) $$ HRs; icases Hr6 with #Hr6
  have hsplit := (rcv_split (F := F) c fr).1
  unfold slotPts at hsplit
  ihave Hs := hsplit $$ Hrcv
  icases Hs with ⟨Hs0, Hs1, Hs2, Hs3, Hs4, Hs5, Hs6⟩
  have hc1 := cond1_0
  have hc2 := cond2_0
  sl_unfold [cc0_body]
  sl_exec
  sl_step
  iapply Hk
  unfold bodyPost0 Φ₁ Dat.owesAt Pipeline.owesWithin owns
  rw [show (dats m ρ 0 c).owed t0_0.succ = O₁ c from rfl]
  sl_unfold_words
  have hg : (g0 : (cc0_stg0_0 : Ref sig .tc).ty.Contents (Elt F)) = xb m c t0_0 := by
    have h := hg0; rw [before_x] at h; simpa only [Memref.view_whole, View.read_whole] using h
  have hacc : (accM : Memref sig .tc .vmem S1x1024 .f32).view.writes (Elt F) fa
      [⟨RA, k0_pay2 ((accM : Memref sig .tc .vmem S1x1024 .f32).view.readCov [(⟨RA, k0_pay1 (k0_pay3 (F := F))⟩ : View.Piece (Elt F) S1x1024 .f32)] RA.toLoadRect)
          ((Memref.whole cc0_stg0_0 : Memref sig .tc .vmem S2048x1024 .f32).view.readAt (Elt F) RX.toLoadRect g0)⟩,
        ⟨RA, k0_pay1 (k0_pay3 (F := F))⟩] = accH m c := by
    rw [acc_write1, acc_readCov, read_x0, hg]; rfl
  ihave Hacc' := (Entails.of_eq (congrArg (fun f => ((accM : Memref sig .tc .vmem S1x1024 .f32).view.loc (c : Thread nD τ) ↦[(accM : Memref sig .tc .vmem S1x1024 .f32).view.set]{fullShare} f : sProp 𝕄)) hacc)) $$ Hacc
  have hfull := accPts_full (F := F) c (accH m c)
  unfold accPts at hfull
  ihave Hacc'' := (Entails.of_eq hfull) $$ Hacc'
  isplitl [Hpos Hxf Hcr Hacc'']
  · isplitl [Hpos Hxf]
    · iexists K
      isplitr
      · unfold records; isplitr; · iexact HIs
        iexact HRs
      isplitl [Hpos]; · iexact Hpos
      iexact Hxf
    isplitl [Hcr]; · iexact Hcr
    isplitr; · iexact Hlev
    iexact Hacc''
  isplitl [HO]
  · iexists W
    isplitr; · ipureintro; exact fun _ _ => Or.inl trivial
    iexact HO
  isplitl [Hx]
  · iexists g0
    isplitr; · ipureintro; rw [hg0]; exact before_x m ρ c t0_0 d0
    iexact Hx
  iexists d1; iexists g1
  isplitr; · ipureintro; exact hg1
  iexact Hout
end B0

end Cert.KernelIdeal.Body
end
-- ==== Proof.Body1.lean ====
/-
  The second grid point on a device: it adds the column sums of its second block of rows, waits for the seven peers'
  signals (each hands it a slot of that peer's receive buffer), copies its accumulator into those seven slots, adds the
  seven rows the peers copied into its own slots, stores the sum, and waits for its copies to have been read out.
-/
import proofs.«901089_g7700000000001090_dist_sum_ax0_shard0_i_m4096_n1024_v7x_i8_f32_1_alg».proof.Proof.BodyCommon

noncomputable section

namespace Cert.KernelIdeal.Body

open Cert.KernelIdeal Cert.KernelIdeal.Gen Cert.KernelIdeal.Acc Cert.KernelIdeal.Proto
open Idealize.ShloMosaic.Tactic
open Cert.KernelIdeal.SlotMem

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

omit [FloatOps F] in
/-- On slot `k`'s elements, what a copy of the row `fs` left there is that row, whatever the slot held before. -/
theorem landed_at (k : Fin 7) (fd : (cc0_scratch1 : Ref sig .tc).ty.Contents (Elt F)) (fs : (cc0_scratch0 : Ref sig .tc).ty.Contents (Elt F)) :
    ∀ i ∈ (slotM k).view.set, ((slotM k).view.write (Elt F) fd ((accM : Memref sig .tc .vmem S1x1024 .f32).view.read (Elt F) fs) Finset.univ) i = slotFill fs i := by
  intro i hi
  have hk := (mem_slot_set k i).mp hi
  have he := slot_emb_of k i hk
  have hw := View.write_emb_of_mem (v := (slotM k).view) (Val := Elt F) fd
    ((accM : Memref sig .tc .vmem S1x1024 .f32).view.read (Elt F) fs) (M := Finset.univ) (x := ix2 (i 1) (i 2)) (Finset.mem_univ _)
  rw [he] at hw
  exact hw.trans rfl
omit [FloatOps F] in
theorem read_landed0 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![0, 0, 0] S1x1x1024.size inb_S7x1x1024_S1x1x1024_0_0_0).toLoadRect
      ((slotM 0).view.write (Elt F) fd ((accM : Memref sig .tc .vmem S1x1024 .f32).view.read (Elt F) fs) Finset.univ) = slotVal fs :=
  read_slot 0 _ fs (landed_at 0 fd fs)
omit [FloatOps F] in
theorem read_landed1 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![1, 0, 0] S1x1x1024.size inb_S7x1x1024_S1x1x1024_1_0_0).toLoadRect
      ((slotM 1).view.write (Elt F) fd ((accM : Memref sig .tc .vmem S1x1024 .f32).view.read (Elt F) fs) Finset.univ) = slotVal fs :=
  read_slot 1 _ fs (landed_at 1 fd fs)
omit [FloatOps F] in
theorem read_landed2 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![2, 0, 0] S1x1x1024.size inb_S7x1x1024_S1x1x1024_2_0_0).toLoadRect
      ((slotM 2).view.write (Elt F) fd ((accM : Memref sig .tc .vmem S1x1024 .f32).view.read (Elt F) fs) Finset.univ) = slotVal fs :=
  read_slot 2 _ fs (landed_at 2 fd fs)
omit [FloatOps F] in
theorem read_landed3 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![3, 0, 0] S1x1x1024.size inb_S7x1x1024_S1x1x1024_3_0_0).toLoadRect
      ((slotM 3).view.write (Elt F) fd ((accM : Memref sig .tc .vmem S1x1024 .f32).view.read (Elt F) fs) Finset.univ) = slotVal fs :=
  read_slot 3 _ fs (landed_at 3 fd fs)
omit [FloatOps F] in
theorem read_landed4 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![4, 0, 0] S1x1x1024.size inb_S7x1x1024_S1x1x1024_4_0_0).toLoadRect
      ((slotM 4).view.write (Elt F) fd ((accM : Memref sig .tc .vmem S1x1024 .f32).view.read (Elt F) fs) Finset.univ) = slotVal fs :=
  read_slot 4 _ fs (landed_at 4 fd fs)
omit [FloatOps F] in
theorem read_landed5 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![5, 0, 0] S1x1x1024.size inb_S7x1x1024_S1x1x1024_5_0_0).toLoadRect
      ((slotM 5).view.write (Elt F) fd ((accM : Memref sig .tc .vmem S1x1024 .f32).view.read (Elt F) fs) Finset.univ) = slotVal fs :=
  read_slot 5 _ fs (landed_at 5 fd fs)
omit [FloatOps F] in
theorem read_landed6 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![6, 0, 0] S1x1x1024.size inb_S7x1x1024_S1x1x1024_6_0_0).toLoadRect
      ((slotM 6).view.write (Elt F) fd ((accM : Memref sig .tc .vmem S1x1024 .f32).view.read (Elt F) fs) Finset.univ) = slotVal fs :=
  read_slot 6 _ fs (landed_at 6 fd fs)

omit [FloatOps F] in
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] in
/-- The fourteen own semaphores at zero, as the exit wants them. -/
theorem ownSems_eq (c : Dev nD) : (bigSep Finset.univ fun j : Fin 14 => (semVal ((c : Thread nD τ), osem j) 0 : sProp 𝕄))
    = iprop(semVal (sendCell c 0) 0 ∗ semVal (sendCell c 1) 0 ∗ semVal (sendCell c 2) 0 ∗ semVal (sendCell c 3) 0 ∗ semVal (sendCell c 4) 0
      ∗ semVal (sendCell c 5) 0 ∗ semVal (sendCell c 6) 0 ∗ semVal (recvCell c 0) 0 ∗ semVal (recvCell c 1) 0 ∗ semVal (recvCell c 2) 0
      ∗ semVal (recvCell c 3) 0 ∗ semVal (recvCell c 4) 0 ∗ semVal (recvCell c 5) 0 ∗ semVal (recvCell c 6) 0) :=
  bigSep_fin14 _

omit [FloatOps F] in
theorem out_write1 (f w : (cc0_stg1_0 : Ref sig .tc).ty.Contents (Elt F)) :
    (Memref.whole cc0_stg1_0 : Memref sig .tc .vmem S1x1024 .f32).view.writes (Elt F) f [⟨RA, w⟩] = w := by
  rw [View.writes_singleton]; exact Memref.write_access_unit_zero_univ (Elt F) cc0_stg1_0 hz2 _ f w

section B1
variable (K : Dev nD × Fin 15 → ℕ)

def bodyPre1 (c : Dev nD) : sProp 𝕄 :=
  iprop(records m K ∗ positions c ∗ xferToks c ∗ creds c ∗ levAts L lv
    ∗ accPts fullShare c (accH m c)
    ∗ (dats m ρ 0 c).owesAt () t0_1.castSucc
    ∗ (∃ d, owns (c : Thread nD τ) (Memref.whole cc0_stg0_1) fullShare ((dats m ρ 0 c).before (0 : Fin 2) t0_1 d))
    ∗ (∃ d, owns (c : Thread nD τ) (Memref.whole cc0_stg1_0) fullShare ((dats m ρ 0 c).before (1 : Fin 2) t0_1 d)))

def bodyPost1 (c : Dev nD) : sProp 𝕄 :=
  iprop(Φ₂ (F := F) c ∗ (dats m ρ 0 c).owesAt () t0_1.succ ∗ owns (c : Thread nD τ) (Memref.whole cc0_stg0_1) fullShare (xb m c t0_1)
    ∗ owns (c : Thread nD τ) (Memref.whole cc0_stg1_0) fullShare (outOf m c))

omit [FloatOps F] in
theorem exists_const_eq {T : Type} [Inhabited T] (P : sProp 𝕄) : (iprop(∃ _x : T, P) : sProp 𝕄) = P :=
  eq_of_bi ⟨exists_elim fun _ => BI.Entails.refl _, exists_intro (Φ := fun _ : T => P) default⟩

/-- The payload of duty `d` of a device's own barrier cell: slot `d` of `peer c d`'s receive buffer. -/
theorem payload_bar_own (c : Dev nD) (d : Fin 7) :
    (rd (F := F) m).payload (barCell c) 0 d
      = iprop(∃ f : (cc0_scratch1 : Ref sig .tc).ty.Contents (Elt F), (slotM d).view.loc (peer c d : Thread nD τ) ↦[(slotM d).view.set]{fullShare} (f : Buf (Elt F) ((slotM d).view.loc (peer c d : Thread nD τ)))) := by
  rw [payload_bar]; unfold barPay slotPts; rfl
/-- A send cell's: the accumulator at that copy's share. -/
theorem payload_send_own (c : Dev nD) (k d : Fin 7) :
    (rd (F := F) m).payload (sendCell c k) 0 d
      = ((accM : Memref sig .tc .vmem S1x1024 .f32).view.loc (c : Thread nD τ) ↦[(accM : Memref sig .tc .vmem S1x1024 .f32).view.set]{shr k} (accOf m c : Buf (Elt F) ((accM : Memref sig .tc .vmem S1x1024 .f32).view.loc (c : Thread nD τ)))) := by
  rw [payload_send]; unfold sendPay accPts; rfl
/-- A receive cell's, as the copy lands it: slot `k` rewritten by the accumulator of the device that pays it. -/
theorem payload_recv_own (c : Dev nD) (k d : Fin 7) :
    (rd (F := F) m).payload (recvCell c k) 0 d
      = iprop(∃ fd : (cc0_scratch1 : Ref sig .tc).ty.Contents (Elt F), (slotM k).view.loc (c : Thread nD τ) ↦[(slotM k).view.set]{fullShare}
          ((slotM k).view.write (Elt F) (fd : Buf (Elt F) ((slotM k).view.loc (c : Thread nD τ))) ((accM : Memref sig .tc .vmem S1x1024 .f32).view.read (Elt F) (accOf m (peer c k))) Finset.univ)) := by
  rw [payload_recv]; unfold recvPay
  have h : ∀ fd, slotPts (F := F) c k ((slotM k).view.write (Elt F) fd ((accM : Memref sig .tc .vmem S1x1024 .f32).view.read (Elt F) (accOf m (peer c k))) Finset.univ)
      = slotPts c k (slotFill (accOf m (peer c k))) := fun fd => landed_eq c k fd _
  unfold slotPts at h
  simp only [h]
  rw [exists_const_eq]; rfl
theorem payload_recv_peer (c : Dev nD) (k d : Fin 7) :
    (rd (F := F) m).payload (recvCell (peer c k) k) 0 d
      = iprop(∃ fd : (cc0_scratch1 : Ref sig .tc).ty.Contents (Elt F), (slotM k).view.loc (peer c k : Thread nD τ) ↦[(slotM k).view.set]{fullShare}
          ((slotM k).view.write (Elt F) (fd : Buf (Elt F) ((slotM k).view.loc (peer c k : Thread nD τ))) ((accM : Memref sig .tc .vmem S1x1024 .f32).view.read (Elt F) (accOf m c)) Finset.univ)) := by
  rw [payload_recv_own, peer_peer]

theorem mem_duties_bar (c : Dev nD) (k : Fin 7) : k ∈ (rd (F := F) m).duties (barCell c) 0 := by rw [duties_bar]; exact Finset.mem_univ _
theorem mem_duties_send (c : Dev nD) (k : Fin 7) : (0 : Fin 7) ∈ (rd (F := F) m).duties (sendCell c k) 0 := by rw [duties_send]; exact Finset.mem_singleton_self _
theorem mem_duties_recv (c : Dev nD) (k : Fin 7) : (0 : Fin 7) ∈ (rd (F := F) m).duties (recvCell c k) 0 := by rw [duties_recv]; exact Finset.mem_singleton_self _

attribute [local sl_rounds] duties_bar duties_send duties_recv amount_bar amount_send amount_recv expect_bar expect_send expect_recv
  payload_bar_own payload_send_own payload_recv_own peer_peer mem_duties_bar mem_duties_send mem_duties_recv
theorem sendS_canon0 : (cc0_scratch2.slice (Rect.unit (s := S7) ![0] S1.size inb_S7_S1_0)).squeeze S_ squeezes_S1_S_ = sendS 0 := rfl
theorem recvS_canon0 : (cc0_scratch3.slice (Rect.unit (s := S7) ![0] S1.size inb_S7_S1_0)).squeeze S_ squeezes_S1_S_ = recvS 0 := rfl
theorem slotM_canon0 : ((Memref.whole cc0_scratch1 : Memref sig .tc .vmem S7x1x1024 .f32).slice (Rect.unit (s := S7x1x1024) ![0, 0, 0] S1x1x1024.size inb_S7x1x1024_S1x1x1024_0_0_0) (fun _ => rfl)).squeeze S1x1024 squeezes_S1x1x1024_S1x1024 = slotM 0 := rfl
theorem sendS_canon1 : (cc0_scratch2.slice (Rect.unit (s := S7) ![1] S1.size inb_S7_S1_1)).squeeze S_ squeezes_S1_S_ = sendS 1 := rfl
theorem recvS_canon1 : (cc0_scratch3.slice (Rect.unit (s := S7) ![1] S1.size inb_S7_S1_1)).squeeze S_ squeezes_S1_S_ = recvS 1 := rfl
theorem slotM_canon1 : ((Memref.whole cc0_scratch1 : Memref sig .tc .vmem S7x1x1024 .f32).slice (Rect.unit (s := S7x1x1024) ![1, 0, 0] S1x1x1024.size inb_S7x1x1024_S1x1x1024_1_0_0) (fun _ => rfl)).squeeze S1x1024 squeezes_S1x1x1024_S1x1024 = slotM 1 := rfl
theorem sendS_canon2 : (cc0_scratch2.slice (Rect.unit (s := S7) ![2] S1.size inb_S7_S1_2)).squeeze S_ squeezes_S1_S_ = sendS 2 := rfl
theorem recvS_canon2 : (cc0_scratch3.slice (Rect.unit (s := S7) ![2] S1.size inb_S7_S1_2)).squeeze S_ squeezes_S1_S_ = recvS 2 := rfl
theorem slotM_canon2 : ((Memref.whole cc0_scratch1 : Memref sig .tc .vmem S7x1x1024 .f32).slice (Rect.unit (s := S7x1x1024) ![2, 0, 0] S1x1x1024.size inb_S7x1x1024_S1x1x1024_2_0_0) (fun _ => rfl)).squeeze S1x1024 squeezes_S1x1x1024_S1x1024 = slotM 2 := rfl
theorem sendS_canon3 : (cc0_scratch2.slice (Rect.unit (s := S7) ![3] S1.size inb_S7_S1_3)).squeeze S_ squeezes_S1_S_ = sendS 3 := rfl
theorem recvS_canon3 : (cc0_scratch3.slice (Rect.unit (s := S7) ![3] S1.size inb_S7_S1_3)).squeeze S_ squeezes_S1_S_ = recvS 3 := rfl
theorem slotM_canon3 : ((Memref.whole cc0_scratch1 : Memref sig .tc .vmem S7x1x1024 .f32).slice (Rect.unit (s := S7x1x1024) ![3, 0, 0] S1x1x1024.size inb_S7x1x1024_S1x1x1024_3_0_0) (fun _ => rfl)).squeeze S1x1024 squeezes_S1x1x1024_S1x1024 = slotM 3 := rfl
theorem sendS_canon4 : (cc0_scratch2.slice (Rect.unit (s := S7) ![4] S1.size inb_S7_S1_4)).squeeze S_ squeezes_S1_S_ = sendS 4 := rfl
theorem recvS_canon4 : (cc0_scratch3.slice (Rect.unit (s := S7) ![4] S1.size inb_S7_S1_4)).squeeze S_ squeezes_S1_S_ = recvS 4 := rfl
theorem slotM_canon4 : ((Memref.whole cc0_scratch1 : Memref sig .tc .vmem S7x1x1024 .f32).slice (Rect.unit (s := S7x1x1024) ![4, 0, 0] S1x1x1024.size inb_S7x1x1024_S1x1x1024_4_0_0) (fun _ => rfl)).squeeze S1x1024 squeezes_S1x1x1024_S1x1024 = slotM 4 := rfl
theorem sendS_canon5 : (cc0_scratch2.slice (Rect.unit (s := S7) ![5] S1.size inb_S7_S1_5)).squeeze S_ squeezes_S1_S_ = sendS 5 := rfl
theorem recvS_canon5 : (cc0_scratch3.slice (Rect.unit (s := S7) ![5] S1.size inb_S7_S1_5)).squeeze S_ squeezes_S1_S_ = recvS 5 := rfl
theorem slotM_canon5 : ((Memref.whole cc0_scratch1 : Memref sig .tc .vmem S7x1x1024 .f32).slice (Rect.unit (s := S7x1x1024) ![5, 0, 0] S1x1x1024.size inb_S7x1x1024_S1x1x1024_5_0_0) (fun _ => rfl)).squeeze S1x1024 squeezes_S1x1x1024_S1x1024 = slotM 5 := rfl
theorem sendS_canon6 : (cc0_scratch2.slice (Rect.unit (s := S7) ![6] S1.size inb_S7_S1_6)).squeeze S_ squeezes_S1_S_ = sendS 6 := rfl
theorem recvS_canon6 : (cc0_scratch3.slice (Rect.unit (s := S7) ![6] S1.size inb_S7_S1_6)).squeeze S_ squeezes_S1_S_ = recvS 6 := rfl
theorem slotM_canon6 : ((Memref.whole cc0_scratch1 : Memref sig .tc .vmem S7x1x1024 .f32).slice (Rect.unit (s := S7x1x1024) ![6, 0, 0] S1x1x1024.size inb_S7x1x1024_S1x1x1024_6_0_0) (fun _ => rfl)).squeeze S1x1024 squeezes_S1x1x1024_S1x1024 = slotM 6 := rfl
attribute [local sl_canon] sendS_canon0 recvS_canon0 slotM_canon0 sendS_canon1 recvS_canon1 slotM_canon1 sendS_canon2 recvS_canon2 slotM_canon2 sendS_canon3 recvS_canon3 slotM_canon3 sendS_canon4 recvS_canon4 slotM_canon4 sendS_canon5 recvS_canon5 slotM_canon5 sendS_canon6 recvS_canon6 slotM_canon6
attribute [local sl_canon] dev8_eq dev9_eq dev10_eq dev11_eq dev12_eq dev13_eq dev14_eq

set_option maxHeartbeats 4000000 in
theorem sound_body1 (c : Dev nD) (Kt : PUnit → sProp 𝕄) :
    iprop(bodyPre1 m ρ K c ∗ (bodyPost1 m ρ c -∗ Kt ⟨⟩))
      ⊢ wp frame (wpE (defs₀ (F := F)) 𝒱₀ c none) Set.univ
          (cc0_body (grid0.coords t0_1) (Memref.whole cc0_stg0_1) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre1 records Dat.owesAt Pipeline.owesWithin creds
  rw [positions_eq, show xferToks (F := F) c = _ from bigSep_fin7 _, bigSep_fin7, show (dats m ρ 0 c).owed t0_1.castSucc = O₁ c from rfl]
  have hmw := mayWait_bar (F := F) c
  simp only [O₁, owedL, Vt, all7] at hmw ⊢
  unfold owns accPts
  iintro ⟨⟨⟨#HIs, #HRs⟩, ⟨HaB, HaS0, HaS1, HaS2, HaS3, HaS4, HaS5, HaS6, HaV0, HaV1, HaV2, HaV3, HaV4, HaV5, HaV6⟩,
    ⟨⟨HtV0, HtS0⟩, ⟨HtV1, HtS1⟩, ⟨HtV2, HtS2⟩, ⟨HtV3, HtS3⟩, ⟨HtV4, HtS4⟩, ⟨HtV5, HtS5⟩, ⟨HtV6, HtS6⟩⟩,
    ⟨HcB, HcV0, HcV1, HcV2, HcV3, HcV4, HcV5, HcV6⟩, #Hlev, Hacc, ⟨%W, %hW, HO⟩, ⟨%d0, %g0, %hg0, Hx⟩, ⟨%d1, %g1, %hg1, Hout⟩⟩, Hk⟩
  ihave HIB := (inv_bar m K c) $$ HIs; icases HIB with #HIB
  ihave HIS0 := (inv_send m K c 0) $$ HIs; icases HIS0 with #HIS0
  ihave HIS1 := (inv_send m K c 1) $$ HIs; icases HIS1 with #HIS1
  ihave HIS2 := (inv_send m K c 2) $$ HIs; icases HIS2 with #HIS2
  ihave HIS3 := (inv_send m K c 3) $$ HIs; icases HIS3 with #HIS3
  ihave HIS4 := (inv_send m K c 4) $$ HIs; icases HIS4 with #HIS4
  ihave HIS5 := (inv_send m K c 5) $$ HIs; icases HIS5 with #HIS5
  ihave HIS6 := (inv_send m K c 6) $$ HIs; icases HIS6 with #HIS6
  ihave HIV0 := (inv_recv m K c 0) $$ HIs; icases HIV0 with #HIV0
  ihave HIV1 := (inv_recv m K c 1) $$ HIs; icases HIV1 with #HIV1
  ihave HIV2 := (inv_recv m K c 2) $$ HIs; icases HIV2 with #HIV2
  ihave HIV3 := (inv_recv m K c 3) $$ HIs; icases HIV3 with #HIV3
  ihave HIV4 := (inv_recv m K c 4) $$ HIs; icases HIV4 with #HIV4
  ihave HIV5 := (inv_recv m K c 5) $$ HIs; icases HIV5 with #HIV5
  ihave HIV6 := (inv_recv m K c 6) $$ HIs; icases HIV6 with #HIV6
  ihave HIP0 := (inv_recv m K (peer c 0) 0) $$ HIs; icases HIP0 with #HIP0
  ihave HIP1 := (inv_recv m K (peer c 1) 1) $$ HIs; icases HIP1 with #HIP1
  ihave HIP2 := (inv_recv m K (peer c 2) 2) $$ HIs; icases HIP2 with #HIP2
  ihave HIP3 := (inv_recv m K (peer c 3) 3) $$ HIs; icases HIP3 with #HIP3
  ihave HIP4 := (inv_recv m K (peer c 4) 4) $$ HIs; icases HIP4 with #HIP4
  ihave HIP5 := (inv_recv m K (peer c 5) 5) $$ HIs; icases HIP5 with #HIP5
  ihave HIP6 := (inv_recv m K (peer c 6) 6) $$ HIs; icases HIP6 with #HIP6
  ihave HrS0 := (reached_send (F := F) c 0) $$ HRs; icases HrS0 with #HrS0
  ihave HrS1 := (reached_send (F := F) c 1) $$ HRs; icases HrS1 with #HrS1
  ihave HrS2 := (reached_send (F := F) c 2) $$ HRs; icases HrS2 with #HrS2
  ihave HrS3 := (reached_send (F := F) c 3) $$ HRs; icases HrS3 with #HrS3
  ihave HrS4 := (reached_send (F := F) c 4) $$ HRs; icases HrS4 with #HrS4
  ihave HrS5 := (reached_send (F := F) c 5) $$ HRs; icases HrS5 with #HrS5
  ihave HrS6 := (reached_send (F := F) c 6) $$ HRs; icases HrS6 with #HrS6
  ihave HrP0 := (reached_recv (F := F) (peer c 0) 0) $$ HRs; icases HrP0 with #HrP0
  ihave HrP1 := (reached_recv (F := F) (peer c 1) 1) $$ HRs; icases HrP1 with #HrP1
  ihave HrP2 := (reached_recv (F := F) (peer c 2) 2) $$ HRs; icases HrP2 with #HrP2
  ihave HrP3 := (reached_recv (F := F) (peer c 3) 3) $$ HRs; icases HrP3 with #HrP3
  ihave HrP4 := (reached_recv (F := F) (peer c 4) 4) $$ HRs; icases HrP4 with #HrP4
  ihave HrP5 := (reached_recv (F := F) (peer c 5) 5) $$ HRs; icases HrP5 with #HrP5
  ihave HrP6 := (reached_recv (F := F) (peer c 6) 6) $$ HRs; icases HrP6 with #HrP6
  have hc1 := cond1_1
  have hc2 := cond2_1
  sl_unfold [cc0_body]
  sl_exec
  -- the seven slots the peers handed over with their signals
  ihave Hp := (Entails.of_eq (bigSep_fin7 (F := F) _)) $$ HaB_pay1
  icases Hp with ⟨⟨%f0, Hp0⟩, ⟨%f1, Hp1⟩, ⟨%f2, Hp2⟩, ⟨%f3, Hp3⟩, ⟨%f4, Hp4⟩, ⟨%f5, Hp5⟩, ⟨%f6, Hp6⟩⟩
  -- the accumulator now holds both blocks' sums; it is cut into the copies' shares
  have hg : (g0 : (cc0_stg0_1 : Ref sig .tc).ty.Contents (Elt F)) = xb m c t0_1 := by
    have h := hg0; rw [before_x] at h; simpa only [Memref.view_whole, View.read_whole] using h
  have hacc : (accM : Memref sig .tc .vmem S1x1024 .f32).view.writes (Elt F) (accH m c)
      [⟨RA, k0_pay2 ((accM : Memref sig .tc .vmem S1x1024 .f32).view.readAt (Elt F) RA.toLoadRect (accH m c))
          ((Memref.whole cc0_stg0_1 : Memref sig .tc .vmem S2048x1024 .f32).view.readAt (Elt F) RX.toLoadRect g0)⟩] = accOf m c := by
    rw [acc_write1, read_acc, read_x1, hg]; rfl
  ihave Hacc' := (Entails.of_eq (congrArg (fun f => ((accM : Memref sig .tc .vmem S1x1024 .f32).view.loc (c : Thread nD τ) ↦[(accM : Memref sig .tc .vmem S1x1024 .f32).view.set]{fullShare} f : sProp 𝕄)) hacc)) $$ Hacc
  have hsh := (acc_shares (F := F) c (accOf m c)).1
  unfold accPts at hsh
  ihave Hsh := hsh $$ Hacc'
  icases Hsh with ⟨Hq0, Hq1, Hq2, Hq3, Hq4, Hq5, Hq6, Hq7⟩
  sl_exec (disch := simp only [dev8_eq, dev9_eq, dev10_eq, dev11_eq, dev12_eq, dev13_eq, dev14_eq])
  -- the fourteen own cells are done with: their counters, at zero, come back
  imod (Rounds.cell_close ER (rd m) (Set.mem_univ (K (c, sJ 0))) (fun h => h) (R := 1) (duties_later m (sendCell c 0))) $$ [HaS0] with HzS0
  · isplitr; · iexact HIS0
    iexact HaS0
  imod (Rounds.cell_close ER (rd m) (Set.mem_univ (K (c, sJ 1))) (fun h => h) (R := 1) (duties_later m (sendCell c 1))) $$ [HaS1] with HzS1
  · isplitr; · iexact HIS1
    iexact HaS1
  imod (Rounds.cell_close ER (rd m) (Set.mem_univ (K (c, sJ 2))) (fun h => h) (R := 1) (duties_later m (sendCell c 2))) $$ [HaS2] with HzS2
  · isplitr; · iexact HIS2
    iexact HaS2
  imod (Rounds.cell_close ER (rd m) (Set.mem_univ (K (c, sJ 3))) (fun h => h) (R := 1) (duties_later m (sendCell c 3))) $$ [HaS3] with HzS3
  · isplitr; · iexact HIS3
    iexact HaS3
  imod (Rounds.cell_close ER (rd m) (Set.mem_univ (K (c, sJ 4))) (fun h => h) (R := 1) (duties_later m (sendCell c 4))) $$ [HaS4] with HzS4
  · isplitr; · iexact HIS4
    iexact HaS4
  imod (Rounds.cell_close ER (rd m) (Set.mem_univ (K (c, sJ 5))) (fun h => h) (R := 1) (duties_later m (sendCell c 5))) $$ [HaS5] with HzS5
  · isplitr; · iexact HIS5
    iexact HaS5
  imod (Rounds.cell_close ER (rd m) (Set.mem_univ (K (c, sJ 6))) (fun h => h) (R := 1) (duties_later m (sendCell c 6))) $$ [HaS6] with HzS6
  · isplitr; · iexact HIS6
    iexact HaS6
  imod (Rounds.cell_close ER (rd m) (Set.mem_univ (K (c, rJ 0))) (fun h => h) (R := 1) (duties_later m (recvCell c 0))) $$ [HaV0] with HzV0
  · isplitr; · iexact HIV0
    iexact HaV0
  imod (Rounds.cell_close ER (rd m) (Set.mem_univ (K (c, rJ 1))) (fun h => h) (R := 1) (duties_later m (recvCell c 1))) $$ [HaV1] with HzV1
  · isplitr; · iexact HIV1
    iexact HaV1
  imod (Rounds.cell_close ER (rd m) (Set.mem_univ (K (c, rJ 2))) (fun h => h) (R := 1) (duties_later m (recvCell c 2))) $$ [HaV2] with HzV2
  · isplitr; · iexact HIV2
    iexact HaV2
  imod (Rounds.cell_close ER (rd m) (Set.mem_univ (K (c, rJ 3))) (fun h => h) (R := 1) (duties_later m (recvCell c 3))) $$ [HaV3] with HzV3
  · isplitr; · iexact HIV3
    iexact HaV3
  imod (Rounds.cell_close ER (rd m) (Set.mem_univ (K (c, rJ 4))) (fun h => h) (R := 1) (duties_later m (recvCell c 4))) $$ [HaV4] with HzV4
  · isplitr; · iexact HIV4
    iexact HaV4
  imod (Rounds.cell_close ER (rd m) (Set.mem_univ (K (c, rJ 5))) (fun h => h) (R := 1) (duties_later m (recvCell c 5))) $$ [HaV5] with HzV5
  · isplitr; · iexact HIV5
    iexact HaV5
  imod (Rounds.cell_close ER (rd m) (Set.mem_univ (K (c, rJ 6))) (fun h => h) (R := 1) (duties_later m (recvCell c 6))) $$ [HaV6] with HzV6
  · isplitr; · iexact HIV6
    iexact HaV6
  sl_step
  iapply Hk
  unfold bodyPost1 Φ₂ Dat.owesAt Pipeline.owesWithin owns
  rw [show (dats m ρ 0 c).owed t0_1.succ = 0 from rfl, ownSems_eq]
  sl_unfold_words
  -- the accumulator's shares rejoined
  have hjoin := (acc_shares (F := F) c (accOf m c)).2
  have hfull := accPts_full (F := F) c (accOf m c)
  unfold accPts at hjoin hfull
  ihave Hacc1 := hjoin $$ [HaS0_pay1 HaS1_pay1 HaS2_pay1 HaS3_pay1 HaS4_pay1 HaS5_pay1 HaS6_pay1 Hq7]
  · isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    isplitl [HaS6_pay1]; · iexact HaS6_pay1
    iexact Hq7
  ihave Hacc2 := (Entails.of_eq hfull) $$ Hacc1
  -- the seven slots rejoined
  have hl0 := landed_eq (F := F) c 0 HaV0_pay1_v (accOf m (peer c 0))
  unfold slotPts at hl0
  ihave Hs0 := (Entails.of_eq hl0) $$ HaV0_pay1
  have hl1 := landed_eq (F := F) c 1 HaV1_pay1_v (accOf m (peer c 1))
  unfold slotPts at hl1
  ihave Hs1 := (Entails.of_eq hl1) $$ HaV1_pay1
  have hl2 := landed_eq (F := F) c 2 HaV2_pay1_v (accOf m (peer c 2))
  unfold slotPts at hl2
  ihave Hs2 := (Entails.of_eq hl2) $$ HaV2_pay1
  have hl3 := landed_eq (F := F) c 3 HaV3_pay1_v (accOf m (peer c 3))
  unfold slotPts at hl3
  ihave Hs3 := (Entails.of_eq hl3) $$ HaV3_pay1
  have hl4 := landed_eq (F := F) c 4 HaV4_pay1_v (accOf m (peer c 4))
  unfold slotPts at hl4
  ihave Hs4 := (Entails.of_eq hl4) $$ HaV4_pay1
  have hl5 := landed_eq (F := F) c 5 HaV5_pay1_v (accOf m (peer c 5))
  unfold slotPts at hl5
  ihave Hs5 := (Entails.of_eq hl5) $$ HaV5_pay1
  have hl6 := landed_eq (F := F) c 6 HaV6_pay1_v (accOf m (peer c 6))
  unfold slotPts at hl6
  ihave Hs6 := (Entails.of_eq hl6) $$ HaV6_pay1
  have hrj := rcv_join (F := F) c (fun k => slotFill (accOf m (peer c k)))
  unfold slotPts at hrj
  ihave Hrcv := hrj $$ [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  have hout : View.read (Elt F) (Memref.whole cc0_stg1_0 : Memref sig .tc .vmem S1x1024 .f32).view
      ((Memref.whole cc0_stg1_0 : Memref sig .tc .vmem S1x1024 .f32).view.writes (Elt F) g1
        [⟨RA, k0_pay6 (k0_pay5 (k0_pay4
            ((accM : Memref sig .tc .vmem S1x1024 .f32).view.readAt (Elt F) RA.toLoadRect (accOf m c))
            ((Memref.whole cc0_scratch1 : Memref sig .tc .vmem S7x1x1024 .f32).view.readAt (Elt F) (Rect.unit (s := S7x1x1024) ![0, 0, 0] S1x1x1024.size inb_S7x1x1024_S1x1x1024_0_0_0).toLoadRect
              ((slotM 0).view.write (Elt F) HaV0_pay1_v ((accM : Memref sig .tc .vmem S1x1024 .f32).view.read (Elt F) (accOf m (peer c 0))) Finset.univ))
            ((Memref.whole cc0_scratch1 : Memref sig .tc .vmem S7x1x1024 .f32).view.readAt (Elt F) (Rect.unit (s := S7x1x1024) ![1, 0, 0] S1x1x1024.size inb_S7x1x1024_S1x1x1024_1_0_0).toLoadRect
              ((slotM 1).view.write (Elt F) HaV1_pay1_v ((accM : Memref sig .tc .vmem S1x1024 .f32).view.read (Elt F) (accOf m (peer c 1))) Finset.univ)))
            ((Memref.whole cc0_scratch1 : Memref sig .tc .vmem S7x1x1024 .f32).view.readAt (Elt F) (Rect.unit (s := S7x1x1024) ![2, 0, 0] S1x1x1024.size inb_S7x1x1024_S1x1x1024_2_0_0).toLoadRect
              ((slotM 2).view.write (Elt F) HaV2_pay1_v ((accM : Memref sig .tc .vmem S1x1024 .f32).view.read (Elt F) (accOf m (peer c 2))) Finset.univ))
            ((Memref.whole cc0_scratch1 : Memref sig .tc .vmem S7x1x1024 .f32).view.readAt (Elt F) (Rect.unit (s := S7x1x1024) ![3, 0, 0] S1x1x1024.size inb_S7x1x1024_S1x1x1024_3_0_0).toLoadRect
              ((slotM 3).view.write (Elt F) HaV3_pay1_v ((accM : Memref sig .tc .vmem S1x1024 .f32).view.read (Elt F) (accOf m (peer c 3))) Finset.univ))
            ((Memref.whole cc0_scratch1 : Memref sig .tc .vmem S7x1x1024 .f32).view.readAt (Elt F) (Rect.unit (s := S7x1x1024) ![4, 0, 0] S1x1x1024.size inb_S7x1x1024_S1x1x1024_4_0_0).toLoadRect
              ((slotM 4).view.write (Elt F) HaV4_pay1_v ((accM : Memref sig .tc .vmem S1x1024 .f32).view.read (Elt F) (accOf m (peer c 4))) Finset.univ)))
            ((Memref.whole cc0_scratch1 : Memref sig .tc .vmem S7x1x1024 .f32).view.readAt (Elt F) (Rect.unit (s := S7x1x1024) ![5, 0, 0] S1x1x1024.size inb_S7x1x1024_S1x1x1024_5_0_0).toLoadRect
              ((slotM 5).view.write (Elt F) HaV5_pay1_v ((accM : Memref sig .tc .vmem S1x1024 .f32).view.read (Elt F) (accOf m (peer c 5))) Finset.univ))
            ((Memref.whole cc0_scratch1 : Memref sig .tc .vmem S7x1x1024 .f32).view.readAt (Elt F) (Rect.unit (s := S7x1x1024) ![6, 0, 0] S1x1x1024.size inb_S7x1x1024_S1x1x1024_6_0_0).toLoadRect
              ((slotM 6).view.write (Elt F) HaV6_pay1_v ((accM : Memref sig .tc .vmem S1x1024 .f32).view.read (Elt F) (accOf m (peer c 6))) Finset.univ))⟩])
      = outOf m c := by
    rw [out_write1, read_acc, read_landed0, read_landed1, read_landed2, read_landed3, read_landed4, read_landed5, read_landed6]
    simp only [Memref.view_whole, View.read_whole]
    rfl
  isplitl [Hacc2 Hrcv HzS0 HzS1 HzS2 HzS3 HzS4 HzS5 HzS6 HzV0 HzV1 HzV2 HzV3 HzV4 HzV5 HzV6]
  · isplitl [Hacc2]; · iexists _; iexact Hacc2
    isplitl [Hrcv]; · iexact Hrcv
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzV0]; · iexact HzV0
    isplitl [HzV1]; · iexact HzV1
    isplitl [HzV2]; · iexact HzV2
    isplitl [HzV3]; · iexact HzV3
    isplitl [HzV4]; · iexact HzV4
    isplitl [HzV5]; · iexact HzV5
    iexact HzV6
  isplitl [HO]
  · iexists (insert (SemLoc.dma (sendS 6).sem, ()) (insert (SemLoc.dma (sendS 5).sem, ()) (insert (SemLoc.dma (sendS 4).sem, ()) (insert (SemLoc.dma (sendS 3).sem, ()) (insert (SemLoc.dma (sendS 2).sem, ()) (insert (SemLoc.dma (sendS 1).sem, ()) (insert (SemLoc.dma (sendS 0).sem, ()) (insert (SemLoc.dma (recvS 6).sem, ()) (insert (SemLoc.dma (recvS 5).sem, ()) (insert (SemLoc.dma (recvS 4).sem, ()) (insert (SemLoc.dma (recvS 3).sem, ()) (insert (SemLoc.dma (recvS 2).sem, ()) (insert (SemLoc.dma (recvS 1).sem, ()) (insert (SemLoc.dma (recvS 0).sem, ()) (insert (SemLoc.reg barS, ()) W)))))))))))))))
    isplitr; · ipureintro; exact fun _ _ => Or.inl trivial
    iexact HO
  isplitl [Hx]
  · iexists g0
    isplitr; · ipureintro; rw [hg0]; exact before_x m ρ c t0_1 d0
    iexact Hx
  iexists _
  isplitr; · ipureintro; exact hout
  iexact Hout
end B1

end Cert.KernelIdeal.Body
end
-- ==== Proof.Body.lean ====
/-
  The body obligation on a device: at each of the two grid points the kernel's body, from the invariant before the
  point, runs to the invariant after it.
-/
import proofs.«901089_g7700000000001090_dist_sum_ax0_shard0_i_m4096_n1024_v7x_i8_f32_1_alg».proof.Proof.Body0
import proofs.«901089_g7700000000001090_dist_sum_ax0_shard0_i_m4096_n1024_v7x_i8_f32_1_alg».proof.Proof.Body1

noncomputable section

namespace Cert.KernelIdeal.Body

open Cert.KernelIdeal Cert.KernelIdeal.Gen Cert.KernelIdeal.Acc Cert.KernelIdeal.Proto
open Idealize.ShloMosaic.Tactic
open Cert.KernelIdeal.SlotMem

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

set_option maxRecDepth 8000 in
/-- The library's body obligation on device `c`. -/
theorem body_obligation (c : Dev nD) : BodyObligation (dats (F := F) m ρ 0 c) (defs₀ (F := F)) 𝒱₀ () Set.univ := fun t => by
  rcases fin_N0 t with rfl | rfl
  · rw [bigSep_W0, bigSep_W0]
    show iprop(Φ₀ m c ∗ (dats m ρ 0 c).owesAt () t0_0.castSucc
        ∗ (∃ d, owns (c : Thread nD τ) (Memref.whole cc0_stg0_0) fullShare ((dats m ρ 0 c).before (0 : Fin 2) t0_0 d))
        ∗ (∃ d, owns (c : Thread nD τ) (Memref.whole cc0_stg1_0) fullShare ((dats m ρ 0 c).before (1 : Fin 2) t0_0 d)))
      ⊢ wp frame (wpE (defs₀ (F := F)) 𝒱₀ c none) Set.univ
        (cc0_body (grid0.coords t0_0) (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3)
        (fun _ => bodyPost0 m ρ c)
    unfold Φ₀ start
    iintro ⟨⟨⟨⟨%K, Hg⟩, Hcr, Hlev⟩, ⟨%fa, Ha⟩, Hr⟩, Ho, Hx, Hout⟩
    iapply (sound_body0 m ρ K c fun _ => bodyPost0 m ρ c)
    unfold bodyPre0
    isplitr []
    · isplitl [Hg]; · iexact Hg
      isplitl [Hcr]; · iexact Hcr
      isplitl [Hlev]; · iexact Hlev
      isplitl [Ha]
      · iexists fa; rw [accPts_full]; iexact Ha
      isplitl [Hr]; · iexact Hr
      isplitl [Ho]; · iexact Ho
      isplitl [Hx] <;> iassumption
    · iintro H; iexact H
  · rw [bigSep_W0, bigSep_W0]
    show iprop(Φ₁ m c ∗ (dats m ρ 0 c).owesAt () t0_1.castSucc
        ∗ (∃ d, owns (c : Thread nD τ) (Memref.whole cc0_stg0_1) fullShare ((dats m ρ 0 c).before (0 : Fin 2) t0_1 d))
        ∗ (∃ d, owns (c : Thread nD τ) (Memref.whole cc0_stg1_0) fullShare ((dats m ρ 0 c).before (1 : Fin 2) t0_1 d)))
      ⊢ wp frame (wpE (defs₀ (F := F)) 𝒱₀ c none) Set.univ
        (cc0_body (grid0.coords t0_1) (Memref.whole cc0_stg0_1) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3)
        (fun _ => bodyPost1 m ρ c)
    unfold Φ₁
    iintro ⟨⟨⟨%K, Hrec, Hpos, Hxf⟩, Hcr, Hlev, Ha⟩, Ho, Hx, Hout⟩
    iapply (sound_body1 m ρ K c fun _ => bodyPost1 m ρ c)
    unfold bodyPre1
    isplitr []
    · isplitl [Hrec]; · iexact Hrec
      isplitl [Hpos]; · iexact Hpos
      isplitl [Hxf]; · iexact Hxf
      isplitl [Hcr]; · iexact Hcr
      isplitl [Hlev]; · iexact Hlev
      isplitl [Ha]
      · rw [accPts_full]; iexact Ha
      isplitl [Ho]; · iexact Ho
      isplitl [Hx] <;> iassumption
    · iintro H; iexact H

/-- info: 'Cert.KernelIdeal.Body.body_obligation' depends on axioms: [propext, Classical.choice, Quot.sound] -/
#guard_msgs in #print axioms body_obligation

end Cert.KernelIdeal.Body
end
-- ==== Proof.WAccDefs.lean ====
/-
  The values the kernel computes, named once: what a device's accumulator holds after both grid points, what a
  receive slot holds once a peer's accumulator has landed in it, and what a device stores as its result.
  Device `c` exchanges with the seven devices `c xor μ k`, `μ = 1, 3, 4, 2, 5, 7, 6`.
-/
import proofs.«901089_g7700000000001090_dist_sum_ax0_shard0_i_m4096_n1024_v7x_i8_f32_1_alg».proof.Proof.Gen.Kernel.Skeleton
import Idealize.ShloMosaic.Lib.ValueIdx

noncomputable section

namespace Cert.Kernel.Acc

open Idealize.ShloMosaic Idealize.ShloMosaic.ValueIdx Cert.Kernel Cert.Kernel.Gen

variable {F : FTy → Type} [FloatOps F]

/-- The seven masks, in the order the kernel walks them. -/
def μ : Fin 7 → Nat := ![1, 3, 4, 2, 5, 7, 6]

/-- The device `c` exchanges its `k`-th slot with: `c xor μ k` (an involution for each `k`). -/
def peer (c : Dev nD) (k : Fin 7) : Dev nD := ⟨(c.val ^^^ μ k) % 8, Nat.mod_lt _ (by decide)⟩

theorem peer_peer (c : Dev nD) (k : Fin 7) : peer (peer c k) k = c := by revert c k; decide
theorem peer_ne (c : Dev nD) (k : Fin 7) : peer c k ≠ c := by revert c k; decide
theorem peer_inj (c : Dev nD) (k k' : Fin 7) (h : peer c k = peer c k') : k = k' := by revert c k k'; decide

/-- The accumulator after both grid points: zero, plus the column sums of the first block of rows, plus those of the second. -/
def accVal (b0 b1 : Vec F S2048x1024 .f32) : FVec F S1x1024 .f32 :=
  k0_pay2 (k0_pay2 (k0_pay1 (k0_pay3 (F := F))) b0) b1

/-- The accumulator after the first grid point only. -/
def accHalf (b0 : Vec F S2048x1024 .f32) : FVec F S1x1024 .f32 := k0_pay2 (k0_pay1 (k0_pay3 (F := F))) b0

/-- A row of 1024 as the one `[1, 1, 1024]` slot it lands in. -/
def slotVal (a : FVec F S1x1024 .f32) : Vec F S1x1x1024 .f32 := fun i => a (ix2 (i 1) (i 2))

/-- What a device stores: its accumulator plus the seven slots, added in slot order. -/
def outVal (a : FVec F S1x1024 .f32) (r : Fin 7 → Vec F S1x1x1024 .f32) : FVec F S1x1024 .f32 :=
  k0_pay6 (k0_pay5 (k0_pay4 a (r 0) (r 1)) (r 2) (r 3) (r 4)) (r 5) (r 6)

end Cert.Kernel.Acc

end
-- ==== Proof.WProto.lean ====
/-
  The exchange's protocol, device by device. Every device owns one barrier cell (seven duties of one unit, duty `k`
  paid by the device `peer c k` and handing over slot `k` of that device's receive buffer together with the fact that
  its receive cell `k` stands at round 0), seven send cells (one duty each: a share of the accumulator, back once the
  copy has been read out) and seven receive cells (one duty each, paid by `peer c k`: slot `k` holding that device's
  accumulator). A device waits on its barrier owing only receive credits, and on its receive cells owing nothing.
-/
import proofs.«901089_g7700000000001090_dist_sum_ax0_shard0_i_m4096_n1024_v7x_i8_f32_1_alg».proof.Proof.WAccDefs
import proofs.«901089_g7700000000001090_dist_sum_ax0_shard0_i_m4096_n1024_v7x_i8_f32_1_alg».proof.Proof.Gen.Kernel
import proofs.«901089_g7700000000001090_dist_sum_ax0_shard0_i_m4096_n1024_v7x_i8_f32_1_alg».proof.Proof.Gen.Kernel.Skeleton
import proofs.«901089_g7700000000001090_dist_sum_ax0_shard0_i_m4096_n1024_v7x_i8_f32_1_alg».proof.Proof.Gen.Kernel.Launch
import proofs.«901089_g7700000000001090_dist_sum_ax0_shard0_i_m4096_n1024_v7x_i8_f32_1_alg».proof.Proof.Gen.Kernel.Points
import proofs.«901089_g7700000000001090_dist_sum_ax0_shard0_i_m4096_n1024_v7x_i8_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Acc

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 7)
abbrev UU : Type := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR

abbrev accM : Memref sig .tc .vmem S1x1024 .f32 := Memref.whole cc0_scratch0
abbrev rcvM : Memref sig .tc .vmem S7x1x1024 .f32 := Memref.whole cc0_scratch1

theorem slot_inb (k : Fin 7) : ∀ a, (![k.val, 0, 0] : Fin 3 → Nat) a + S1x1x1024.size a ≤ S7x1x1024.size a := by
  intro a; have := k.isLt; fin_cases a <;> simp <;> omega
/-- Slot `k` of the receive buffer, as a `[1, 1024]` memref. -/
abbrev slotM (k : Fin 7) : Memref sig .tc .vmem S1x1024 .f32 :=
  (rcvM.slice (Rect.unit (s := S7x1x1024) ![k.val, 0, 0] S1x1x1024.size (slot_inb k)) (fun _ => rfl)).squeeze S1x1024 squeezes_S1x1x1024_S1x1024

def sendS : Fin 7 → DmaSems sig S_
  | 0 => (cc0_scratch2.slice (Rect.unit (s := S7) ![0] S1.size inb_S7_S1_0)).squeeze S_ squeezes_S1_S_
  | 1 => (cc0_scratch2.slice (Rect.unit (s := S7) ![1] S1.size inb_S7_S1_1)).squeeze S_ squeezes_S1_S_
  | 2 => (cc0_scratch2.slice (Rect.unit (s := S7) ![2] S1.size inb_S7_S1_2)).squeeze S_ squeezes_S1_S_
  | 3 => (cc0_scratch2.slice (Rect.unit (s := S7) ![3] S1.size inb_S7_S1_3)).squeeze S_ squeezes_S1_S_
  | 4 => (cc0_scratch2.slice (Rect.unit (s := S7) ![4] S1.size inb_S7_S1_4)).squeeze S_ squeezes_S1_S_
  | 5 => (cc0_scratch2.slice (Rect.unit (s := S7) ![5] S1.size inb_S7_S1_5)).squeeze S_ squeezes_S1_S_
  | 6 => (cc0_scratch2.slice (Rect.unit (s := S7) ![6] S1.size inb_S7_S1_6)).squeeze S_ squeezes_S1_S_

def recvS : Fin 7 → DmaSems sig S_
  | 0 => (cc0_scratch3.slice (Rect.unit (s := S7) ![0] S1.size inb_S7_S1_0)).squeeze S_ squeezes_S1_S_
  | 1 => (cc0_scratch3.slice (Rect.unit (s := S7) ![1] S1.size inb_S7_S1_1)).squeeze S_ squeezes_S1_S_
  | 2 => (cc0_scratch3.slice (Rect.unit (s := S7) ![2] S1.size inb_S7_S1_2)).squeeze S_ squeezes_S1_S_
  | 3 => (cc0_scratch3.slice (Rect.unit (s := S7) ![3] S1.size inb_S7_S1_3)).squeeze S_ squeezes_S1_S_
  | 4 => (cc0_scratch3.slice (Rect.unit (s := S7) ![4] S1.size inb_S7_S1_4)).squeeze S_ squeezes_S1_S_
  | 5 => (cc0_scratch3.slice (Rect.unit (s := S7) ![5] S1.size inb_S7_S1_5)).squeeze S_ squeezes_S1_S_
  | 6 => (cc0_scratch3.slice (Rect.unit (s := S7) ![6] S1.size inb_S7_S1_6)).squeeze S_ squeezes_S1_S_

abbrev barS : Sem sig := (SemArray.scalar (sig.barrier 0 rfl) : Sems sig S_).sem

abbrev barCell (c : Dev nD) : GSem nD τ sig := ((c : Thread nD τ), .reg barS)
abbrev sendCell (c : Dev nD) (k : Fin 7) : GSem nD τ sig := ((c : Thread nD τ), .dma (sendS k).sem)
abbrev recvCell (c : Dev nD) (k : Fin 7) : GSem nD τ sig := ((c : Thread nD τ), .dma (recvS k).sem)

/-- The fifteen semaphores of a device's protocol: the barrier, the seven send, the seven receive semaphores. -/
def csem : Fin 15 → SemLoc sig
  | 0 => .reg barS
  | 1 => .dma (sendS 0).sem | 2 => .dma (sendS 1).sem | 3 => .dma (sendS 2).sem | 4 => .dma (sendS 3).sem
  | 5 => .dma (sendS 4).sem | 6 => .dma (sendS 5).sem | 7 => .dma (sendS 6).sem
  | 8 => .dma (recvS 0).sem | 9 => .dma (recvS 1).sem | 10 => .dma (recvS 2).sem | 11 => .dma (recvS 3).sem
  | 12 => .dma (recvS 4).sem | 13 => .dma (recvS 5).sem | 14 => .dma (recvS 6).sem
def sJ (k : Fin 7) : Fin 15 := ⟨1 + k.val, by omega⟩
def rJ (k : Fin 7) : Fin 15 := ⟨8 + k.val, by omega⟩
theorem csem_sJ (k : Fin 7) : csem (sJ k) = .dma (sendS k).sem := by fin_cases k <;> rfl
theorem csem_rJ (k : Fin 7) : csem (rJ k) = .dma (recvS k).sem := by fin_cases k <;> rfl
theorem csem_inj : Function.Injective csem := by decide
abbrev kcell (cj : Dev nD × Fin 15) : GSem nD τ sig := ((cj.1 : Thread nD τ), csem cj.2)

/-- The fourteen semaphores that are the kernel's own (scoped): all but the barrier. -/
def osem (j : Fin 14) : SemLoc sig := csem ⟨j.val + 1, by omega⟩

abbrev N : ℕ := (accM : Memref sig .tc .vmem S1x1024 .f32).view.dmaCredit
theorem N_pos : 0 < N := View.dmaCredit_pos _ (by decide)

theorem send_ne_bar (k : Fin 7) : (SemLoc.dma (sendS k).sem : SemLoc sig) ≠ .reg barS := fun h => by cases h
theorem recv_ne_bar (k : Fin 7) : (SemLoc.dma (recvS k).sem : SemLoc sig) ≠ .reg barS := fun h => by cases h
theorem send_ne_recv : ∀ k k' : Fin 7, (SemLoc.dma (sendS k).sem : SemLoc sig) ≠ .dma (recvS k').sem := by decide
theorem sendS_inj : ∀ k k' : Fin 7, (SemLoc.dma (sendS k).sem : SemLoc sig) = .dma (sendS k').sem → k = k' := by decide
theorem recvS_inj : ∀ k k' : Fin 7, (SemLoc.dma (recvS k).sem : SemLoc sig) = .dma (recvS k').sem → k = k' := by decide

/-- Which send (receive) semaphore a semaphore is, if any. -/
def sendIx (s : SemLoc sig) : Option (Fin 7) := (List.finRange 7).find? fun k => decide (s = .dma (sendS k).sem)
def recvIx (s : SemLoc sig) : Option (Fin 7) := (List.finRange 7).find? fun k => decide (s = .dma (recvS k).sem)
theorem sendIx_send : ∀ k : Fin 7, sendIx (.dma (sendS k).sem) = some k := by decide
theorem recvIx_recv : ∀ k : Fin 7, recvIx (.dma (recvS k).sem) = some k := by decide
theorem recvIx_send : ∀ k : Fin 7, recvIx (.dma (sendS k).sem) = none := by decide
theorem sendIx_bar : sendIx (.reg barS) = none := by decide
theorem recvIx_bar : recvIx (.reg barS) = none := by decide

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

/-- The two blocks of rows of a device's array, as the two grid points stage them. -/
abbrev xb (c : Dev nD) (t : Fin cfg0.N) : Vec F S2048x1024 .f32 := iblk m c 0 t
/-- A device's accumulator after its first grid point, and after both. -/
def accH (c : Dev nD) : (cc0_scratch0 : Ref sig .tc).ty.Contents (Elt F) := accHalf (xb m c t0_0)
def accOf (c : Dev nD) : (cc0_scratch0 : Ref sig .tc).ty.Contents (Elt F) := accVal (xb m c t0_0) (xb m c t0_1)
/-- A receive buffer every slot of which holds the row `a`. -/
def slotFill (a : FVec F S1x1024 .f32) : (cc0_scratch1 : Ref sig .tc).ty.Contents (Elt F) := fun i => a (ix2 (i 1) (i 2))
/-- What a device stores as its result. -/
def outOf (c : Dev nD) : (cc0_stg1_0 : Ref sig .tc).ty.Contents (Elt F) :=
  outVal (accOf m c) (fun k => slotVal (accOf m (peer c k)))

/-! ## Shares of the accumulator: one for each copy in flight, one kept for the load -/

def restN : ℕ → PosShare TreeShare
  | 0 => fullShare
  | n + 1 => (restN n).right
def shr (k : Fin 7) : PosShare TreeShare := (restN k.val).left

def accPts (q : PosShare TreeShare) (c : Dev nD) (f : (cc0_scratch0 : Ref sig .tc).ty.Contents (Elt F)) : sProp 𝕄 :=
  (accM : Memref sig .tc .vmem S1x1024 .f32).view.loc (c : Thread nD τ) ↦[(accM : Memref sig .tc .vmem S1x1024 .f32).view.set]{q} (f : Buf (Elt F) ((accM : Memref sig .tc .vmem S1x1024 .f32).view.loc (c : Thread nD τ)))
def slotPts (c : Dev nD) (k : Fin 7) (f : (cc0_scratch1 : Ref sig .tc).ty.Contents (Elt F)) : sProp 𝕄 :=
  (slotM k).view.loc (c : Thread nD τ) ↦[(slotM k).view.set]{fullShare} (f : Buf (Elt F) ((slotM k).view.loc (c : Thread nD τ)))

omit [FloatOps F] in
instance accPts_storable (q) (c : Dev nD) (f) : BI.Storable (upEmb : UEmb _ 𝕄) (accPts (F := F) q c f) := by unfold accPts; infer_instance
omit [FloatOps F] in
instance slotPts_storable (c : Dev nD) (k) (f) : BI.Storable (upEmb : UEmb _ 𝕄) (slotPts (F := F) c k f) := by unfold slotPts; infer_instance

/-! ## The schedule -/

def barPay (c : Dev nD) (d : Fin 7) : sProp 𝕄 := iprop(∃ f, slotPts (peer c d) d f)
def recvPay (c : Dev nD) (k : Fin 7) : sProp 𝕄 := slotPts c k (slotFill (accOf m (peer c k)))
def sendPay (c : Dev nD) (k : Fin 7) : sProp 𝕄 := accPts (shr k) c (accOf m c)

/-- One round, round 0: a barrier cell has seven duties of one unit; a send or receive cell one duty of a row's credit. -/
def rd : Rounds.Schedule (GSem nD τ sig) (Fin 7) 𝕄 where
  duties g r := if r = 0 ∧ g.1.2 = .tc then
      (if g.2 = .reg barS then Finset.univ else if (sendIx g.2).isSome ∨ (recvIx g.2).isSome then {0} else ∅) else ∅
  unitless _ := False
  amount g _ _ := if g.2 = .reg barS then 1 else N
  payload g _ d :=
    if g.2 = .reg barS then barPay g.1.1 d
    else match recvIx g.2 with
      | some k => recvPay m g.1.1 k
      | none => match sendIx g.2 with
        | some k => sendPay m g.1.1 k
        | none => iprop(emp)
  amount_pos g _ _ _ := by
    by_cases h : g.2 = .reg barS
    · rw [if_pos h]; exact Nat.one_pos
    · rw [if_neg h]; exact N_pos

instance rd_payload_storable (g : GSem nD τ sig) (r : ℕ) (d : Fin 7) :
    BI.Storable (upEmb : UEmb _ 𝕄) ((rd (F := F) m).payload g r d) := by
  show BI.Storable upEmb (if g.2 = .reg barS then barPay g.1.1 d
    else match recvIx g.2 with
      | some k => recvPay m g.1.1 k
      | none => match sendIx g.2 with
        | some k => sendPay m g.1.1 k
        | none => iprop(emp))
  unfold barPay recvPay sendPay slotPts accPts
  (repeat' split) <;> infer_instance

section Sched
variable (c : Dev nD) (k : Fin 7)

theorem duties_bar : (rd (F := F) m).duties (barCell c) 0 = Finset.univ := by dsimp only [rd]; rw [if_pos ⟨rfl, rfl⟩, if_pos rfl]
theorem duties_send : (rd (F := F) m).duties (sendCell c k) 0 = {0} := by
  dsimp only [rd]; rw [if_pos ⟨rfl, rfl⟩, if_neg (send_ne_bar k), if_pos (Or.inl (by rw [sendIx_send]; rfl))]
theorem duties_recv : (rd (F := F) m).duties (recvCell c k) 0 = {0} := by
  dsimp only [rd]; rw [if_pos ⟨rfl, rfl⟩, if_neg (recv_ne_bar k), if_pos (Or.inr (by rw [recvIx_recv]; rfl))]
theorem duties_later (g : GSem nD τ sig) : ∀ r, 1 ≤ r → (rd (F := F) m).duties g r = ∅ :=
  fun r hr => by dsimp only [rd]; rw [if_neg fun h => by omega]

theorem amount_bar (d : Fin 7) : (rd (F := F) m).amount (barCell c) 0 d = 1 := by dsimp only [rd]; exact if_pos rfl
theorem amount_send (d : Fin 7) : (rd (F := F) m).amount (sendCell c k) 0 d = N := by dsimp only [rd]; exact if_neg (send_ne_bar k)
theorem amount_recv (d : Fin 7) : (rd (F := F) m).amount (recvCell c k) 0 d = N := by dsimp only [rd]; exact if_neg (recv_ne_bar k)

theorem expect_bar : (rd (F := F) m).expect (barCell c) 0 = 7 := by
  unfold Schedule.expect Schedule.amountOf
  rw [duties_bar, Finset.sum_congr rfl fun d _ => amount_bar m c d, Finset.sum_const, Finset.card_univ, Fintype.card_fin, smul_eq_mul]
theorem expect_send : (rd (F := F) m).expect (sendCell c k) 0 = N := by
  unfold Schedule.expect Schedule.amountOf; rw [duties_send, Finset.sum_singleton, amount_send]
theorem expect_recv : (rd (F := F) m).expect (recvCell c k) 0 = N := by
  unfold Schedule.expect Schedule.amountOf; rw [duties_recv, Finset.sum_singleton, amount_recv]

theorem payload_bar (d : Fin 7) : (rd (F := F) m).payload (barCell c) 0 d = barPay c d := by dsimp only [rd]; rw [if_pos rfl]
theorem payload_send (d : Fin 7) : (rd (F := F) m).payload (sendCell c k) 0 d = sendPay m c k := by
  dsimp only [rd]; rw [if_neg (send_ne_bar k)]; simp only [recvIx_send, sendIx_send]
theorem payload_recv (d : Fin 7) : (rd (F := F) m).payload (recvCell c k) 0 d = recvPay m c k := by
  dsimp only [rd]; rw [if_neg (recv_ne_bar k)]; simp only [recvIx_recv]

end Sched

example (c : Dev nD) (k : Fin 7) : (slotM k).view.loc (c : Thread nD τ) = (c : Thread nD τ).loc cc0_scratch1 := rfl
example : slotM 2 = (rcvM.slice (Rect.unit (s := S7x1x1024) ![2, 0, 0] S1x1x1024.size inb_S7x1x1024_S1x1x1024_2_0_0) (fun _ => rfl)).squeeze S1x1024 squeezes_S1x1x1024_S1x1024 := rfl
example : ∀ k : Fin 7, (slotM k).view.dmaCredit = N := by decide

/-! ## What each device owes at launch; the levels -/

/-- Tallies summed so that the first of the list is the outermost (last) summand: the first step peels it. -/
def owedL (base : CellTallies nD τ sig Unit) (f : Fin 7 → CellTallies nD τ sig Unit) : List (Fin 7) → CellTallies nD τ sig Unit
  | [] => base
  | k :: ks => owedL base f ks + f k

abbrev all7 : List (Fin 7) := [0, 1, 2, 3, 4, 5, 6]

/-- The credit of receive cell `k` of `peer c k` (the copy device `c` sends there); one unit of that device's barrier. -/
def Vt (c : Dev nD) (k : Fin 7) : CellTallies nD τ sig Unit := tallyAt (recvCell (peer c k) k) () N
def Bt (c : Dev nD) (k : Fin 7) : CellTallies nD τ sig Unit := tallyAt (barCell (peer c k)) () 1
/-- After its signals a device owes its seven copies; at launch also its seven signals. -/
def O₁ (c : Dev nD) : CellTallies nD τ sig Unit := owedL 0 (Vt c) all7
def O₀ (c : Dev nD) : CellTallies nD τ sig Unit := owedL (O₁ c) (Bt c) all7

theorem owedL_pos {base : CellTallies nD τ sig Unit} {f : Fin 7 → CellTallies nD τ sig Unit} {g : GSem nD τ sig} {u : Unit} :
    ∀ l : List (Fin 7), 0 < owedL base f l g u → 0 < base g u ∨ ∃ k, 0 < f k g u
  | [], h => Or.inl h
  | k :: ks, h => by
    unfold owedL at h
    rw [Pi.add_apply, Finsupp.add_apply] at h
    rcases Nat.add_pos_iff_pos_or_pos.mp h with h | h
    · exact owedL_pos ks h
    · exact Or.inr ⟨k, h⟩

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem O₁_pos {c : Dev nD} {g : GSem nD τ sig} {u : Unit} (h : 0 < O₁ c g u) : ∃ k, g = recvCell (peer c k) k := by
  rcases owedL_pos all7 h with h | ⟨k, h⟩
  · exact absurd h (Nat.lt_irrefl 0)
  · exact ⟨k, tallyAt_pos h⟩

theorem O₀_pos {c : Dev nD} {g : GSem nD τ sig} {u : Unit} (h : 0 < O₀ c g u) :
    (∃ k, g = recvCell (peer c k) k) ∨ ∃ k, g = barCell (peer c k) := by
  rcases owedL_pos all7 h with h | ⟨k, h⟩
  · exact Or.inl (O₁_pos h)
  · exact Or.inr ⟨k, tallyAt_pos h⟩

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if (recvIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (k : Fin 7) : lv (recvCell c k) () = 2 := by
  unfold lv; rw [if_neg (recv_ne_bar k), recvIx_recv]; rfl

omit [FloatOps F] in
/-- A wait on a semaphore at level 0 (a staging semaphore, a send cell) is below everything a device may owe. -/
theorem mayWait_low (c : Dev nD) (sm : SemLoc sig) (hsm : lv ((c : Thread nD τ), sm) () = 0) (O : CellTallies nD τ sig Unit)
    (hO : O = O₀ c ∨ O = O₁ c ∨ O = 0) :
    (levAts L lv : sProp 𝕄) ⊢ MayWait (c : Thread nD τ) sm () O := by
  have key : ∀ O' : CellTallies nD τ sig Unit, (∀ g u, 0 < O' g u → (∃ k, g = recvCell (peer c k) k) ∨ ∃ k, g = barCell (peer c k)) →
      (levAts L lv : sProp 𝕄) ⊢ MayWait (c : Thread nD τ) sm () O' := fun O' hpos =>
    MayOwe.of_cut (L := L) (lev := lv) 0 (fun p hp => by rw [Finset.mem_singleton.mp hp, L_tc]; exact Finset.mem_singleton_self _)
      (fun g u hg => by rcases hpos g u hg with ⟨k, rfl⟩ | ⟨k, rfl⟩ <;> exact Finset.mem_singleton_self _)
      (fun p hp => by rw [Finset.mem_singleton.mp hp, hsm])
      (fun g u hg => by
        rcases hpos g u hg with ⟨k, rfl⟩ | ⟨k, rfl⟩
        · rw [lv_recv]; decide
        · rw [lv_bar]; decide)
  rcases hO with rfl | rfl | rfl
  · exact key _ fun g u h => O₀_pos h
  · exact key _ fun g u h => Or.inl (O₁_pos h)
  · rw [MayWait_zero]; iintro -; iempintro

omit [FloatOps F] in
/-- At its barrier wait a device owes receive credits only: receive cells lie above barrier cells. -/
theorem mayWait_bar (c : Dev nD) :
    (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨k, rfl⟩ := O₁_pos hg; exact Finset.mem_singleton_self _)
    (fun p hp => by rw [Finset.mem_singleton.mp hp]; exact (lv_bar c).le)
    (fun g u hg => by obtain ⟨k, rfl⟩ := O₁_pos hg; rw [lv_recv]; decide)

/-! ## Ghost state and the invariants between grid points -/

/-- Every cell's invariant, under the names `K` the launch allocated them at, and that every cell stands at round 0. -/
def records (K : Dev nD × Fin 15 → ℕ) : sProp 𝕄 :=
  iprop((bigSep Finset.univ fun cj : Dev nD × Fin 15 => cellInv ER (rd m) (K cj) (kcell cj))
    ∗ bigSep Finset.univ fun cj : Dev nD × Fin 15 => reached ER (kcell cj) 0)

instance records_persistent (K : Dev nD × Fin 15 → ℕ) : BI.Persistent (records m K) := by unfold records; infer_instance

/-- A device's positions in its own fifteen cells. -/
def positions (c : Dev nD) : sProp 𝕄 := bigSep Finset.univ fun j : Fin 15 => atPos ER (kcell (c, j)) 0 ∅ 0
/-- The tokens of the duties device `c` pays: duty `k` of `peer c k`'s barrier, that device's receive duty `k`, its own send duty `k`. -/
def sigToks (c : Dev nD) : sProp 𝕄 := bigSep Finset.univ fun k : Fin 7 => dutyTok ER (barCell (peer c k)) 0 k
def xferToks (c : Dev nD) : sProp 𝕄 := bigSep Finset.univ fun k : Fin 7 =>
  iprop(dutyTok ER (recvCell (peer c k) k) 0 0 ∗ dutyTok ER (sendCell c k) 0 0)
/-- The credit a device is dealt: its barrier's seven units, each receive cell's row. -/
def creds (c : Dev nD) : sProp 𝕄 :=
  iprop(cred (tallyAt (barCell c) () 7) ∗ bigSep Finset.univ fun k : Fin 7 => cred (tallyAt (recvCell c k) () N))

def ghost (K : Dev nD × Fin 15 → ℕ) (c : Dev nD) : sProp 𝕄 := iprop(records m K ∗ positions c ∗ sigToks c ∗ xferToks c)
def start (c : Dev nD) : sProp 𝕄 := iprop((∃ K, ghost m K c) ∗ creds c ∗ levAts L lv)

/-- Before the first point: the ghost state, both scratch buffers at arbitrary contents. -/
def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- Between the points: the signals sent (their tokens spent, the receive slots handed to the peers), the accumulator at its first half. -/
def Φ₁ (c : Dev nD) : sProp 𝕄 :=
  iprop((∃ K, records m K ∗ positions c ∗ xferToks c) ∗ creds c ∗ levAts L lv
    ∗ (((c : Thread nD τ).loc cc0_scratch0) ↦{fullShare} accH m c))
/-- After the last point: both scratch buffers back whole, the fourteen own semaphores at zero, their cells closed. -/
def Φ₂ (c : Dev nD) : sProp 𝕄 :=
  iprop((∃ f, ((c : Thread nD τ).loc cc0_scratch0) ↦{fullShare} f) ∗ (∃ f, ((c : Thread nD τ).loc cc0_scratch1) ↦{fullShare} f)
    ∗ bigSep Finset.univ fun j : Fin 14 => semVal ((c : Thread nD τ), osem j) 0)

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xb m c t
    | ⟨1, _⟩ => outOf m c
  Φ t := match t with
    | ⟨0, _⟩ => Φ₀ m c
    | ⟨1, _⟩ => Φ₁ m c
    | ⟨_ + 2, _⟩ => Φ₂ c
  q _ := fullShare
  owed t := match t with
    | ⟨0, _⟩ => O₀ c
    | ⟨1, _⟩ => O₁ c
    | ⟨_ + 2, _⟩ => 0

abbrev 𝒱₀ : Variants := Variants.none

end Cert.Kernel.Proto

end
-- ==== Proof.WSlotMem.lean ====
/-
  The memory of the exchange: the receive buffer seen as its seven slots (which elements a slot is, that the slots
  partition the buffer, what a landed row leaves in a slot and what a load of the slot reads back), and the
  accumulator (its points-to as a whole buffer, its split into the shares lent to the copies in flight).
-/
import proofs.«901089_g7700000000001090_dist_sum_ax0_shard0_i_m4096_n1024_v7x_i8_f32_1_alg».proof.Proof.WProto
import Idealize.ShloMosaic.Lib.Pipeline.Value

noncomputable section

namespace Cert.Kernel.SlotMem

open Cert.Kernel Cert.Kernel.Gen Cert.Kernel.Acc Cert.Kernel.Proto

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-- Where the row index `y` of slot `k` sits in the receive buffer: at `(k, y 0, y 1)`. -/
theorem slot_emb_val (k : Fin 7) (y : S1x1024.Idx) :
    (((slotM k).view.emb y 0 : Nat) = k.val) ∧ (((slotM k).view.emb y 1 : Nat) = (y 0).val) ∧ (((slotM k).view.emb y 2 : Nat) = (y 1).val) := by
  have e : Shape.reshapeEquiv (squeezes_S1x1x1024_S1x1024).numel_eq y = Fin.cons ⟨0, Nat.one_pos⟩ y :=
    Shape.reshapeEquiv_cons_one (n := 2) (d := ![1, 1024]) _ y
  have h : (slotM k).view.emb y = (Rect.unit (s := S7x1x1024) ![k.val, 0, 0] S1x1x1024.size (slot_inb k)).emb (Shape.reshapeEquiv (squeezes_S1x1x1024_S1x1024).numel_eq y) := rfl
  rw [h, e]
  refine ⟨?_, ?_, ?_⟩
  · rw [Rect.emb_apply]; simp; rfl
  · rw [Rect.emb_apply]; simp; rfl
  · rw [Rect.emb_apply]; simp; rfl

/-- The slot's elements are those with first coordinate `k`. -/
theorem mem_slot_set (k : Fin 7) (i : S7x1x1024.Idx) : i ∈ (slotM k).view.set ↔ (i 0).val = k.val := by
  have hs : (slotM k).view.set = (Rect.unit (s := S7x1x1024) ![k.val, 0, 0] S1x1x1024.size (slot_inb k)).set := by
    show ((rcvM.view.slice (Rect.unit (s := S7x1x1024) ![k.val, 0, 0] S1x1x1024.size (slot_inb k))).reshape S1x1024 _).set = _
    rw [View.set_reshape]; exact View.set_slice_whole cc0_scratch1 _
  rw [hs, Rect.mem_set_unit]
  constructor
  · intro h; have := h 0; simp at this; omega
  · intro h a
    fin_cases a
    · simp; omega
    · have := (i 1).isLt; simp at this ⊢; omega
    · have := (i 2).isLt; simp at this ⊢; omega

/-- Every element of slot `k` is the image of the row index made of its last two coordinates. -/
theorem slot_emb_of (k : Fin 7) (i : S7x1x1024.Idx) (h : (i 0).val = k.val) :
    (slotM k).view.emb (ix2 (i 1) (i 2)) = i := by
  obtain ⟨h0, h1, h2⟩ := slot_emb_val k (ix2 (i 1) (i 2))
  funext a
  match a with
  | ⟨0, _⟩ => exact Fin.ext (h0.trans h.symm)
  | ⟨1, _⟩ => exact Fin.ext h1
  | ⟨2, _⟩ => exact Fin.ext h2

omit [FloatOps F] in
/-- What a copy of a whole accumulator row leaves in slot `k`: on the slot's elements, the row at the last two coordinates. -/
theorem landed_eq (c : Dev nD) (k : Fin 7) (fd : (cc0_scratch1 : Ref sig .tc).ty.Contents (Elt F))
    (fs : (cc0_scratch0 : Ref sig .tc).ty.Contents (Elt F)) :
    slotPts (F := F) c k ((slotM k).view.write (Elt F) fd ((accM : Memref sig .tc .vmem S1x1024 .f32).view.read (Elt F) fs) Finset.univ)
      = slotPts c k (slotFill fs) := by
  unfold slotPts
  refine pointsTo_congr (fun i hi => ?_)
  have hk := (mem_slot_set k i).mp hi
  have he := slot_emb_of k i hk
  have hw := View.write_emb_of_mem (v := (slotM k).view) (Val := Elt F) fd
    ((accM : Memref sig .tc .vmem S1x1024 .f32).view.read (Elt F) fs) (M := Finset.univ) (x := ix2 (i 1) (i 2)) (Finset.mem_univ _)
  rw [he] at hw
  exact hw.trans rfl

/-! ## The seven slots partition the receive buffer -/

/-- The elements of the receive buffer whose first coordinate is at least `j`. -/
def tail (j : ℕ) : Finset S7x1x1024.Idx := Finset.univ.filter fun i => j ≤ (i 0).val

theorem mem_tail (j : ℕ) (i : S7x1x1024.Idx) : i ∈ tail j ↔ j ≤ (i 0).val := by simp [tail]

theorem tail_zero : tail 0 = Finset.univ := by ext i; simp [mem_tail]

theorem tail_succ (k : Fin 7) : tail k.val = (slotM k).view.set ∪ tail (k.val + 1) := by
  ext i; rw [Finset.mem_union, mem_slot_set, mem_tail, mem_tail]; omega

theorem tail_six : tail 6 = (slotM 6).view.set := by
  ext i; rw [mem_slot_set, mem_tail]; have : (i 0).val < 7 := (i 0).isLt; show 6 ≤ (i 0).val ↔ (i 0).val = 6; omega

theorem tail_disj (k : Fin 7) : Disjoint (slotM k).view.set (tail (k.val + 1)) := by
  rw [Finset.disjoint_left]; intro i hi ht; rw [mem_slot_set] at hi; rw [mem_tail] at ht; omega

omit [FloatOps F] in
theorem eq_of_bi {P Q : sProp 𝕄} (h : P ⊣⊢ Q) : P = Q := BI.equiv_iff.mp ⟨h.1, h.2⟩

omit [FloatOps F] in
theorem tail_step (c : Dev nD) (k : Fin 7) (j j' : ℕ) (hj : j = k.val) (hj' : j' = k.val + 1)
    (f : (cc0_scratch1 : Ref sig .tc).ty.Contents (Elt F)) :
    ((((c : Thread nD τ).loc cc0_scratch1) ↦[tail j]{fullShare} f : sProp 𝕄))
      = iprop(slotPts c k f ∗ (((c : Thread nD τ).loc cc0_scratch1) ↦[tail j']{fullShare} f)) := by
  subst hj hj'
  rw [tail_succ k]
  exact eq_of_bi (pointsTo_union (tail_disj k))

omit [FloatOps F] in
theorem rcv_split_eq (c : Dev nD) (f : (cc0_scratch1 : Ref sig .tc).ty.Contents (Elt F)) :
    (((c : Thread nD τ).loc cc0_scratch1) ↦{fullShare} f : sProp 𝕄)
      = iprop(slotPts c 0 f ∗ slotPts c 1 f ∗ slotPts c 2 f ∗ slotPts c 3 f ∗ slotPts c 4 f ∗ slotPts c 5 f ∗ slotPts c 6 f) := by
  have h6 : ((((c : Thread nD τ).loc cc0_scratch1) ↦[tail 6]{fullShare} f : sProp 𝕄)) = slotPts c 6 f := by
    rw [tail_six]; rfl
  rw [← tail_zero, tail_step c 0 0 1 rfl rfl f, tail_step c 1 1 2 rfl rfl f, tail_step c 2 2 3 rfl rfl f,
    tail_step c 3 3 4 rfl rfl f, tail_step c 4 4 5 rfl rfl f, tail_step c 5 5 6 rfl rfl f, h6]

omit [FloatOps F] in
/-- The seven slots partition the receive buffer. -/
theorem rcv_split (c : Dev nD) (f : (cc0_scratch1 : Ref sig .tc).ty.Contents (Elt F)) :
    (((c : Thread nD τ).loc cc0_scratch1) ↦{fullShare} f : sProp 𝕄)
      ⊣⊢ iprop(slotPts c 0 f ∗ slotPts c 1 f ∗ slotPts c 2 f ∗ slotPts c 3 f ∗ slotPts c 4 f ∗ slotPts c 5 f ∗ slotPts c 6 f) := by
  rw [rcv_split_eq]

omit [FloatOps F] in
/-- Slots held at different contents rejoin as the whole buffer at the contents that follow each slot's own. -/
theorem rcv_join (c : Dev nD) (f : Fin 7 → (cc0_scratch1 : Ref sig .tc).ty.Contents (Elt F)) :
    iprop(slotPts c 0 (f 0) ∗ slotPts c 1 (f 1) ∗ slotPts c 2 (f 2) ∗ slotPts c 3 (f 3) ∗ slotPts c 4 (f 4) ∗ slotPts c 5 (f 5) ∗ slotPts c 6 (f 6))
      ⊢ (∃ g, ((c : Thread nD τ).loc cc0_scratch1) ↦{fullShare} g : sProp 𝕄) := by
  let g : (cc0_scratch1 : Ref sig .tc).ty.Contents (Elt F) := fun i => f ⟨(i 0).val, (i 0).isLt⟩ i
  have hk : ∀ k : Fin 7, slotPts (F := F) c k (f k) = slotPts c k g := fun k => by
    unfold slotPts
    refine pointsTo_congr (fun i hi => ?_)
    have hi' := (mem_slot_set k i).mp hi
    have e : (⟨(i 0).val, (i 0).isLt⟩ : Fin 7) = k := Fin.ext hi'
    show f k i = f ⟨(i 0).val, (i 0).isLt⟩ i
    rw [e]
  rw [hk 0, hk 1, hk 2, hk 3, hk 4, hk 5, hk 6, ← rcv_split_eq c g]
  iintro H
  iexists g
  iexact H

omit [FloatOps F] in
/-- What a load of slot `k` reads from a buffer that holds the row `a` there. -/
theorem read_slot (k : Fin 7) (g : (cc0_scratch1 : Ref sig .tc).ty.Contents (Elt F)) (a : FVec F S1x1024 .f32)
    (h : ∀ i ∈ (slotM k).view.set, g i = slotFill a i) :
    (rcvM : Memref sig .tc .vmem S7x1x1024 .f32).view.readAt (Elt F)
      (Rect.unit (s := S7x1x1024) ![k.val, 0, 0] S1x1x1024.size (slot_inb k)).toLoadRect g = slotVal a := by
  funext x
  have e0 : (((Rect.unit (s := S7x1x1024) ![k.val, 0, 0] S1x1x1024.size (slot_inb k)).emb x 0 : Nat)) = k.val := by
    rw [Rect.emb_apply]; have : (x 0).val < 1 := (x 0).isLt; simp; omega
  have e1 : (Rect.unit (s := S7x1x1024) ![k.val, 0, 0] S1x1x1024.size (slot_inb k)).emb x 1 = x 1 :=
    Fin.ext (by rw [Rect.emb_apply]; simp)
  have e2 : (Rect.unit (s := S7x1x1024) ![k.val, 0, 0] S1x1x1024.size (slot_inb k)).emb x 2 = x 2 :=
    Fin.ext (by rw [Rect.emb_apply]; simp)
  have hg := h _ ((mem_slot_set k _).mpr e0)
  show g ((Rect.unit (s := S7x1x1024) ![k.val, 0, 0] S1x1x1024.size (slot_inb k)).emb x) = a (ix2 (x 1) (x 2))
  rw [hg]
  show a (ix2 ((Rect.unit (s := S7x1x1024) ![k.val, 0, 0] S1x1x1024.size (slot_inb k)).emb x 1)
    ((Rect.unit (s := S7x1x1024) ![k.val, 0, 0] S1x1x1024.size (slot_inb k)).emb x 2)) = a (ix2 (x 1) (x 2))
  rw [e1, e2]

/-- At `k = 2` this is the kernel's own load of slot 2. -/
example (g : (cc0_scratch1 : Ref sig .tc).ty.Contents (Elt F)) :
    (rcvM : Memref sig .tc .vmem S7x1x1024 .f32).view.readAt (Elt F)
      (Rect.unit (s := S7x1x1024) ![(2 : Fin 7).val, 0, 0] S1x1x1024.size (slot_inb 2)).toLoadRect g
    = (rcvM : Memref sig .tc .vmem S7x1x1024 .f32).view.readAt (Elt F)
      (Rect.unit (s := S7x1x1024) ![2, 0, 0] S1x1x1024.size inb_S7x1x1024_S1x1x1024_2_0_0).toLoadRect g := rfl

/-! ## The accumulator -/

omit [FloatOps F] in
/-- A share of the accumulator splits into its left half and the rest kept for later. -/
theorem acc_share_split (n : ℕ) (c : Dev nD) (f : (cc0_scratch0 : Ref sig .tc).ty.Contents (Elt F)) :
    accPts (F := F) (restN n) c f ⊣⊢ iprop(accPts (restN n).left c f ∗ accPts (restN (n + 1)) c f) := by
  unfold accPts
  exact pointsTo_share (PosShare.mem_left_op_right (restN n))

omit [FloatOps F] in
theorem acc_share_split_eq (n : ℕ) (c : Dev nD) (f : (cc0_scratch0 : Ref sig .tc).ty.Contents (Elt F)) :
    accPts (F := F) (restN n) c f = iprop(accPts (restN n).left c f ∗ accPts (restN (n + 1)) c f) :=
  eq_of_bi (acc_share_split n c f)

omit [FloatOps F] in
theorem acc_shares_eq (c : Dev nD) (f : (cc0_scratch0 : Ref sig .tc).ty.Contents (Elt F)) :
    accPts (F := F) fullShare c f = iprop(accPts (shr 0) c f ∗ accPts (shr 1) c f ∗ accPts (shr 2) c f ∗ accPts (shr 3) c f ∗
      accPts (shr 4) c f ∗ accPts (shr 5) c f ∗ accPts (shr 6) c f ∗ accPts (restN 7) c f) := by
  show accPts (F := F) (restN 0) c f = iprop(accPts (restN 0).left c f ∗ accPts (restN 1).left c f ∗ accPts (restN 2).left c f ∗
      accPts (restN 3).left c f ∗ accPts (restN 4).left c f ∗ accPts (restN 5).left c f ∗ accPts (restN 6).left c f ∗ accPts (restN 7) c f)
  rw [acc_share_split_eq 0 c f, acc_share_split_eq 1 c f, acc_share_split_eq 2 c f, acc_share_split_eq 3 c f,
    acc_share_split_eq 4 c f, acc_share_split_eq 5 c f, acc_share_split_eq 6 c f]

omit [FloatOps F] in
/-- The accumulator at full share is seven shares, one for each copy in flight, and one kept for the load. -/
theorem acc_shares (c : Dev nD) (f : (cc0_scratch0 : Ref sig .tc).ty.Contents (Elt F)) :
    accPts (F := F) fullShare c f ⊣⊢ iprop(accPts (shr 0) c f ∗ accPts (shr 1) c f ∗ accPts (shr 2) c f ∗ accPts (shr 3) c f ∗
      accPts (shr 4) c f ∗ accPts (shr 5) c f ∗ accPts (shr 6) c f ∗ accPts (restN 7) c f) := by
  rw [acc_shares_eq]

omit [FloatOps F] in
/-- The accumulator's points-to through its memref is the whole buffer's. -/
theorem accPts_full (c : Dev nD) (f : (cc0_scratch0 : Ref sig .tc).ty.Contents (Elt F)) :
    accPts (F := F) fullShare c f = (((c : Thread nD τ).loc cc0_scratch0) ↦{fullShare} f : sProp 𝕄) := by
  unfold accPts; rw [View.set_whole]

omit [FloatOps F] in
/-- A load of the whole accumulator reads its contents. -/
theorem read_acc (f : (cc0_scratch0 : Ref sig .tc).ty.Contents (Elt F)) :
    (accM : Memref sig .tc .vmem S1x1024 .f32).view.readAt (Elt F)
      (Rect.unit (s := S1x1024) ![0, 0] S1x1024.size inb_S1x1024_S1x1024_0_0).toLoadRect f = f :=
  Memref.readAt_unit_zero (Elt F) cc0_scratch0 (by funext a; fin_cases a <;> rfl) inb_S1x1024_S1x1024_0_0 f

omit [FloatOps F] in
/-- An unmasked store of the whole accumulator leaves its payload. -/
theorem write_acc (f w : (cc0_scratch0 : Ref sig .tc).ty.Contents (Elt F)) :
    ((accM : Memref sig .tc .vmem S1x1024 .f32).access
      (Rect.unit (s := S1x1024) ![0, 0] S1x1024.size inb_S1x1024_S1x1024_0_0) : View sig .tc _ _ _).write (Elt F) f w Finset.univ = w :=
  Memref.write_access_unit_zero_univ (Elt F) cc0_scratch0 (by funext a; fin_cases a <;> rfl) inb_S1x1024_S1x1024_0_0 f w

end Cert.Kernel.SlotMem

end
-- ==== Proof.WBodyCommon.lean ====
/-
  What every grid point's run shares: which device each of the kernel's device words names, which branch each
  point takes and which staging slot it is on, and how one cell's invariant is read out of the family.
-/
import proofs.«901089_g7700000000001090_dist_sum_ax0_shard0_i_m4096_n1024_v7x_i8_f32_1_alg».proof.Proof.WProto
import proofs.«901089_g7700000000001090_dist_sum_ax0_shard0_i_m4096_n1024_v7x_i8_f32_1_alg».proof.Proof.WSlotMem

noncomputable section

namespace Cert.Kernel.Body

open Cert.Kernel Cert.Kernel.Gen Cert.Kernel.Acc Cert.Kernel.Proto
open Idealize.ShloMosaic.Tactic
open Cert.Kernel.SlotMem

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)
/-! ## The devices the kernel addresses -/

theorem dev1_val : ∀ c : Dev nD, k0_dev1 c = (peer c 0).val := by decide +kernel
theorem dev2_val : ∀ c : Dev nD, k0_dev2 c = (peer c 1).val := by decide +kernel
theorem dev3_val : ∀ c : Dev nD, k0_dev3 c = (peer c 2).val := by decide +kernel
theorem dev4_val : ∀ c : Dev nD, k0_dev4 c = (peer c 3).val := by decide +kernel
theorem dev5_val : ∀ c : Dev nD, k0_dev5 c = (peer c 4).val := by decide +kernel
theorem dev6_val : ∀ c : Dev nD, k0_dev6 c = (peer c 5).val := by decide +kernel
theorem dev7_val : ∀ c : Dev nD, k0_dev7 c = (peer c 6).val := by decide +kernel
theorem dev8_val : ∀ c : Dev nD, k0_dev8 c = (peer c 0).val := by decide +kernel
theorem dev9_val : ∀ c : Dev nD, k0_dev9 c = (peer c 1).val := by decide +kernel
theorem dev10_val : ∀ c : Dev nD, k0_dev10 c = (peer c 2).val := by decide +kernel
theorem dev11_val : ∀ c : Dev nD, k0_dev11 c = (peer c 3).val := by decide +kernel
theorem dev12_val : ∀ c : Dev nD, k0_dev12 c = (peer c 4).val := by decide +kernel
theorem dev13_val : ∀ c : Dev nD, k0_dev13 c = (peer c 5).val := by decide +kernel
theorem dev14_val : ∀ c : Dev nD, k0_dev14 c = (peer c 6).val := by decide +kernel

theorem cond1_0 : k0_cond1 (grid0.coords t0_0) = 1#1 := by decide
theorem cond2_0 : ¬ k0_cond2 (grid0.coords t0_0) = 1#1 := by decide
theorem cond1_1 : ¬ k0_cond1 (grid0.coords t0_1) = 1#1 := by decide
theorem cond2_1 : k0_cond2 (grid0.coords t0_1) = 1#1 := by decide
theorem slots00 : cfg0.slots t0_0 0 = 0 := by decide
theorem slots01 : cfg0.slots t0_0 1 = 0 := by decide
theorem slots10 : cfg0.slots t0_1 0 = 1 := by decide
theorem slots11 : cfg0.slots t0_1 1 = 0 := by decide

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin15 (Φ : Fin 15 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ

theorem inv_at (K : Dev nD × Fin 15 → ℕ) (cj : Dev nD × Fin 15) :
    (bigSep Finset.univ fun cj : Dev nD × Fin 15 => (cellInv ER (rd m) (K cj) (kcell cj) : sProp 𝕄)) ⊢ cellInv ER (rd m) (K cj) (kcell cj) :=
  bigSep_elim (Finset.mem_univ cj)
omit [FloatOps F] in
theorem reached_at (cj : Dev nD × Fin 15) :
    (bigSep Finset.univ fun cj : Dev nD × Fin 15 => (reached ER (kcell cj) 0 : sProp 𝕄)) ⊢ reached ER (kcell cj) 0 :=
  bigSep_elim (Finset.mem_univ cj)

theorem dev1_eq (c : Dev nD) (h : k0_dev1 c < nD) : (⟨k0_dev1 c, h⟩ : Dev nD) = peer c 0 := Fin.ext (dev1_val c)
theorem dev2_eq (c : Dev nD) (h : k0_dev2 c < nD) : (⟨k0_dev2 c, h⟩ : Dev nD) = peer c 1 := Fin.ext (dev2_val c)
theorem dev3_eq (c : Dev nD) (h : k0_dev3 c < nD) : (⟨k0_dev3 c, h⟩ : Dev nD) = peer c 2 := Fin.ext (dev3_val c)
theorem dev4_eq (c : Dev nD) (h : k0_dev4 c < nD) : (⟨k0_dev4 c, h⟩ : Dev nD) = peer c 3 := Fin.ext (dev4_val c)
theorem dev5_eq (c : Dev nD) (h : k0_dev5 c < nD) : (⟨k0_dev5 c, h⟩ : Dev nD) = peer c 4 := Fin.ext (dev5_val c)
theorem dev6_eq (c : Dev nD) (h : k0_dev6 c < nD) : (⟨k0_dev6 c, h⟩ : Dev nD) = peer c 5 := Fin.ext (dev6_val c)
theorem dev7_eq (c : Dev nD) (h : k0_dev7 c < nD) : (⟨k0_dev7 c, h⟩ : Dev nD) = peer c 6 := Fin.ext (dev7_val c)
theorem dev8_eq (c : Dev nD) (h : k0_dev8 c < nD) : (⟨k0_dev8 c, h⟩ : Dev nD) = peer c 0 := Fin.ext (dev8_val c)
theorem dev9_eq (c : Dev nD) (h : k0_dev9 c < nD) : (⟨k0_dev9 c, h⟩ : Dev nD) = peer c 1 := Fin.ext (dev9_val c)
theorem dev10_eq (c : Dev nD) (h : k0_dev10 c < nD) : (⟨k0_dev10 c, h⟩ : Dev nD) = peer c 2 := Fin.ext (dev10_val c)
theorem dev11_eq (c : Dev nD) (h : k0_dev11 c < nD) : (⟨k0_dev11 c, h⟩ : Dev nD) = peer c 3 := Fin.ext (dev11_val c)
theorem dev12_eq (c : Dev nD) (h : k0_dev12 c < nD) : (⟨k0_dev12 c, h⟩ : Dev nD) = peer c 4 := Fin.ext (dev12_val c)
theorem dev13_eq (c : Dev nD) (h : k0_dev13 c < nD) : (⟨k0_dev13 c, h⟩ : Dev nD) = peer c 5 := Fin.ext (dev13_val c)
theorem dev14_eq (c : Dev nD) (h : k0_dev14 c < nD) : (⟨k0_dev14 c, h⟩ : Dev nD) = peer c 6 := Fin.ext (dev14_val c)

theorem inv_bar (K : Dev nD × Fin 15 → ℕ) (c' : Dev nD) :
    (bigSep Finset.univ fun cj : Dev nD × Fin 15 => (cellInv ER (rd m) (K cj) (kcell cj) : sProp 𝕄)) ⊢ cellInv ER (rd m) (K (c', 0)) (barCell c') :=
  inv_at m K (c', 0)
theorem inv_send (K : Dev nD × Fin 15 → ℕ) (c' : Dev nD) (k : Fin 7) :
    (bigSep Finset.univ fun cj : Dev nD × Fin 15 => (cellInv ER (rd m) (K cj) (kcell cj) : sProp 𝕄)) ⊢ cellInv ER (rd m) (K (c', sJ k)) (sendCell c' k) := by
  have h := inv_at m K (c', sJ k); rwa [show kcell (c', sJ k) = sendCell c' k from congrArg (Prod.mk _) (csem_sJ k)] at h
theorem inv_recv (K : Dev nD × Fin 15 → ℕ) (c' : Dev nD) (k : Fin 7) :
    (bigSep Finset.univ fun cj : Dev nD × Fin 15 => (cellInv ER (rd m) (K cj) (kcell cj) : sProp 𝕄)) ⊢ cellInv ER (rd m) (K (c', rJ k)) (recvCell c' k) := by
  have h := inv_at m K (c', rJ k); rwa [show kcell (c', rJ k) = recvCell c' k from congrArg (Prod.mk _) (csem_rJ k)] at h
omit [FloatOps F] in
theorem reached_bar (c' : Dev nD) :
    (bigSep Finset.univ fun cj : Dev nD × Fin 15 => (reached ER (kcell cj) 0 : sProp 𝕄)) ⊢ reached ER (barCell c') 0 :=
  reached_at (c', 0)
omit [FloatOps F] in
theorem reached_send (c' : Dev nD) (k : Fin 7) :
    (bigSep Finset.univ fun cj : Dev nD × Fin 15 => (reached ER (kcell cj) 0 : sProp 𝕄)) ⊢ reached ER (sendCell c' k) 0 := by
  have h := reached_at (F := F) (c', sJ k); rwa [show kcell (c', sJ k) = sendCell c' k from congrArg (Prod.mk _) (csem_sJ k)] at h
omit [FloatOps F] in
theorem reached_recv (c' : Dev nD) (k : Fin 7) :
    (bigSep Finset.univ fun cj : Dev nD × Fin 15 => (reached ER (kcell cj) 0 : sProp 𝕄)) ⊢ reached ER (recvCell c' k) 0 := by
  have h := reached_at (F := F) (c', rJ k); rwa [show kcell (c', rJ k) = recvCell c' k from congrArg (Prod.mk _) (csem_rJ k)] at h

omit [FloatOps F] in
/-- A device's fifteen positions, cell by cell. -/
theorem positions_eq (c : Dev nD) : positions (F := F) c = iprop(atPos ER (barCell c) 0 ∅ 0
    ∗ atPos ER (sendCell c 0) 0 ∅ 0 ∗ atPos ER (sendCell c 1) 0 ∅ 0 ∗ atPos ER (sendCell c 2) 0 ∅ 0 ∗ atPos ER (sendCell c 3) 0 ∅ 0
    ∗ atPos ER (sendCell c 4) 0 ∅ 0 ∗ atPos ER (sendCell c 5) 0 ∅ 0 ∗ atPos ER (sendCell c 6) 0 ∅ 0
    ∗ atPos ER (recvCell c 0) 0 ∅ 0 ∗ atPos ER (recvCell c 1) 0 ∅ 0 ∗ atPos ER (recvCell c 2) 0 ∅ 0 ∗ atPos ER (recvCell c 3) 0 ∅ 0
    ∗ atPos ER (recvCell c 4) 0 ∅ 0 ∗ atPos ER (recvCell c 5) 0 ∅ 0 ∗ atPos ER (recvCell c 6) 0 ∅ 0) :=
  bigSep_fin15 _

omit [FloatOps F] in
theorem hz2 : (![0, 0] : Fin 2 → Nat) = fun _ => 0 := funext fun a => by fin_cases a <;> rfl

abbrev RA : Rect S1x1024 := Rect.unit (s := S1x1024) ![0, 0] S1x1024.size inb_S1x1024_S1x1024_0_0
abbrev RX : Rect S2048x1024 := Rect.unit (s := S2048x1024) ![0, 0] S2048x1024.size inb_S2048x1024_S2048x1024_0_0

omit [FloatOps F] in
theorem read_x0 (g : (cc0_stg0_0 : Ref sig .tc).ty.Contents (Elt F)) :
    (Memref.whole cc0_stg0_0 : Memref sig .tc .vmem S2048x1024 .f32).view.readAt (Elt F) RX.toLoadRect g = g :=
  Memref.readAt_unit_zero (Elt F) cc0_stg0_0 hz2 _ g
omit [FloatOps F] in
theorem read_x1 (g : (cc0_stg0_1 : Ref sig .tc).ty.Contents (Elt F)) :
    (Memref.whole cc0_stg0_1 : Memref sig .tc .vmem S2048x1024 .f32).view.readAt (Elt F) RX.toLoadRect g = g :=
  Memref.readAt_unit_zero (Elt F) cc0_stg0_1 hz2 _ g

/-- The accumulator after one store of `w` over anything. -/
theorem acc_write1 (f w : (cc0_scratch0 : Ref sig .tc).ty.Contents (Elt F)) (L : List (View.Piece (Elt F) S1x1024 .f32)) :
    (accM : Memref sig .tc .vmem S1x1024 .f32).view.writes (Elt F) f (⟨RA, w⟩ :: L) = w := by
  rw [View.writes_cons]; exact write_acc _ w
/-- A load of the accumulator right after a store of `z` reads `z`. -/
theorem acc_readCov (z : (cc0_scratch0 : Ref sig .tc).ty.Contents (Elt F)) :
    (accM : Memref sig .tc .vmem S1x1024 .f32).view.readCov [(⟨RA, z⟩ : View.Piece (Elt F) S1x1024 .f32)] RA.toLoadRect = z :=
  View.readCov_unit_zero _ hz2 _ z

/-- What the first window's staging buffer holds at a point: that point's block of rows. -/
theorem before_x (c : Dev nD) (t : Fin cfg0.N) (d) : (dats m ρ 0 c).before (0 : Fin 2) t d = xb m c t :=
  ((dats m ρ 0 c).before_in_eq_fetched 0 rfl (fun _ => rfl) (fun _ _ _ => rfl)
    (fun t => by show xb m c t = _; unfold Dat.blockOf; rfl) t d).trans
    (by unfold Dat.fetched Dat.blockOf; rfl)

end Cert.Kernel.Body
end
-- ==== Proof.WBody0.lean ====
/-
  The first grid point on a device: it signals the seven peers' barrier cells, each signal handing the peer one slot of
  its own receive buffer, zeroes the accumulator and adds the column sums of its first block of rows.
-/
import proofs.«901089_g7700000000001090_dist_sum_ax0_shard0_i_m4096_n1024_v7x_i8_f32_1_alg».proof.Proof.WBodyCommon

noncomputable section

namespace Cert.Kernel.Body

open Cert.Kernel Cert.Kernel.Gen Cert.Kernel.Acc Cert.Kernel.Proto
open Idealize.ShloMosaic.Tactic
open Cert.Kernel.SlotMem

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

section B0
variable (K : Dev nD × Fin 15 → ℕ)

def bodyPre0 (c : Dev nD) : sProp 𝕄 :=
  iprop(ghost m K c ∗ creds c ∗ levAts L lv
    ∗ (∃ f, accPts fullShare c f) ∗ (∃ f, ((c : Thread nD τ).loc cc0_scratch1) ↦{fullShare} f)
    ∗ (dats m ρ 0 c).owesAt () t0_0.castSucc
    ∗ (∃ d, owns (c : Thread nD τ) (Memref.whole cc0_stg0_0) fullShare ((dats m ρ 0 c).before (0 : Fin 2) t0_0 d))
    ∗ (∃ d, owns (c : Thread nD τ) (Memref.whole cc0_stg1_0) fullShare ((dats m ρ 0 c).before (1 : Fin 2) t0_0 d)))

def bodyPost0 (c : Dev nD) : sProp 𝕄 :=
  iprop(Φ₁ m c ∗ (dats m ρ 0 c).owesAt () t0_0.succ ∗ owns (c : Thread nD τ) (Memref.whole cc0_stg0_0) fullShare (xb m c t0_0)
    ∗ (∃ d, owns (c : Thread nD τ) (Memref.whole cc0_stg1_0) fullShare ((dats m ρ 0 c).before (1 : Fin 2) t0_0 d)))

/-- The payload of the duty device `c` pays on `peer c k`'s barrier cell: slot `k` of its own receive buffer. -/
theorem payload_bar_peer (c : Dev nD) (k : Fin 7) :
    (rd (F := F) m).payload (barCell (peer c k)) 0 k
      = iprop(∃ f : (cc0_scratch1 : Ref sig .tc).ty.Contents (Elt F), (slotM k).view.loc (c : Thread nD τ) ↦[(slotM k).view.set]{fullShare} (f : Buf (Elt F) ((slotM k).view.loc (c : Thread nD τ)))) := by
  rw [payload_bar]; unfold barPay slotPts; rw [peer_peer]

theorem mem_duties_bar (c : Dev nD) (k : Fin 7) : k ∈ (rd (F := F) m).duties (barCell c) 0 := by rw [duties_bar]; exact Finset.mem_univ _

attribute [local sl_rounds] duties_bar amount_bar payload_bar_peer mem_duties_bar
attribute [local sl_canon] dev1_eq dev2_eq dev3_eq dev4_eq dev5_eq dev6_eq dev7_eq

set_option maxHeartbeats 1600000 in
theorem sound_body0 (c : Dev nD) (Kt : PUnit → sProp 𝕄) :
    iprop(bodyPre0 m ρ K c ∗ (bodyPost0 m ρ c -∗ Kt ⟨⟩))
      ⊢ wp frame (wpE (defs₀ (F := F)) 𝒱₀ c none) Set.univ
          (cc0_body (grid0.coords t0_0) (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre0 ghost records Dat.owesAt Pipeline.owesWithin
  rw [show sigToks (F := F) c = _ from bigSep_fin7 _, show (dats m ρ 0 c).owed t0_0.castSucc = O₀ c from rfl]
  simp only [O₀, owedL, Bt, all7]
  unfold owns accPts
  iintro ⟨⟨⟨⟨#HIs, #HRs⟩, Hpos, ⟨Ht0, Ht1, Ht2, Ht3, Ht4, Ht5, Ht6⟩, Hxf⟩, Hcr, #Hlev, ⟨%fa, Hacc⟩, ⟨%fr, Hrcv⟩, ⟨%W, %hW, HO⟩, ⟨%d0, %g0, %hg0, Hx⟩, ⟨%d1, %g1, %hg1, Hout⟩⟩, Hk⟩
  ihave HI0 := (inv_bar m K (peer c 0)) $$ HIs; icases HI0 with #HI0
  ihave HI1 := (inv_bar m K (peer c 1)) $$ HIs; icases HI1 with #HI1
  ihave HI2 := (inv_bar m K (peer c 2)) $$ HIs; icases HI2 with #HI2
  ihave HI3 := (inv_bar m K (peer c 3)) $$ HIs; icases HI3 with #HI3
  ihave HI4 := (inv_bar m K (peer c 4)) $$ HIs; icases HI4 with #HI4
  ihave HI5 := (inv_bar m K (peer c 5)) $$ HIs; icases HI5 with #HI5
  ihave HI6 := (inv_bar m K (peer c 6)) $$ HIs; icases HI6 with #HI6
  ihave Hr0 := (reached_bar (F := F) (peer c 0)) $$ HRs; icases Hr0 with #Hr0
  ihave Hr1 := (reached_bar (F := F) (peer c 1)) $$ HRs; icases Hr1 with #Hr1
  ihave Hr2 := (reached_bar (F := F) (peer c 2)) $$ HRs; icases Hr2 with #Hr2
  ihave Hr3 := (reached_bar (F := F) (peer c 3)) $$ HRs; icases Hr3 with #Hr3
  ihave Hr4 := (reached_bar (F := F) (peer c 4)) $$ HRs; icases Hr4 with #Hr4
  ihave Hr5 := (reached_bar (F := F) (peer c 5)) $$ HRs; icases Hr5 with #Hr5
  ihave Hr6 := (reached_bar (F := F) (peer c 6)) $$ HRs; icases Hr6 with #Hr6
  have hsplit := (rcv_split (F := F) c fr).1
  unfold slotPts at hsplit
  ihave Hs := hsplit $$ Hrcv
  icases Hs with ⟨Hs0, Hs1, Hs2, Hs3, Hs4, Hs5, Hs6⟩
  have hc1 := cond1_0
  have hc2 := cond2_0
  sl_unfold [cc0_body]
  sl_exec
  sl_step
  iapply Hk
  unfold bodyPost0 Φ₁ Dat.owesAt Pipeline.owesWithin owns
  rw [show (dats m ρ 0 c).owed t0_0.succ = O₁ c from rfl]
  sl_unfold_words
  have hg : (g0 : (cc0_stg0_0 : Ref sig .tc).ty.Contents (Elt F)) = xb m c t0_0 := by
    have h := hg0; rw [before_x] at h; simpa only [Memref.view_whole, View.read_whole] using h
  have hacc : (accM : Memref sig .tc .vmem S1x1024 .f32).view.writes (Elt F) fa
      [⟨RA, k0_pay2 ((accM : Memref sig .tc .vmem S1x1024 .f32).view.readCov [(⟨RA, k0_pay1 (k0_pay3 (F := F))⟩ : View.Piece (Elt F) S1x1024 .f32)] RA.toLoadRect)
          ((Memref.whole cc0_stg0_0 : Memref sig .tc .vmem S2048x1024 .f32).view.readAt (Elt F) RX.toLoadRect g0)⟩,
        ⟨RA, k0_pay1 (k0_pay3 (F := F))⟩] = accH m c := by
    rw [acc_write1, acc_readCov, read_x0, hg]; rfl
  ihave Hacc' := (Entails.of_eq (congrArg (fun f => ((accM : Memref sig .tc .vmem S1x1024 .f32).view.loc (c : Thread nD τ) ↦[(accM : Memref sig .tc .vmem S1x1024 .f32).view.set]{fullShare} f : sProp 𝕄)) hacc)) $$ Hacc
  have hfull := accPts_full (F := F) c (accH m c)
  unfold accPts at hfull
  ihave Hacc'' := (Entails.of_eq hfull) $$ Hacc'
  isplitl [Hpos Hxf Hcr Hacc'']
  · isplitl [Hpos Hxf]
    · iexists K
      isplitr
      · unfold records; isplitr; · iexact HIs
        iexact HRs
      isplitl [Hpos]; · iexact Hpos
      iexact Hxf
    isplitl [Hcr]; · iexact Hcr
    isplitr; · iexact Hlev
    iexact Hacc''
  isplitl [HO]
  · iexists W
    isplitr; · ipureintro; exact fun _ _ => Or.inl trivial
    iexact HO
  isplitl [Hx]
  · iexists g0
    isplitr; · ipureintro; rw [hg0]; exact before_x m ρ c t0_0 d0
    iexact Hx
  iexists d1; iexists g1
  isplitr; · ipureintro; exact hg1
  iexact Hout
end B0

end Cert.Kernel.Body
end
-- ==== Proof.WBody1.lean ====
/-
  The second grid point on a device: it adds the column sums of its second block of rows, waits for the seven peers'
  signals (each hands it a slot of that peer's receive buffer), copies its accumulator into those seven slots, adds the
  seven rows the peers copied into its own slots, stores the sum, and waits for its copies to have been read out.
-/
import proofs.«901089_g7700000000001090_dist_sum_ax0_shard0_i_m4096_n1024_v7x_i8_f32_1_alg».proof.Proof.WBodyCommon

noncomputable section

namespace Cert.Kernel.Body

open Cert.Kernel Cert.Kernel.Gen Cert.Kernel.Acc Cert.Kernel.Proto
open Idealize.ShloMosaic.Tactic
open Cert.Kernel.SlotMem

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

omit [FloatOps F] in
/-- On slot `k`'s elements, what a copy of the row `fs` left there is that row, whatever the slot held before. -/
theorem landed_at (k : Fin 7) (fd : (cc0_scratch1 : Ref sig .tc).ty.Contents (Elt F)) (fs : (cc0_scratch0 : Ref sig .tc).ty.Contents (Elt F)) :
    ∀ i ∈ (slotM k).view.set, ((slotM k).view.write (Elt F) fd ((accM : Memref sig .tc .vmem S1x1024 .f32).view.read (Elt F) fs) Finset.univ) i = slotFill fs i := by
  intro i hi
  have hk := (mem_slot_set k i).mp hi
  have he := slot_emb_of k i hk
  have hw := View.write_emb_of_mem (v := (slotM k).view) (Val := Elt F) fd
    ((accM : Memref sig .tc .vmem S1x1024 .f32).view.read (Elt F) fs) (M := Finset.univ) (x := ix2 (i 1) (i 2)) (Finset.mem_univ _)
  rw [he] at hw
  exact hw.trans rfl
omit [FloatOps F] in
theorem read_landed0 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![0, 0, 0] S1x1x1024.size inb_S7x1x1024_S1x1x1024_0_0_0).toLoadRect
      ((slotM 0).view.write (Elt F) fd ((accM : Memref sig .tc .vmem S1x1024 .f32).view.read (Elt F) fs) Finset.univ) = slotVal fs :=
  read_slot 0 _ fs (landed_at 0 fd fs)
omit [FloatOps F] in
theorem read_landed1 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![1, 0, 0] S1x1x1024.size inb_S7x1x1024_S1x1x1024_1_0_0).toLoadRect
      ((slotM 1).view.write (Elt F) fd ((accM : Memref sig .tc .vmem S1x1024 .f32).view.read (Elt F) fs) Finset.univ) = slotVal fs :=
  read_slot 1 _ fs (landed_at 1 fd fs)
omit [FloatOps F] in
theorem read_landed2 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![2, 0, 0] S1x1x1024.size inb_S7x1x1024_S1x1x1024_2_0_0).toLoadRect
      ((slotM 2).view.write (Elt F) fd ((accM : Memref sig .tc .vmem S1x1024 .f32).view.read (Elt F) fs) Finset.univ) = slotVal fs :=
  read_slot 2 _ fs (landed_at 2 fd fs)
omit [FloatOps F] in
theorem read_landed3 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![3, 0, 0] S1x1x1024.size inb_S7x1x1024_S1x1x1024_3_0_0).toLoadRect
      ((slotM 3).view.write (Elt F) fd ((accM : Memref sig .tc .vmem S1x1024 .f32).view.read (Elt F) fs) Finset.univ) = slotVal fs :=
  read_slot 3 _ fs (landed_at 3 fd fs)
omit [FloatOps F] in
theorem read_landed4 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![4, 0, 0] S1x1x1024.size inb_S7x1x1024_S1x1x1024_4_0_0).toLoadRect
      ((slotM 4).view.write (Elt F) fd ((accM : Memref sig .tc .vmem S1x1024 .f32).view.read (Elt F) fs) Finset.univ) = slotVal fs :=
  read_slot 4 _ fs (landed_at 4 fd fs)
omit [FloatOps F] in
theorem read_landed5 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![5, 0, 0] S1x1x1024.size inb_S7x1x1024_S1x1x1024_5_0_0).toLoadRect
      ((slotM 5).view.write (Elt F) fd ((accM : Memref sig .tc .vmem S1x1024 .f32).view.read (Elt F) fs) Finset.univ) = slotVal fs :=
  read_slot 5 _ fs (landed_at 5 fd fs)
omit [FloatOps F] in
theorem read_landed6 (fd : (cc0_scratch1 : Ref sig .tc).ty.Contents (Elt F)) (fs : (cc0_scratch0 : Ref sig .tc).ty.Contents (Elt F)) :
    (Memref.whole cc0_scratch1 : Memref sig .tc .vmem S7x1x1024 .f32).view.readAt (Elt F)
      (Rect.unit (s := S7x1x1024) ![6, 0, 0] S1x1x1024.size inb_S7x1x1024_S1x1x1024_6_0_0).toLoadRect
      ((slotM 6).view.write (Elt F) fd ((accM : Memref sig .tc .vmem S1x1024 .f32).view.read (Elt F) fs) Finset.univ) = slotVal fs :=
  read_slot 6 _ fs (landed_at 6 fd fs)

omit [FloatOps F] in
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ

omit [FloatOps F] in
/-- The fourteen own semaphores at zero, as the exit wants them. -/
theorem ownSems_eq (c : Dev nD) : (bigSep Finset.univ fun j : Fin 14 => (semVal ((c : Thread nD τ), osem j) 0 : sProp 𝕄))
    = iprop(semVal (sendCell c 0) 0 ∗ semVal (sendCell c 1) 0 ∗ semVal (sendCell c 2) 0 ∗ semVal (sendCell c 3) 0 ∗ semVal (sendCell c 4) 0
      ∗ semVal (sendCell c 5) 0 ∗ semVal (sendCell c 6) 0 ∗ semVal (recvCell c 0) 0 ∗ semVal (recvCell c 1) 0 ∗ semVal (recvCell c 2) 0
      ∗ semVal (recvCell c 3) 0 ∗ semVal (recvCell c 4) 0 ∗ semVal (recvCell c 5) 0 ∗ semVal (recvCell c 6) 0) :=
  bigSep_fin14 _

omit [FloatOps F] in
theorem out_write1 (f w : (cc0_stg1_0 : Ref sig .tc).ty.Contents (Elt F)) :
    (Memref.whole cc0_stg1_0 : Memref sig .tc .vmem S1x1024 .f32).view.writes (Elt F) f [⟨RA, w⟩] = w := by
  rw [View.writes_singleton]; exact Memref.write_access_unit_zero_univ (Elt F) cc0_stg1_0 hz2 _ f w

section B1
variable (K : Dev nD × Fin 15 → ℕ)

def bodyPre1 (c : Dev nD) : sProp 𝕄 :=
  iprop(records m K ∗ positions c ∗ xferToks c ∗ creds c ∗ levAts L lv
    ∗ accPts fullShare c (accH m c)
    ∗ (dats m ρ 0 c).owesAt () t0_1.castSucc
    ∗ (∃ d, owns (c : Thread nD τ) (Memref.whole cc0_stg0_1) fullShare ((dats m ρ 0 c).before (0 : Fin 2) t0_1 d))
    ∗ (∃ d, owns (c : Thread nD τ) (Memref.whole cc0_stg1_0) fullShare ((dats m ρ 0 c).before (1 : Fin 2) t0_1 d)))

def bodyPost1 (c : Dev nD) : sProp 𝕄 :=
  iprop(Φ₂ (F := F) c ∗ (dats m ρ 0 c).owesAt () t0_1.succ ∗ owns (c : Thread nD τ) (Memref.whole cc0_stg0_1) fullShare (xb m c t0_1)
    ∗ owns (c : Thread nD τ) (Memref.whole cc0_stg1_0) fullShare (outOf m c))

omit [FloatOps F] in
theorem exists_const_eq {T : Type} [Inhabited T] (P : sProp 𝕄) : (iprop(∃ _x : T, P) : sProp 𝕄) = P :=
  eq_of_bi ⟨exists_elim fun _ => BI.Entails.refl _, exists_intro (Φ := fun _ : T => P) default⟩

/-- The payload of duty `d` of a device's own barrier cell: slot `d` of `peer c d`'s receive buffer. -/
theorem payload_bar_own (c : Dev nD) (d : Fin 7) :
    (rd (F := F) m).payload (barCell c) 0 d
      = iprop(∃ f : (cc0_scratch1 : Ref sig .tc).ty.Contents (Elt F), (slotM d).view.loc (peer c d : Thread nD τ) ↦[(slotM d).view.set]{fullShare} (f : Buf (Elt F) ((slotM d).view.loc (peer c d : Thread nD τ)))) := by
  rw [payload_bar]; unfold barPay slotPts; rfl
/-- A send cell's: the accumulator at that copy's share. -/
theorem payload_send_own (c : Dev nD) (k d : Fin 7) :
    (rd (F := F) m).payload (sendCell c k) 0 d
      = ((accM : Memref sig .tc .vmem S1x1024 .f32).view.loc (c : Thread nD τ) ↦[(accM : Memref sig .tc .vmem S1x1024 .f32).view.set]{shr k} (accOf m c : Buf (Elt F) ((accM : Memref sig .tc .vmem S1x1024 .f32).view.loc (c : Thread nD τ)))) := by
  rw [payload_send]; unfold sendPay accPts; rfl
/-- A receive cell's, as the copy lands it: slot `k` rewritten by the accumulator of the device that pays it. -/
theorem payload_recv_own (c : Dev nD) (k d : Fin 7) :
    (rd (F := F) m).payload (recvCell c k) 0 d
      = iprop(∃ fd : (cc0_scratch1 : Ref sig .tc).ty.Contents (Elt F), (slotM k).view.loc (c : Thread nD τ) ↦[(slotM k).view.set]{fullShare}
          ((slotM k).view.write (Elt F) (fd : Buf (Elt F) ((slotM k).view.loc (c : Thread nD τ))) ((accM : Memref sig .tc .vmem S1x1024 .f32).view.read (Elt F) (accOf m (peer c k))) Finset.univ)) := by
  rw [payload_recv]; unfold recvPay
  have h : ∀ fd, slotPts (F := F) c k ((slotM k).view.write (Elt F) fd ((accM : Memref sig .tc .vmem S1x1024 .f32).view.read (Elt F) (accOf m (peer c k))) Finset.univ)
      = slotPts c k (slotFill (accOf m (peer c k))) := fun fd => landed_eq c k fd _
  unfold slotPts at h
  simp only [h]
  rw [exists_const_eq]; rfl
theorem payload_recv_peer (c : Dev nD) (k d : Fin 7) :
    (rd (F := F) m).payload (recvCell (peer c k) k) 0 d
      = iprop(∃ fd : (cc0_scratch1 : Ref sig .tc).ty.Contents (Elt F), (slotM k).view.loc (peer c k : Thread nD τ) ↦[(slotM k).view.set]{fullShare}
          ((slotM k).view.write (Elt F) (fd : Buf (Elt F) ((slotM k).view.loc (peer c k : Thread nD τ))) ((accM : Memref sig .tc .vmem S1x1024 .f32).view.read (Elt F) (accOf m c)) Finset.univ)) := by
  rw [payload_recv_own, peer_peer]

theorem mem_duties_bar (c : Dev nD) (k : Fin 7) : k ∈ (rd (F := F) m).duties (barCell c) 0 := by rw [duties_bar]; exact Finset.mem_univ _
theorem mem_duties_send (c : Dev nD) (k : Fin 7) : (0 : Fin 7) ∈ (rd (F := F) m).duties (sendCell c k) 0 := by rw [duties_send]; exact Finset.mem_singleton_self _
theorem mem_duties_recv (c : Dev nD) (k : Fin 7) : (0 : Fin 7) ∈ (rd (F := F) m).duties (recvCell c k) 0 := by rw [duties_recv]; exact Finset.mem_singleton_self _

attribute [local sl_rounds] duties_bar duties_send duties_recv amount_bar amount_send amount_recv expect_bar expect_send expect_recv
  payload_bar_own payload_send_own payload_recv_own peer_peer mem_duties_bar mem_duties_send mem_duties_recv
theorem sendS_canon0 : (cc0_scratch2.slice (Rect.unit (s := S7) ![0] S1.size inb_S7_S1_0)).squeeze S_ squeezes_S1_S_ = sendS 0 := rfl
theorem recvS_canon0 : (cc0_scratch3.slice (Rect.unit (s := S7) ![0] S1.size inb_S7_S1_0)).squeeze S_ squeezes_S1_S_ = recvS 0 := rfl
theorem slotM_canon0 : ((Memref.whole cc0_scratch1 : Memref sig .tc .vmem S7x1x1024 .f32).slice (Rect.unit (s := S7x1x1024) ![0, 0, 0] S1x1x1024.size inb_S7x1x1024_S1x1x1024_0_0_0) (fun _ => rfl)).squeeze S1x1024 squeezes_S1x1x1024_S1x1024 = slotM 0 := rfl
theorem sendS_canon1 : (cc0_scratch2.slice (Rect.unit (s := S7) ![1] S1.size inb_S7_S1_1)).squeeze S_ squeezes_S1_S_ = sendS 1 := rfl
theorem recvS_canon1 : (cc0_scratch3.slice (Rect.unit (s := S7) ![1] S1.size inb_S7_S1_1)).squeeze S_ squeezes_S1_S_ = recvS 1 := rfl
theorem slotM_canon1 : ((Memref.whole cc0_scratch1 : Memref sig .tc .vmem S7x1x1024 .f32).slice (Rect.unit (s := S7x1x1024) ![1, 0, 0] S1x1x1024.size inb_S7x1x1024_S1x1x1024_1_0_0) (fun _ => rfl)).squeeze S1x1024 squeezes_S1x1x1024_S1x1024 = slotM 1 := rfl
theorem sendS_canon2 : (cc0_scratch2.slice (Rect.unit (s := S7) ![2] S1.size inb_S7_S1_2)).squeeze S_ squeezes_S1_S_ = sendS 2 := rfl
theorem recvS_canon2 : (cc0_scratch3.slice (Rect.unit (s := S7) ![2] S1.size inb_S7_S1_2)).squeeze S_ squeezes_S1_S_ = recvS 2 := rfl
theorem slotM_canon2 : ((Memref.whole cc0_scratch1 : Memref sig .tc .vmem S7x1x1024 .f32).slice (Rect.unit (s := S7x1x1024) ![2, 0, 0] S1x1x1024.size inb_S7x1x1024_S1x1x1024_2_0_0) (fun _ => rfl)).squeeze S1x1024 squeezes_S1x1x1024_S1x1024 = slotM 2 := rfl
theorem sendS_canon3 : (cc0_scratch2.slice (Rect.unit (s := S7) ![3] S1.size inb_S7_S1_3)).squeeze S_ squeezes_S1_S_ = sendS 3 := rfl
theorem recvS_canon3 : (cc0_scratch3.slice (Rect.unit (s := S7) ![3] S1.size inb_S7_S1_3)).squeeze S_ squeezes_S1_S_ = recvS 3 := rfl
theorem slotM_canon3 : ((Memref.whole cc0_scratch1 : Memref sig .tc .vmem S7x1x1024 .f32).slice (Rect.unit (s := S7x1x1024) ![3, 0, 0] S1x1x1024.size inb_S7x1x1024_S1x1x1024_3_0_0) (fun _ => rfl)).squeeze S1x1024 squeezes_S1x1x1024_S1x1024 = slotM 3 := rfl
theorem sendS_canon4 : (cc0_scratch2.slice (Rect.unit (s := S7) ![4] S1.size inb_S7_S1_4)).squeeze S_ squeezes_S1_S_ = sendS 4 := rfl
theorem recvS_canon4 : (cc0_scratch3.slice (Rect.unit (s := S7) ![4] S1.size inb_S7_S1_4)).squeeze S_ squeezes_S1_S_ = recvS 4 := rfl
theorem slotM_canon4 : ((Memref.whole cc0_scratch1 : Memref sig .tc .vmem S7x1x1024 .f32).slice (Rect.unit (s := S7x1x1024) ![4, 0, 0] S1x1x1024.size inb_S7x1x1024_S1x1x1024_4_0_0) (fun _ => rfl)).squeeze S1x1024 squeezes_S1x1x1024_S1x1024 = slotM 4 := rfl
theorem sendS_canon5 : (cc0_scratch2.slice (Rect.unit (s := S7) ![5] S1.size inb_S7_S1_5)).squeeze S_ squeezes_S1_S_ = sendS 5 := rfl
theorem recvS_canon5 : (cc0_scratch3.slice (Rect.unit (s := S7) ![5] S1.size inb_S7_S1_5)).squeeze S_ squeezes_S1_S_ = recvS 5 := rfl
theorem slotM_canon5 : ((Memref.whole cc0_scratch1 : Memref sig .tc .vmem S7x1x1024 .f32).slice (Rect.unit (s := S7x1x1024) ![5, 0, 0] S1x1x1024.size inb_S7x1x1024_S1x1x1024_5_0_0) (fun _ => rfl)).squeeze S1x1024 squeezes_S1x1x1024_S1x1024 = slotM 5 := rfl
theorem sendS_canon6 : (cc0_scratch2.slice (Rect.unit (s := S7) ![6] S1.size inb_S7_S1_6)).squeeze S_ squeezes_S1_S_ = sendS 6 := rfl
theorem recvS_canon6 : (cc0_scratch3.slice (Rect.unit (s := S7) ![6] S1.size inb_S7_S1_6)).squeeze S_ squeezes_S1_S_ = recvS 6 := rfl
theorem slotM_canon6 : ((Memref.whole cc0_scratch1 : Memref sig .tc .vmem S7x1x1024 .f32).slice (Rect.unit (s := S7x1x1024) ![6, 0, 0] S1x1x1024.size inb_S7x1x1024_S1x1x1024_6_0_0) (fun _ => rfl)).squeeze S1x1024 squeezes_S1x1x1024_S1x1024 = slotM 6 := rfl
attribute [local sl_canon] sendS_canon0 recvS_canon0 slotM_canon0 sendS_canon1 recvS_canon1 slotM_canon1 sendS_canon2 recvS_canon2 slotM_canon2 sendS_canon3 recvS_canon3 slotM_canon3 sendS_canon4 recvS_canon4 slotM_canon4 sendS_canon5 recvS_canon5 slotM_canon5 sendS_canon6 recvS_canon6 slotM_canon6
attribute [local sl_canon] dev8_eq dev9_eq dev10_eq dev11_eq dev12_eq dev13_eq dev14_eq

set_option maxHeartbeats 4000000 in
theorem sound_body1 (c : Dev nD) (Kt : PUnit → sProp 𝕄) :
    iprop(bodyPre1 m ρ K c ∗ (bodyPost1 m ρ c -∗ Kt ⟨⟩))
      ⊢ wp frame (wpE (defs₀ (F := F)) 𝒱₀ c none) Set.univ
          (cc0_body (grid0.coords t0_1) (Memref.whole cc0_stg0_1) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  unfold bodyPre1 records Dat.owesAt Pipeline.owesWithin creds
  rw [positions_eq, show xferToks (F := F) c = _ from bigSep_fin7 _, bigSep_fin7, show (dats m ρ 0 c).owed t0_1.castSucc = O₁ c from rfl]
  have hmw := mayWait_bar (F := F) c
  simp only [O₁, owedL, Vt, all7] at hmw ⊢
  unfold owns accPts
  iintro ⟨⟨⟨#HIs, #HRs⟩, ⟨HaB, HaS0, HaS1, HaS2, HaS3, HaS4, HaS5, HaS6, HaV0, HaV1, HaV2, HaV3, HaV4, HaV5, HaV6⟩,
    ⟨⟨HtV0, HtS0⟩, ⟨HtV1, HtS1⟩, ⟨HtV2, HtS2⟩, ⟨HtV3, HtS3⟩, ⟨HtV4, HtS4⟩, ⟨HtV5, HtS5⟩, ⟨HtV6, HtS6⟩⟩,
    ⟨HcB, HcV0, HcV1, HcV2, HcV3, HcV4, HcV5, HcV6⟩, #Hlev, Hacc, ⟨%W, %hW, HO⟩, ⟨%d0, %g0, %hg0, Hx⟩, ⟨%d1, %g1, %hg1, Hout⟩⟩, Hk⟩
  ihave HIB := (inv_bar m K c) $$ HIs; icases HIB with #HIB
  ihave HIS0 := (inv_send m K c 0) $$ HIs; icases HIS0 with #HIS0
  ihave HIS1 := (inv_send m K c 1) $$ HIs; icases HIS1 with #HIS1
  ihave HIS2 := (inv_send m K c 2) $$ HIs; icases HIS2 with #HIS2
  ihave HIS3 := (inv_send m K c 3) $$ HIs; icases HIS3 with #HIS3
  ihave HIS4 := (inv_send m K c 4) $$ HIs; icases HIS4 with #HIS4
  ihave HIS5 := (inv_send m K c 5) $$ HIs; icases HIS5 with #HIS5
  ihave HIS6 := (inv_send m K c 6) $$ HIs; icases HIS6 with #HIS6
  ihave HIV0 := (inv_recv m K c 0) $$ HIs; icases HIV0 with #HIV0
  ihave HIV1 := (inv_recv m K c 1) $$ HIs; icases HIV1 with #HIV1
  ihave HIV2 := (inv_recv m K c 2) $$ HIs; icases HIV2 with #HIV2
  ihave HIV3 := (inv_recv m K c 3) $$ HIs; icases HIV3 with #HIV3
  ihave HIV4 := (inv_recv m K c 4) $$ HIs; icases HIV4 with #HIV4
  ihave HIV5 := (inv_recv m K c 5) $$ HIs; icases HIV5 with #HIV5
  ihave HIV6 := (inv_recv m K c 6) $$ HIs; icases HIV6 with #HIV6
  ihave HIP0 := (inv_recv m K (peer c 0) 0) $$ HIs; icases HIP0 with #HIP0
  ihave HIP1 := (inv_recv m K (peer c 1) 1) $$ HIs; icases HIP1 with #HIP1
  ihave HIP2 := (inv_recv m K (peer c 2) 2) $$ HIs; icases HIP2 with #HIP2
  ihave HIP3 := (inv_recv m K (peer c 3) 3) $$ HIs; icases HIP3 with #HIP3
  ihave HIP4 := (inv_recv m K (peer c 4) 4) $$ HIs; icases HIP4 with #HIP4
  ihave HIP5 := (inv_recv m K (peer c 5) 5) $$ HIs; icases HIP5 with #HIP5
  ihave HIP6 := (inv_recv m K (peer c 6) 6) $$ HIs; icases HIP6 with #HIP6
  ihave HrS0 := (reached_send (F := F) c 0) $$ HRs; icases HrS0 with #HrS0
  ihave HrS1 := (reached_send (F := F) c 1) $$ HRs; icases HrS1 with #HrS1
  ihave HrS2 := (reached_send (F := F) c 2) $$ HRs; icases HrS2 with #HrS2
  ihave HrS3 := (reached_send (F := F) c 3) $$ HRs; icases HrS3 with #HrS3
  ihave HrS4 := (reached_send (F := F) c 4) $$ HRs; icases HrS4 with #HrS4
  ihave HrS5 := (reached_send (F := F) c 5) $$ HRs; icases HrS5 with #HrS5
  ihave HrS6 := (reached_send (F := F) c 6) $$ HRs; icases HrS6 with #HrS6
  ihave HrP0 := (reached_recv (F := F) (peer c 0) 0) $$ HRs; icases HrP0 with #HrP0
  ihave HrP1 := (reached_recv (F := F) (peer c 1) 1) $$ HRs; icases HrP1 with #HrP1
  ihave HrP2 := (reached_recv (F := F) (peer c 2) 2) $$ HRs; icases HrP2 with #HrP2
  ihave HrP3 := (reached_recv (F := F) (peer c 3) 3) $$ HRs; icases HrP3 with #HrP3
  ihave HrP4 := (reached_recv (F := F) (peer c 4) 4) $$ HRs; icases HrP4 with #HrP4
  ihave HrP5 := (reached_recv (F := F) (peer c 5) 5) $$ HRs; icases HrP5 with #HrP5
  ihave HrP6 := (reached_recv (F := F) (peer c 6) 6) $$ HRs; icases HrP6 with #HrP6
  have hc1 := cond1_1
  have hc2 := cond2_1
  sl_unfold [cc0_body]
  sl_exec
  -- the seven slots the peers handed over with their signals
  ihave Hp := (Entails.of_eq (bigSep_fin7 (F := F) _)) $$ HaB_pay1
  icases Hp with ⟨⟨%f0, Hp0⟩, ⟨%f1, Hp1⟩, ⟨%f2, Hp2⟩, ⟨%f3, Hp3⟩, ⟨%f4, Hp4⟩, ⟨%f5, Hp5⟩, ⟨%f6, Hp6⟩⟩
  -- the accumulator now holds both blocks' sums; it is cut into the copies' shares
  have hg : (g0 : (cc0_stg0_1 : Ref sig .tc).ty.Contents (Elt F)) = xb m c t0_1 := by
    have h := hg0; rw [before_x] at h; simpa only [Memref.view_whole, View.read_whole] using h
  have hacc : (accM : Memref sig .tc .vmem S1x1024 .f32).view.writes (Elt F) (accH m c)
      [⟨RA, k0_pay2 ((accM : Memref sig .tc .vmem S1x1024 .f32).view.readAt (Elt F) RA.toLoadRect (accH m c))
          ((Memref.whole cc0_stg0_1 : Memref sig .tc .vmem S2048x1024 .f32).view.readAt (Elt F) RX.toLoadRect g0)⟩] = accOf m c := by
    rw [acc_write1, read_acc, read_x1, hg]; rfl
  ihave Hacc' := (Entails.of_eq (congrArg (fun f => ((accM : Memref sig .tc .vmem S1x1024 .f32).view.loc (c : Thread nD τ) ↦[(accM : Memref sig .tc .vmem S1x1024 .f32).view.set]{fullShare} f : sProp 𝕄)) hacc)) $$ Hacc
  have hsh := (acc_shares (F := F) c (accOf m c)).1
  unfold accPts at hsh
  ihave Hsh := hsh $$ Hacc'
  icases Hsh with ⟨Hq0, Hq1, Hq2, Hq3, Hq4, Hq5, Hq6, Hq7⟩
  sl_exec (disch := simp only [dev8_eq, dev9_eq, dev10_eq, dev11_eq, dev12_eq, dev13_eq, dev14_eq])
  -- the fourteen own cells are done with: their counters, at zero, come back
  imod (Rounds.cell_close ER (rd m) (Set.mem_univ (K (c, sJ 0))) (fun h => h) (R := 1) (duties_later m (sendCell c 0))) $$ [HaS0] with HzS0
  · isplitr; · iexact HIS0
    iexact HaS0
  imod (Rounds.cell_close ER (rd m) (Set.mem_univ (K (c, sJ 1))) (fun h => h) (R := 1) (duties_later m (sendCell c 1))) $$ [HaS1] with HzS1
  · isplitr; · iexact HIS1
    iexact HaS1
  imod (Rounds.cell_close ER (rd m) (Set.mem_univ (K (c, sJ 2))) (fun h => h) (R := 1) (duties_later m (sendCell c 2))) $$ [HaS2] with HzS2
  · isplitr; · iexact HIS2
    iexact HaS2
  imod (Rounds.cell_close ER (rd m) (Set.mem_univ (K (c, sJ 3))) (fun h => h) (R := 1) (duties_later m (sendCell c 3))) $$ [HaS3] with HzS3
  · isplitr; · iexact HIS3
    iexact HaS3
  imod (Rounds.cell_close ER (rd m) (Set.mem_univ (K (c, sJ 4))) (fun h => h) (R := 1) (duties_later m (sendCell c 4))) $$ [HaS4] with HzS4
  · isplitr; · iexact HIS4
    iexact HaS4
  imod (Rounds.cell_close ER (rd m) (Set.mem_univ (K (c, sJ 5))) (fun h => h) (R := 1) (duties_later m (sendCell c 5))) $$ [HaS5] with HzS5
  · isplitr; · iexact HIS5
    iexact HaS5
  imod (Rounds.cell_close ER (rd m) (Set.mem_univ (K (c, sJ 6))) (fun h => h) (R := 1) (duties_later m (sendCell c 6))) $$ [HaS6] with HzS6
  · isplitr; · iexact HIS6
    iexact HaS6
  imod (Rounds.cell_close ER (rd m) (Set.mem_univ (K (c, rJ 0))) (fun h => h) (R := 1) (duties_later m (recvCell c 0))) $$ [HaV0] with HzV0
  · isplitr; · iexact HIV0
    iexact HaV0
  imod (Rounds.cell_close ER (rd m) (Set.mem_univ (K (c, rJ 1))) (fun h => h) (R := 1) (duties_later m (recvCell c 1))) $$ [HaV1] with HzV1
  · isplitr; · iexact HIV1
    iexact HaV1
  imod (Rounds.cell_close ER (rd m) (Set.mem_univ (K (c, rJ 2))) (fun h => h) (R := 1) (duties_later m (recvCell c 2))) $$ [HaV2] with HzV2
  · isplitr; · iexact HIV2
    iexact HaV2
  imod (Rounds.cell_close ER (rd m) (Set.mem_univ (K (c, rJ 3))) (fun h => h) (R := 1) (duties_later m (recvCell c 3))) $$ [HaV3] with HzV3
  · isplitr; · iexact HIV3
    iexact HaV3
  imod (Rounds.cell_close ER (rd m) (Set.mem_univ (K (c, rJ 4))) (fun h => h) (R := 1) (duties_later m (recvCell c 4))) $$ [HaV4] with HzV4
  · isplitr; · iexact HIV4
    iexact HaV4
  imod (Rounds.cell_close ER (rd m) (Set.mem_univ (K (c, rJ 5))) (fun h => h) (R := 1) (duties_later m (recvCell c 5))) $$ [HaV5] with HzV5
  · isplitr; · iexact HIV5
    iexact HaV5
  imod (Rounds.cell_close ER (rd m) (Set.mem_univ (K (c, rJ 6))) (fun h => h) (R := 1) (duties_later m (recvCell c 6))) $$ [HaV6] with HzV6
  · isplitr; · iexact HIV6
    iexact HaV6
  sl_step
  iapply Hk
  unfold bodyPost1 Φ₂ Dat.owesAt Pipeline.owesWithin owns
  rw [show (dats m ρ 0 c).owed t0_1.succ = 0 from rfl, ownSems_eq]
  sl_unfold_words
  -- the accumulator's shares rejoined
  have hjoin := (acc_shares (F := F) c (accOf m c)).2
  have hfull := accPts_full (F := F) c (accOf m c)
  unfold accPts at hjoin hfull
  ihave Hacc1 := hjoin $$ [HaS0_pay1 HaS1_pay1 HaS2_pay1 HaS3_pay1 HaS4_pay1 HaS5_pay1 HaS6_pay1 Hq7]
  · isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    isplitl [HaS6_pay1]; · iexact HaS6_pay1
    iexact Hq7
  ihave Hacc2 := (Entails.of_eq hfull) $$ Hacc1
  -- the seven slots rejoined
  have hl0 := landed_eq (F := F) c 0 HaV0_pay1_v (accOf m (peer c 0))
  unfold slotPts at hl0
  ihave Hs0 := (Entails.of_eq hl0) $$ HaV0_pay1
  have hl1 := landed_eq (F := F) c 1 HaV1_pay1_v (accOf m (peer c 1))
  unfold slotPts at hl1
  ihave Hs1 := (Entails.of_eq hl1) $$ HaV1_pay1
  have hl2 := landed_eq (F := F) c 2 HaV2_pay1_v (accOf m (peer c 2))
  unfold slotPts at hl2
  ihave Hs2 := (Entails.of_eq hl2) $$ HaV2_pay1
  have hl3 := landed_eq (F := F) c 3 HaV3_pay1_v (accOf m (peer c 3))
  unfold slotPts at hl3
  ihave Hs3 := (Entails.of_eq hl3) $$ HaV3_pay1
  have hl4 := landed_eq (F := F) c 4 HaV4_pay1_v (accOf m (peer c 4))
  unfold slotPts at hl4
  ihave Hs4 := (Entails.of_eq hl4) $$ HaV4_pay1
  have hl5 := landed_eq (F := F) c 5 HaV5_pay1_v (accOf m (peer c 5))
  unfold slotPts at hl5
  ihave Hs5 := (Entails.of_eq hl5) $$ HaV5_pay1
  have hl6 := landed_eq (F := F) c 6 HaV6_pay1_v (accOf m (peer c 6))
  unfold slotPts at hl6
  ihave Hs6 := (Entails.of_eq hl6) $$ HaV6_pay1
  have hrj := rcv_join (F := F) c (fun k => slotFill (accOf m (peer c k)))
  unfold slotPts at hrj
  ihave Hrcv := hrj $$ [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  have hout : View.read (Elt F) (Memref.whole cc0_stg1_0 : Memref sig .tc .vmem S1x1024 .f32).view
      ((Memref.whole cc0_stg1_0 : Memref sig .tc .vmem S1x1024 .f32).view.writes (Elt F) g1
        [⟨RA, k0_pay6 (k0_pay5 (k0_pay4
            ((accM : Memref sig .tc .vmem S1x1024 .f32).view.readAt (Elt F) RA.toLoadRect (accOf m c))
            ((Memref.whole cc0_scratch1 : Memref sig .tc .vmem S7x1x1024 .f32).view.readAt (Elt F) (Rect.unit (s := S7x1x1024) ![0, 0, 0] S1x1x1024.size inb_S7x1x1024_S1x1x1024_0_0_0).toLoadRect
              ((slotM 0).view.write (Elt F) HaV0_pay1_v ((accM : Memref sig .tc .vmem S1x1024 .f32).view.read (Elt F) (accOf m (peer c 0))) Finset.univ))
            ((Memref.whole cc0_scratch1 : Memref sig .tc .vmem S7x1x1024 .f32).view.readAt (Elt F) (Rect.unit (s := S7x1x1024) ![1, 0, 0] S1x1x1024.size inb_S7x1x1024_S1x1x1024_1_0_0).toLoadRect
              ((slotM 1).view.write (Elt F) HaV1_pay1_v ((accM : Memref sig .tc .vmem S1x1024 .f32).view.read (Elt F) (accOf m (peer c 1))) Finset.univ)))
            ((Memref.whole cc0_scratch1 : Memref sig .tc .vmem S7x1x1024 .f32).view.readAt (Elt F) (Rect.unit (s := S7x1x1024) ![2, 0, 0] S1x1x1024.size inb_S7x1x1024_S1x1x1024_2_0_0).toLoadRect
              ((slotM 2).view.write (Elt F) HaV2_pay1_v ((accM : Memref sig .tc .vmem S1x1024 .f32).view.read (Elt F) (accOf m (peer c 2))) Finset.univ))
            ((Memref.whole cc0_scratch1 : Memref sig .tc .vmem S7x1x1024 .f32).view.readAt (Elt F) (Rect.unit (s := S7x1x1024) ![3, 0, 0] S1x1x1024.size inb_S7x1x1024_S1x1x1024_3_0_0).toLoadRect
              ((slotM 3).view.write (Elt F) HaV3_pay1_v ((accM : Memref sig .tc .vmem S1x1024 .f32).view.read (Elt F) (accOf m (peer c 3))) Finset.univ))
            ((Memref.whole cc0_scratch1 : Memref sig .tc .vmem S7x1x1024 .f32).view.readAt (Elt F) (Rect.unit (s := S7x1x1024) ![4, 0, 0] S1x1x1024.size inb_S7x1x1024_S1x1x1024_4_0_0).toLoadRect
              ((slotM 4).view.write (Elt F) HaV4_pay1_v ((accM : Memref sig .tc .vmem S1x1024 .f32).view.read (Elt F) (accOf m (peer c 4))) Finset.univ)))
            ((Memref.whole cc0_scratch1 : Memref sig .tc .vmem S7x1x1024 .f32).view.readAt (Elt F) (Rect.unit (s := S7x1x1024) ![5, 0, 0] S1x1x1024.size inb_S7x1x1024_S1x1x1024_5_0_0).toLoadRect
              ((slotM 5).view.write (Elt F) HaV5_pay1_v ((accM : Memref sig .tc .vmem S1x1024 .f32).view.read (Elt F) (accOf m (peer c 5))) Finset.univ))
            ((Memref.whole cc0_scratch1 : Memref sig .tc .vmem S7x1x1024 .f32).view.readAt (Elt F) (Rect.unit (s := S7x1x1024) ![6, 0, 0] S1x1x1024.size inb_S7x1x1024_S1x1x1024_6_0_0).toLoadRect
              ((slotM 6).view.write (Elt F) HaV6_pay1_v ((accM : Memref sig .tc .vmem S1x1024 .f32).view.read (Elt F) (accOf m (peer c 6))) Finset.univ))⟩])
      = outOf m c := by
    rw [out_write1, read_acc, read_landed0, read_landed1, read_landed2, read_landed3, read_landed4, read_landed5, read_landed6]
    simp only [Memref.view_whole, View.read_whole]
    rfl
  isplitl [Hacc2 Hrcv HzS0 HzS1 HzS2 HzS3 HzS4 HzS5 HzS6 HzV0 HzV1 HzV2 HzV3 HzV4 HzV5 HzV6]
  · isplitl [Hacc2]; · iexists _; iexact Hacc2
    isplitl [Hrcv]; · iexact Hrcv
    isplitl [HzS0]; · iexact HzS0
    isplitl [HzS1]; · iexact HzS1
    isplitl [HzS2]; · iexact HzS2
    isplitl [HzS3]; · iexact HzS3
    isplitl [HzS4]; · iexact HzS4
    isplitl [HzS5]; · iexact HzS5
    isplitl [HzS6]; · iexact HzS6
    isplitl [HzV0]; · iexact HzV0
    isplitl [HzV1]; · iexact HzV1
    isplitl [HzV2]; · iexact HzV2
    isplitl [HzV3]; · iexact HzV3
    isplitl [HzV4]; · iexact HzV4
    isplitl [HzV5]; · iexact HzV5
    iexact HzV6
  isplitl [HO]
  · iexists (insert (SemLoc.dma (sendS 6).sem, ()) (insert (SemLoc.dma (sendS 5).sem, ()) (insert (SemLoc.dma (sendS 4).sem, ()) (insert (SemLoc.dma (sendS 3).sem, ()) (insert (SemLoc.dma (sendS 2).sem, ()) (insert (SemLoc.dma (sendS 1).sem, ()) (insert (SemLoc.dma (sendS 0).sem, ()) (insert (SemLoc.dma (recvS 6).sem, ()) (insert (SemLoc.dma (recvS 5).sem, ()) (insert (SemLoc.dma (recvS 4).sem, ()) (insert (SemLoc.dma (recvS 3).sem, ()) (insert (SemLoc.dma (recvS 2).sem, ()) (insert (SemLoc.dma (recvS 1).sem, ()) (insert (SemLoc.dma (recvS 0).sem, ()) (insert (SemLoc.reg barS, ()) W)))))))))))))))
    isplitr; · ipureintro; exact fun _ _ => Or.inl trivial
    iexact HO
  isplitl [Hx]
  · iexists g0
    isplitr; · ipureintro; rw [hg0]; exact before_x m ρ c t0_1 d0
    iexact Hx
  iexists _
  isplitr; · ipureintro; exact hout
  iexact Hout
end B1

end Cert.Kernel.Body
end
-- ==== Proof.WBody.lean ====
/-
  The body obligation on a device: at each of the two grid points the kernel's body, from the invariant before the
  point, runs to the invariant after it.
-/
import proofs.«901089_g7700000000001090_dist_sum_ax0_shard0_i_m4096_n1024_v7x_i8_f32_1_alg».proof.Proof.WBody0
import proofs.«901089_g7700000000001090_dist_sum_ax0_shard0_i_m4096_n1024_v7x_i8_f32_1_alg».proof.Proof.WBody1

noncomputable section

namespace Cert.Kernel.Body

open Cert.Kernel Cert.Kernel.Gen Cert.Kernel.Acc Cert.Kernel.Proto
open Idealize.ShloMosaic.Tactic
open Cert.Kernel.SlotMem

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

set_option maxRecDepth 8000 in
/-- The library's body obligation on device `c`. -/
theorem body_obligation (c : Dev nD) : BodyObligation (dats (F := F) m ρ 0 c) (defs₀ (F := F)) 𝒱₀ () Set.univ := fun t => by
  rcases fin_N0 t with rfl | rfl
  · rw [bigSep_W0, bigSep_W0]
    show iprop(Φ₀ m c ∗ (dats m ρ 0 c).owesAt () t0_0.castSucc
        ∗ (∃ d, owns (c : Thread nD τ) (Memref.whole cc0_stg0_0) fullShare ((dats m ρ 0 c).before (0 : Fin 2) t0_0 d))
        ∗ (∃ d, owns (c : Thread nD τ) (Memref.whole cc0_stg1_0) fullShare ((dats m ρ 0 c).before (1 : Fin 2) t0_0 d)))
      ⊢ wp frame (wpE (defs₀ (F := F)) 𝒱₀ c none) Set.univ
        (cc0_body (grid0.coords t0_0) (Memref.whole cc0_stg0_0) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3)
        (fun _ => bodyPost0 m ρ c)
    unfold Φ₀ start
    iintro ⟨⟨⟨⟨%K, Hg⟩, Hcr, Hlev⟩, ⟨%fa, Ha⟩, Hr⟩, Ho, Hx, Hout⟩
    iapply (sound_body0 m ρ K c fun _ => bodyPost0 m ρ c)
    unfold bodyPre0
    isplitr []
    · isplitl [Hg]; · iexact Hg
      isplitl [Hcr]; · iexact Hcr
      isplitl [Hlev]; · iexact Hlev
      isplitl [Ha]
      · iexists fa; rw [accPts_full]; iexact Ha
      isplitl [Hr]; · iexact Hr
      isplitl [Ho]; · iexact Ho
      isplitl [Hx] <;> iassumption
    · iintro H; iexact H
  · rw [bigSep_W0, bigSep_W0]
    show iprop(Φ₁ m c ∗ (dats m ρ 0 c).owesAt () t0_1.castSucc
        ∗ (∃ d, owns (c : Thread nD τ) (Memref.whole cc0_stg0_1) fullShare ((dats m ρ 0 c).before (0 : Fin 2) t0_1 d))
        ∗ (∃ d, owns (c : Thread nD τ) (Memref.whole cc0_stg1_0) fullShare ((dats m ρ 0 c).before (1 : Fin 2) t0_1 d)))
      ⊢ wp frame (wpE (defs₀ (F := F)) 𝒱₀ c none) Set.univ
        (cc0_body (grid0.coords t0_1) (Memref.whole cc0_stg0_1) (Memref.isWhole_whole _) (Memref.whole cc0_stg1_0) (Memref.isWhole_whole _)
          (Memref.whole cc0_scratch0) (Memref.isWhole_whole _) (Memref.whole cc0_scratch1) (Memref.isWhole_whole _) cc0_scratch2 cc0_scratch3)
        (fun _ => bodyPost1 m ρ c)
    unfold Φ₁
    iintro ⟨⟨⟨%K, Hrec, Hpos, Hxf⟩, Hcr, Hlev, Ha⟩, Ho, Hx, Hout⟩
    iapply (sound_body1 m ρ K c fun _ => bodyPost1 m ρ c)
    unfold bodyPre1
    isplitr []
    · isplitl [Hrec]; · iexact Hrec
      isplitl [Hpos]; · iexact Hpos
      isplitl [Hxf]; · iexact Hxf
      isplitl [Hcr]; · iexact Hcr
      isplitl [Hlev]; · iexact Hlev
      isplitl [Ha]
      · rw [accPts_full]; iexact Ha
      isplitl [Ho]; · iexact Ho
      isplitl [Hx] <;> iassumption
    · iintro H; iexact H

/-- info: 'Cert.Kernel.Body.body_obligation' depends on axioms: [propext, Classical.choice, Quot.sound] -/
#guard_msgs in #print axioms body_obligation

end Cert.Kernel.Body
end
-- ==== Proof.WFrameClaim.lean ====
/-
  The two facts a run of the kernel gives about memory: every device's result array ends at the value the device
  stores, and every device's argument array ends as it began. Stated for any float values; the frame is the second
  fact alone.
-/
import proofs.«901089_g7700000000001090_dist_sum_ax0_shard0_i_m4096_n1024_v7x_i8_f32_1_alg».proof.Proof.WProto

noncomputable section

namespace Cert.Kernel.FrameClaim

open Cert.Kernel Cert.Kernel.Gen Cert.Kernel.Acc Cert.Kernel.Proto

open Idealize.ShloMosaic
open Idealize.ShloMosaic.TcCoe
open Idealize.SL.Sem

variable {F : FTy → Type} [FloatOps F]

/-- What a run ends in: on every device the result array holds what the device stores, the argument array what it held. -/
def ValuePost (m : (ℓ : Loc nD τ sig) → Buf (Elt F) ℓ) : PUnit × MemSt nD τ sig (Elt F) → Prop := fun r =>
  ∀ c : Dev nD, r.2.mem ((c : Thread nD τ).loc main_v1) = outOf m c
    ∧ r.2.mem ((c : Thread nD τ).loc main_arg0) = m ((c : Thread nD τ).loc main_arg0)

/-- A final state that has every window's array at contents `A`, where `A` is the launch contents on the argument's
    window and the stored value on the result's, satisfies `ValuePost`. -/
theorem valuePost_of (m : (ℓ : Loc nD τ sig) → Buf (Elt F) ℓ)
    (A : (c : Dev nD) → (w : Fin cfg0.W) → Buf (Elt F) ((cfg0.win w).arr.view.loc (c : Thread nD τ)))
    (hx : ∀ c : Dev nD, A c (0 : Fin 2) = m ((c : Thread nD τ).loc main_arg0))
    (hout : ∀ c : Dev nD, A c (1 : Fin 2) = outOf m c)
    (r : PUnit × MemSt nD τ sig (Elt F))
    (h : ∀ c : Dev nD, ∀ w : Fin cfg0.W, r.2.mem ((cfg0.win w).arr.view.loc (c : Thread nD τ)) = A c w) :
    ValuePost m r := fun c =>
  ⟨(h c (1 : Fin 2)).trans (hout c), (h c (0 : Fin 2)).trans (hx c)⟩

/-- The frame: from a run to `ValuePost`, every device's argument array ends unchanged. -/
theorem frame_of_run
    (hrun : ∀ (m : (ℓ : Loc nD τ sig) → Buf (Elt F) ℓ) (ρ : Dev nD → PrngReg),
      θ_run (defs (F := F)) (onTc (τ := τ) (main (F := F))) (Proto.s₀ m ρ) (ValuePost m))
    (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)) :=
  (θ_run (defs (F := F)) _ _).mono (fun _ h c => (h c).2) (hrun m g)

end Cert.Kernel.FrameClaim

end
-- ==== Proof.WLaunchA.lean ====
/-
  The launch, first half: the exchange's cells and duty tokens as one launch element, that element dealt out device by
  device, every cell's invariant allocated at once (the barrier semaphore is the runtime's, so all devices' cells are
  opened under one update), and the tokens dealt round to the devices that pay them.
-/
import proofs.«901089_g7700000000001090_dist_sum_ax0_shard0_i_m4096_n1024_v7x_i8_f32_1_alg».proof.Proof.WProto

noncomputable section

namespace Cert.Kernel.Launch

open Cert.Kernel Cert.Kernel.Gen Cert.Kernel.Acc Cert.Kernel.Proto

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the fourteen own semaphores -/

theorem ownSemFacts : Pipeline.OwnSemFacts cfg0.spec osem := by decide

theorem share_eq (c : Dev nD) (w : Fin cfg0.W) : (dats m ρ 0 c).share w = fullShare := by unfold Dat.share; split <;> rfl

/-! ## The cells and the tokens -/

theorem kcell_injective : Function.Injective (kcell : Dev nD × Fin 15 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_inj h2]
def exCells : Finset (GSem nD τ sig) := Finset.univ.map ⟨kcell, kcell_injective⟩

/-- The semaphore and the duty of a device's twenty-one tokens: its barrier's seven duties, the one duty of each send
    cell, the one duty of each receive cell. -/
def tsem : Fin 3 × Fin 7 → SemLoc sig × Fin 7
  | (0, k) => (.reg barS, k)
  | (1, k) => (.dma (sendS k).sem, 0)
  | (2, k) => (.dma (recvS k).sem, 0)
theorem tsem_inj : Function.Injective tsem := by decide
abbrev tokOf (x : Dev nD × Fin 3 × Fin 7) : GSem nD τ sig × ℕ × Fin 7 := (((x.1 : Thread nD τ), (tsem x.2).1), 0, (tsem x.2).2)
theorem tokOf_injective : Function.Injective (tokOf : Dev nD × Fin 3 × Fin 7 → GSem nD τ sig × ℕ × Fin 7) := by
  rintro ⟨c, jk⟩ ⟨c', jk'⟩ h
  have h1 : c = c' := by have := congrArg (fun x : GSem nD τ sig × ℕ × Fin 7 => x.1.1.1) h; exact this
  subst h1
  have h2 : tsem jk = tsem jk' := Prod.ext (congrArg (fun x : GSem nD τ sig × ℕ × Fin 7 => x.1.2) h) (congrArg (fun x : GSem nD τ sig × ℕ × Fin 7 => x.2.2) h)
  rw [tsem_inj h2]
def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ (bigSep Finset.univ fun k : Fin 7 => dutyTok ER (recvCell c k) 0 0))

/-- What the launch element deals device `c`. -/
def G (c : Dev nD) : sProp 𝕄 :=
  iprop((bigSep Finset.univ fun j : Fin 15 => roundState ER (rd m) (kcell (c, j)) 0)
    ∗ (bigSep Finset.univ fun j : Fin 15 => iprop(atPos ER (kcell (c, j)) 0 ∅ 0 ∗ reached ER (kcell (c, j)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

/-- Fifteen summands: the first, and the fourteen after it. -/
theorem bigSep_fin15 (Φ : Fin 15 → sProp 𝕄) : bigSep Finset.univ Φ = iprop(Φ 0 ∗ bigSep Finset.univ fun j : Fin 14 => Φ j.succ) := by
  rw [Fin.univ_succ, Finset.cons_eq_insert, bigSep_insert (by simp), BI.bigSep_map]; rfl

theorem toks_eq (c : Dev nD) :
    (bigSep Finset.univ fun jk : Fin 3 × Fin 7 => (dutyTok ER (tokOf (c, jk)).1 (tokOf (c, jk)).2.1 (tokOf (c, jk)).2.2 : sProp 𝕄)) = toks c := by
  unfold toks; rw [bigSep_univ_prod, bigSep_fin3]; rfl

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun j : Fin 15 => Φ (kcell (c, j)) := by
    unfold exCells; rw [BI.bigSep_map, bigSep_univ_prod]; rfl
  have hT : bigSep exToks (fun x => (dutyTok ER x.1 x.2.1 x.2.2 : sProp 𝕄)) = bigSep Finset.univ fun c : Dev nD => toks c := by
    unfold exToks; rw [BI.bigSep_map, bigSep_univ_prod]
    exact bigSep_congr fun c _ => toks_eq c
  iintro HX
  imod (Rounds.fund ER (rd m) exCells exToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, for all devices under one update -/

/-- The fourteen own semaphores and the barrier semaphore are the fifteen of the exchange. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 15 => semVal (kcell (c, j)) 0 : sProp 𝕄) := by
  rw [unscopedSems0_eq, bigSep_fin15]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (rd m) κ (kcell (c, j))))
          ∗ (bigSep Finset.univ fun j : Fin 15 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 15 => semVal (kcell (c, j)) 0) ∗ bigSep Finset.univ fun j : Fin 15 => roundState ER (rd m) (kcell (c, j)) 0)
      ⊢ (|={Set.univ}=> bigSep Finset.univ fun j => iprop(∃ κ : ℕ, cellInv ER (rd m) κ (kcell (c, j))) : sProp 𝕄) from by
        rw [← bigSep_sep']
        exact (bigSep_mono fun j _ => (Rounds.body_intro ER (rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 := iprop(positions c ∗ sigToks c ∗ xferToks c)

theorem ghost_intro (K : Dev nD × Fin 15 → ℕ) (c : Dev nD) : iprop(records m K ∗ linear c) ⊢ G' m c := by
  unfold linear G' ghost
  iintro ⟨HR, Hp, Hs, Hx⟩
  iexists K
  isplitl [HR]; · iexact HR
  isplitl [Hp]; · iexact Hp
  isplitl [Hs]; · iexact Hs
  iexact Hx

/-- Slot `k`'s exchange partner, as a permutation of the devices. -/
def peerE (k : Fin 7) : Dev nD ≃ Dev nD := ⟨fun c => peer c k, fun c => peer c k, fun c => peer_peer c k, fun c => peer_peer c k⟩

/-- A family over (device, slot), summed over both, may be read at each slot's partner instead. -/
theorem deal (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer c k) k := by
  rw [BI.bigSep_univ_comm, bigSep_congr (fun k _ => bigSep_univ_equiv (peerE k) (fun c => Φ c k)), BI.bigSep_univ_comm]
  rfl

/-- The tokens dealt round: a barrier's token `k` and a receive cell `k`'s token go to the partner at slot `k`, who pays
    them; the send tokens stay. -/
theorem toks_around : (bigSep Finset.univ fun c : Dev nD => (toks c : sProp 𝕄)) ⊢ bigSep Finset.univ fun c : Dev nD => iprop(sigToks c ∗ xferToks c) := by
  unfold toks sigToks xferToks
  rw [bigSep_sep', bigSep_sep', bigSep_sep',
    deal (fun c k => (dutyTok ER (barCell c) 0 k : sProp 𝕄)),
    deal (fun c k => (dutyTok ER (recvCell c k) 0 0 : sProp 𝕄)),
    bigSep_congr (s := Finset.univ) (fun (c : Dev nD) _ => bigSep_sep' Finset.univ (fun k : Fin 7 => (dutyTok ER (recvCell (peer c k) k) 0 0 : sProp 𝕄)) (fun k => dutyTok ER (sendCell c k) 0 0)),
    bigSep_sep']
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (rd m) κ (kcell (c, j))))
          ∗ (bigSep Finset.univ fun j : Fin 15 => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun cj : Dev nD × Fin 15 => iprop(∃ κ : ℕ, cellInv ER (rd m) κ (kcell cj))),
    bigSep_congr (s := Finset.univ) (fun (c : Dev nD) _ => bigSep_sep' Finset.univ (fun j : Fin 15 => (atPos ER (kcell (c, j)) 0 ∅ 0 : sProp 𝕄)) (fun j => reached ER (kcell (c, j)) 0)),
    bigSep_sep', ← bigSep_univ_prod (fun cj : Dev nD × Fin 15 => (reached ER (kcell cj) 0 : sProp 𝕄))]
  iintro ⟨HI, ⟨Hat, #HR⟩, Htok⟩
  ihave HK := (BI.bigSep_exists_pi Finset.univ (fun (cj : Dev nD × Fin 15) (κ : ℕ) => (cellInv ER (rd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 15 => (atPos ER (kcell (c, j)) 0 ∅ 0 : sProp 𝕄)) (fun c => iprop(sigToks c ∗ xferToks c))).symm).trans
      (bigSep_mono fun c _ => show _ ⊢ linear c from Entails.of_eq (by unfold linear positions; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {k k' : Fin 7} : Iff (recvCell a k = recvCell b k') (a = b ∧ k = k') :=
  ⟨fun h => ⟨Fin.ext (congrArg (fun g : GSem nD τ sig => g.1.1.val) h), recvS_inj k k' (congrArg Prod.snd h)⟩, fun ⟨h1, h2⟩ => h1 ▸ h2 ▸ rfl⟩

/-- A list of tallies summed onto a base, read at a cell. -/
theorem owedL_apply (base : CellTallies nD τ sig Unit) (f : Fin 7 → CellTallies nD τ sig Unit) (g : GSem nD τ sig) (u : Unit) :
    ∀ l : List (Fin 7), owedL base f l g u = base g u + (l.map fun k => f k g u).sum
  | [] => by unfold owedL; rw [List.map_nil, List.sum_nil, Nat.add_zero]
  | k :: ks => by
    unfold owedL
    rw [Pi.add_apply, Finsupp.add_apply, owedL_apply base f g u ks, List.map_cons, List.sum_cons]; omega

theorem sum_all7 (φ : Fin 7 → ℕ) : (all7.map φ).sum = ∑ k, φ k := by
  simp only [List.map_cons, List.map_nil, List.sum_cons, List.sum_nil, Fin.sum_univ_seven]; omega

/-- What device `d` owes device `c`'s barrier cell: one unit for every slot at which `d` is `c`'s partner. -/
theorem owed_bar (d c : Dev nD) : O₀ d (barCell c) () = ∑ k : Fin 7, if d = peer c k then 1 else 0 := by
  have hV : ∀ k : Fin 7, Vt d k (barCell c) () = 0 := fun k => by
    unfold Vt; rw [tallyAt_ne_cell (fun h => recv_ne_bar k (congrArg Prod.snd h).symm)]; rfl
  have hB : ∀ k : Fin 7, Bt d k (barCell c) () = if d = peer c k then 1 else 0 := fun k => by
    unfold Bt; rw [tallyAt_apply]
    by_cases h : d = peer c k
    · subst h; rw [peer_peer, if_pos ⟨rfl, rfl⟩, if_pos rfl]
    · rw [if_neg (fun ⟨h1, _⟩ => h (by rw [bar_eq_iff.mp h1, peer_peer])), if_neg h]
  unfold O₀ O₁
  rw [owedL_apply, owedL_apply, sum_all7, sum_all7, Finset.sum_congr rfl fun k _ => hV k, Finset.sum_congr rfl fun k _ => hB k,
    Finset.sum_const_zero]
  show 0 + 0 + _ = _
  rw [Nat.zero_add, Nat.zero_add]

/-- What device `d` owes receive cell `k` of device `c`: a row's credit if it is `c`'s partner at slot `k`. -/
theorem owed_recv (d c : Dev nD) (k : Fin 7) : O₀ d (recvCell c k) () = if d = peer c k then N else 0 := by
  have hB : ∀ k' : Fin 7, Bt d k' (recvCell c k) () = 0 := fun k' => by
    unfold Bt; rw [tallyAt_ne_cell (fun h => recv_ne_bar k (congrArg Prod.snd h))]; rfl
  have hV : ∀ k' : Fin 7, Vt d k' (recvCell c k) () = if k' = k then (if d = peer c k then N else 0) else 0 := fun k' => by
    unfold Vt; rw [tallyAt_apply]
    by_cases hk : k' = k
    · subst hk; rw [if_pos rfl]
      by_cases h : d = peer c k'
      · subst h; rw [peer_peer, if_pos ⟨rfl, rfl⟩, if_pos rfl]
      · rw [if_neg (fun ⟨h1, _⟩ => h (by rw [(recv_eq_iff.mp h1).1, peer_peer])), if_neg h]
    · rw [if_neg (fun ⟨h1, _⟩ => hk (recv_eq_iff.mp h1).2.symm), if_neg hk]
  unfold O₀ O₁
  rw [owedL_apply, owedL_apply, sum_all7, sum_all7, Finset.sum_congr rfl fun k' _ => hV k', Finset.sum_congr rfl fun k' _ => hB k',
    Finset.sum_const_zero, Finset.sum_ite_eq' Finset.univ k, if_pos (Finset.mem_univ _)]
  show 0 + _ + 0 = _
  rw [Nat.zero_add, Nat.add_zero]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => Finset.sum_ite_eq' Finset.univ (peer c k) fun _ => 1]
  simp only [Finset.mem_univ, if_true, Finset.sum_const, Finset.card_univ, Fintype.card_fin, smul_eq_mul, Nat.mul_one]

theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (peer c k) fun _ => N, if_pos (Finset.mem_univ _)]

def recvEmb : Fin 7 ↪ SemLoc sig := ⟨fun k => .dma (recvS k).sem, fun k k' h => recvS_inj k k' h⟩

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvEmb) (fun s hs => ?_)).trans ?_
  · obtain ⟨k, -, rfl⟩ := Finset.mem_map.mp hs
    exact Finset.mem_erase.mpr ⟨recv_ne_bar k, Finset.mem_univ _⟩
  · rw [BI.bigSep_map]
    exact Entails.of_eq (bigSep_congr fun k _ => congrArg cred (launch_recv c k))

/-- info: 'Cert.Kernel.Launch.glob' depends on axioms: [propext, Classical.choice, Quot.sound] -/
#guard_msgs in #print axioms glob

/-- info: 'Cert.Kernel.Launch.creds_intro' depends on axioms: [propext, Classical.choice, Quot.sound] -/
#guard_msgs in #print axioms creds_intro

end Cert.Kernel.Launch

end
-- ==== Proof.WLaunch.lean ====
/-
  The launch, second half: what each device starts its first grid point from, what it hands back after its last, and
  the run of @main on the eight devices with the final arrays named.
-/
import proofs.«901089_g7700000000001090_dist_sum_ax0_shard0_i_m4096_n1024_v7x_i8_f32_1_alg».proof.Proof.WLaunchA

noncomputable section

namespace Cert.Kernel.Launch

open Cert.Kernel Cert.Kernel.Gen Cert.Kernel.Acc Cert.Kernel.Proto

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi2_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₂ c from rfl, scopedRest0_eq]
  unfold Φ₂ Pipeline.ownSems0
  iintro ⟨H0, H1, HS⟩
  isplitr; · iempintro
  isplitl [HS]; · iexact HS
  isplitl [H0]; · iexact H0
  iexact H1

/-- A staging semaphore is neither the barrier nor a receive semaphore: it sits at level 0. -/
theorem lv_stage (c : Dev nD) (w : Fin (cfgs 0).W) (s : Fin ((cfgs 0).win w).nbuf) :
    lv ((c : Thread nD τ), .dma (((cfgs 0).win w).sem s)) () = 0 := by
  have h : recvIx (.dma (((cfgs 0).win w).sem s)) = none := by fin_cases w <;> fin_cases s <;> decide
  unfold lv; rw [if_neg (fun h => by cases h), h]; rfl

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_stage c w s) _ (by
      rcases t with ⟨_ | _ | t, ht⟩
      · exact Or.inl rfl
      · exact Or.inr (Or.inl rfl)
      · exact Or.inr (Or.inr rfl))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: given each device's
    body proved, every weakly fair execution of @main terminates, and every final state has each device's arrays at the
    contents the proof data name. -/
theorem run_main (hbody : ∀ c : Dev nD, BodyObligation (dats (F := F) m ρ 0 c) (defs₀ (F := F)) 𝒱₀ () Set.univ) :
    θ_run defs (onTc (τ := τ) (main (F := F))) (Proto.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi2_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run holds what the last grid point stored: that point alone writes it back, and its
    block is the whole array. -/
theorem finalA_out (c : Dev nD) : finalA m ρ c (1 : Fin 2) = outOf m c := by
  have hoff : (fun a => win0_1.index t0_1 a * win0_1.size a) = fun _ => 0 := funext fun a => by fin_cases a <;> decide +kernel
  unfold finalA
  rw [show (dats m ρ 0 c).arrAt 1 cfg0.N = (dats m ρ 0 c).arrAt 1 (t0_1.val + 1) from congrArg _ N_0,
    Dat.arrAt_succ, if_pos ((flush0_1 t0_1).mpr rfl)]
  exact Memref.write_access_unit_zero_univ (Elt F) main_v1 hoff _ _ (outOf m c)

/-- info: 'Cert.Kernel.Launch.run_main' depends on axioms: [propext, Classical.choice, Quot.sound] -/
#guard_msgs in #print axioms run_main

/-- info: 'Cert.Kernel.Launch.finalA_x' depends on axioms: [propext, Classical.choice, Quot.sound] -/
#guard_msgs in #print axioms finalA_x

/-- info: 'Cert.Kernel.Launch.finalA_out' depends on axioms: [propext, Classical.choice, Quot.sound] -/
#guard_msgs in #print axioms finalA_out

end Cert.Kernel.Launch

end
-- ==== Proof.WRunValue.lean ====
/-
  The run of the kernel on the eight devices with its final memory read off: every device's result array at the value
  the device stores, every argument array unchanged; and the frame, which is the second half alone. For any float values.
-/
import proofs.«901089_g7700000000001090_dist_sum_ax0_shard0_i_m4096_n1024_v7x_i8_f32_1_alg».proof.Proof.WFrameClaim
import proofs.«901089_g7700000000001090_dist_sum_ax0_shard0_i_m4096_n1024_v7x_i8_f32_1_alg».proof.Proof.WLaunch

noncomputable section

namespace Cert.Kernel.RunValue

open Cert.Kernel Cert.Kernel.Gen Cert.Kernel.Acc Cert.Kernel.Proto Cert.Kernel.FrameClaim

open Idealize.ShloMosaic
open Idealize.ShloMosaic.TcCoe
open Idealize.SL.Sem
open Idealize.ShloMosaic.Pipeline (BodyObligation)

variable {F : FTy → Type} [FloatOps F]

/-- Given each device's body proved, every run of @main ends with every device's result array at what the device
    stores and its argument array as it was. -/
theorem run_value
    (hbody : ∀ (m : (ℓ : Loc nD τ sig) → Buf (Elt F) ℓ) (ρ : Dev nD → PrngReg) (c : Dev nD),
      BodyObligation (dats (F := F) m ρ 0 c) (defs₀ (F := F)) 𝒱₀ () Set.univ)
    (m : (ℓ : Loc nD τ sig) → Buf (Elt F) ℓ) (ρ : Dev nD → PrngReg) :
    θ_run (defs (F := F)) (onTc (τ := τ) (main (F := F))) (Proto.s₀ m ρ) (ValuePost m) :=
  (θ_run (defs (F := F)) _ _).mono
    (fun r h => valuePost_of m (Launch.finalA m ρ) (Launch.finalA_x m ρ) (Launch.finalA_out m ρ) r h)
    (Launch.run_main m ρ (hbody m ρ))

/-- The frame: every run of @main ends with every device's argument array as it was. -/
theorem frame
    (hbody : ∀ (m : (ℓ : Loc nD τ sig) → Buf (Elt F) ℓ) (ρ : Dev nD → PrngReg) (c : Dev nD),
      BodyObligation (dats (F := F) m ρ 0 c) (defs₀ (F := F)) 𝒱₀ () Set.univ)
    (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)) :=
  frame_of_run (run_value hbody) m g

end Cert.Kernel.RunValue

end
-- ==== Proof.SumValue.lean ====
/-
  The value a device stores, read at an index: the column sums of its own two blocks of rows plus those of the
  seven devices it exchanges with, which together are the column sums over all rows of the array.
-/
import proofs.«901089_g7700000000001090_dist_sum_ax0_shard0_i_m4096_n1024_v7x_i8_f32_1_alg».proof.Proof.AccDefs
import proofs.«901089_g7700000000001090_dist_sum_ax0_shard0_i_m4096_n1024_v7x_i8_f32_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws
import Mathlib.Algebra.BigOperators.Fin
import Mathlib.Logic.Equiv.Fin.Basic

noncomputable section

namespace Cert.KernelIdeal.SumValue

open Idealize.ShloMosaic Idealize.ShloMosaic.ValueIdx Cert.KernelIdeal Cert.KernelIdeal.Gen Cert.KernelIdeal.Acc

/-! ## The payloads read at an index -/

/-- The sum over the rows of a block, read at a column. -/
theorem colSum_apply (b : FVec Ideal S2048x1024 .f32) (h : S2048x1024.Reduces [0] S1024) (hφ : FKind.Formats .f32)
    (hacc : (0x00000000#32 : BitVec 32) = 0x00000000#32) (j : Fin 1024) :
    multiReduction .add [0] S1024 b 0x00000000#32 h hφ hacc (ix1 j) = ∑ r : Fin 2048, b (ix2 r j) := by
  refine (Ideal.multiReduction_add_single b 0x00000000#32 h hφ hacc (ix1 j)).trans ?_
  refine Finset.sum_congr rfl fun r _ => congrArg b ?_
  exact funext fun a => Fin.ext (by match a with | ⟨0, _⟩ => rfl | ⟨1, _⟩ => rfl)

/-- One grid point's step: the accumulator plus the column sums of the block. -/
theorem pay2_apply (a : FVec Ideal S1x1024 .f32) (b : FVec Ideal S2048x1024 .f32) (j : Fin 1024) :
    k0_pay2 (F := Ideal) a b (ix2 0 j) = a (ix2 0 j) + ∑ r : Fin 2048, b (ix2 r j) := by
  unfold k0_pay2
  rw [shapeCast_self, shapeCast_self, addf_apply, shapeCast_a_1a_apply, colSum_apply]

/-- The accumulator's first value: zero everywhere. -/
theorem pay1_pay3_apply (i : S1x1024.Idx) : k0_pay1 (F := Ideal) (k0_pay3 (F := Ideal)) i = 0 := by
  unfold k0_pay1 k0_pay3
  rw [shapeCast_self, broadcast_apply]
  exact Ideal.ofBits_zero_f32

/-- The accumulator after both grid points, at a column: zero, plus the column sum of the first block, plus that
    of the second. -/
theorem accVal_apply (b0 b1 : Vec Ideal S2048x1024 .f32) (j : Fin 1024) :
    accVal (F := Ideal) b0 b1 (ix2 0 j)
      = ((0 : EReal) + ∑ r : Fin 2048, b0 (ix2 r j)) + ∑ r : Fin 2048, b1 (ix2 r j) := by
  unfold accVal
  rw [pay2_apply, pay2_apply, pay1_pay3_apply]

/-- A slot cast back to a row, read at a column. -/
theorem slotCast_apply (x : Vec Ideal S1x1x1024 .f32) (h : S1x1x1024.ShapeCasts S1x1024) (j : Fin 1024) :
    shapeCast S1x1024 x h (ix2 0 j) = x (ix3 0 0 j) :=
  shapeCast_1ab_ab_apply x h 0 j

/-- What a device stores, at a column: its accumulator plus the seven slots, in slot order. -/
theorem outVal_apply (a : FVec Ideal S1x1024 .f32) (r : Fin 7 → Vec Ideal S1x1x1024 .f32) (j : Fin 1024) :
    outVal (F := Ideal) a r (ix2 0 j)
      = a (ix2 0 j) + r 0 (ix3 0 0 j) + r 1 (ix3 0 0 j) + r 2 (ix3 0 0 j) + r 3 (ix3 0 0 j) + r 4 (ix3 0 0 j)
          + r 5 (ix3 0 0 j) + r 6 (ix3 0 0 j) := by
  unfold outVal k0_pay6 k0_pay5 k0_pay4
  simp only [addf_apply]
  rw [slotCast_apply (r 0), slotCast_apply (r 1), slotCast_apply (r 2), slotCast_apply (r 3), slotCast_apply (r 4),
    slotCast_apply (r 5), slotCast_apply (r 6)]

/-- A row placed in a slot, read back at the slot's column. -/
theorem slotVal_apply (a : FVec Ideal S1x1024 .f32) (j : Fin 1024) : slotVal (F := Ideal) a (ix3 0 0 j) = a (ix2 0 j) := rfl

/-! ## Regrouping sums -/

section Regroup

variable {M : Type*} [AddCommMonoid M]

/-- A sum over `N = m * n` indices, taken as `m` runs of `n`. -/
theorem sum_runs (m n N : ℕ) (hN : m * n = N) (hlt : ∀ (a : Fin m) (b : Fin n), a.val * n + b.val < N) (f : Fin N → M) :
    ∑ k : Fin N, f k = ∑ a : Fin m, ∑ b : Fin n, f ⟨a.val * n + b.val, hlt a b⟩ := by
  subst hN
  rw [← Equiv.sum_comp finProdFinEquiv f, Fintype.sum_prod_type]
  refine Finset.sum_congr rfl fun a _ => Finset.sum_congr rfl fun b _ => congrArg f (Fin.ext ?_)
  show b.val + n * a.val = a.val * n + b.val
  rw [Nat.mul_comm, Nat.add_comm]

/-- Row `r` of block `g` of device `d` is a row of the whole array. -/
theorem row_lt (d : Dev nD) (g : Fin 2) (r : Fin 2048) : d.val * 4096 + g.val * 2048 + r.val < 32768 := by
  have hd : d.val < 8 := d.isLt
  have := g.isLt
  have := r.isLt
  omega

/-- The rows of the array are the rows of the two blocks of the eight devices. -/
theorem sum_rows (x : Fin 32768 → M) :
    ∑ k : Fin 32768, x k = ∑ d : Dev nD, ∑ g : Fin 2, ∑ r : Fin 2048, x ⟨d.val * 4096 + g.val * 2048 + r.val, row_lt d g r⟩ := by
  rw [sum_runs 8 4096 32768 rfl (fun a b => by have := a.isLt; have := b.isLt; omega) x]
  refine Finset.sum_congr rfl fun d _ => ?_
  rw [sum_runs 2 2048 4096 rfl (fun a b => by have := a.isLt; have := b.isLt; omega)
    (fun s : Fin 4096 => x ⟨d.val * 4096 + s.val, by have := d.isLt; have := s.isLt; omega⟩)]
  exact Finset.sum_congr rfl fun g _ => Finset.sum_congr rfl fun r _ => congrArg x (Fin.ext (Nat.add_assoc _ _ _).symm)

/-- A device followed by the seven it exchanges with lists the eight devices without repetition. -/
theorem cons_peer_injective (c : Dev nD) : Function.Injective (Fin.cons c (peer c) : Fin 8 → Dev nD) := by
  intro a b h
  induction a using Fin.cases with
  | zero =>
    induction b using Fin.cases with
    | zero => rfl
    | succ b => simp only [Fin.cons_zero, Fin.cons_succ] at h; exact absurd h.symm (peer_ne c b)
  | succ a =>
    induction b using Fin.cases with
    | zero => simp only [Fin.cons_zero, Fin.cons_succ] at h; exact absurd h (peer_ne c a)
    | succ b => simp only [Fin.cons_succ] at h; rw [peer_inj c a b h]

/-- A device and the seven it exchanges with are all eight devices. -/
theorem sum_peers (f : Dev nD → M) (c : Dev nD) :
    f c + f (peer c 0) + f (peer c 1) + f (peer c 2) + f (peer c 3) + f (peer c 4) + f (peer c 5) + f (peer c 6)
      = ∑ d : Dev nD, f d := by
  have hb : Function.Bijective (Fin.cons c (peer c) : Fin 8 → Dev nD) :=
    Finite.injective_iff_bijective.mp (cons_peer_injective c)
  refine Eq.trans ?_ (hb.sum_comp f)
  rw [Fin.sum_univ_succ, Fin.sum_univ_seven]
  simp only [Fin.cons_zero, Fin.cons_succ]
  ac_rfl

end Regroup

/-! ## The stored value is the reference's -/

/-- What device `c` stores, when every device's two blocks are its rows of `X`, is the reference's result: the
    column sums of `X` over all its rows. The sum over a device's two blocks and then over the eight devices is
    the sum over all rows, because addition of extended reals is commutative and associative. -/
theorem value_eq (X : FVec Ideal Cert.ReferenceIdeal.S32768x1024 .f32) (B : Dev nD → Fin 2 → Vec Ideal S2048x1024 .f32)
    (hB : ∀ (d : Dev nD) (g : Fin 2) (r : Fin 2048) (j : Fin 1024),
      B d g (ix2 r j) = X (ix2 ⟨d.val * 4096 + g.val * 2048 + r.val, row_lt d g r⟩ j))
    (c : Dev nD) :
    outVal (F := Ideal) (accVal (B c 0) (B c 1)) (fun k => slotVal (accVal (B (peer c k) 0) (B (peer c k) 1)))
      = broadcastInDim Cert.ReferenceIdeal.S1x1024 ![1] Cert.ReferenceIdeal.Facts₀.bcast_S1024_S1x1024_1
          (Host.reduceAdd (F := Ideal) X (constant (F := Ideal) Cert.ReferenceIdeal.S_ .f32 0x00000000#32)
            Cert.ReferenceIdeal.Facts₀.reducesTo_S32768x1024_S1024_d0 Cert.ReferenceIdeal.Facts₀.h_S_) := by
  funext i
  obtain ⟨p, j, rfl⟩ : ∃ (p : Fin 1) (j : Fin 1024), i = ix2 p j := ⟨i 0, i 1, eq_ix2 i⟩
  obtain rfl : p = 0 := Subsingleton.elim _ _
  rw [Cert.ReferenceIdeal.Read.val_main_v1_eq, Cert.ReferenceIdeal.Read.val_main_v1_apply,
    Cert.ReferenceIdeal.Read.val_main_v0_apply, Cert.ReferenceIdeal.Read.val_main_cst_apply]
  rw [outVal_apply]
  simp only [slotVal_apply, accVal_apply]
  refine (sum_peers (fun d => ((0 : EReal) + ∑ r : Fin 2048, B d 0 (ix2 r j)) + ∑ r : Fin 2048, B d 1 (ix2 r j)) c).trans ?_
  have hz : (FloatOps.ofBits .f32 0x00000000#32 : Ideal .f32) = (0 : EReal) := Ideal.ofBits_zero_f32
  have hidx : ∀ k : Fin 32768,
      Cert.ReferenceIdeal.Read.idx_main_v0 (Cert.ReferenceIdeal.Read.idx_main_v1 (ix2 0 j)) k = ix2 k j := fun k =>
    funext fun a => Fin.ext (by match a with | ⟨0, _⟩ => rfl | ⟨1, _⟩ => rfl)
  simp only [hidx]
  rw [hz, sum_rows (fun k => X (ix2 k j))]
  simp only [zero_add]
  refine Finset.sum_congr rfl fun d _ => ?_
  rw [Fin.sum_univ_two]
  simp only [hB]

end Cert.KernelIdeal.SumValue

end
-- ==== Proof.FrameClaim.lean ====
/-
  The two facts a run of the kernel gives about memory: every device's result array ends at the value the device
  stores, and every device's argument array ends as it began. Stated for any float values; the frame is the second
  fact alone.
-/
import proofs.«901089_g7700000000001090_dist_sum_ax0_shard0_i_m4096_n1024_v7x_i8_f32_1_alg».proof.Proof.Proto

noncomputable section

namespace Cert.KernelIdeal.FrameClaim

open Cert.KernelIdeal Cert.KernelIdeal.Gen Cert.KernelIdeal.Acc Cert.KernelIdeal.Proto

open Idealize.ShloMosaic
open Idealize.ShloMosaic.TcCoe
open Idealize.SL.Sem

variable {F : FTy → Type} [FloatOps F]

/-- What a run ends in: on every device the result array holds what the device stores, the argument array what it held. -/
def ValuePost (m : (ℓ : Loc nD τ sig) → Buf (Elt F) ℓ) : PUnit × MemSt nD τ sig (Elt F) → Prop := fun r =>
  ∀ c : Dev nD, r.2.mem ((c : Thread nD τ).loc main_v1) = outOf m c
    ∧ r.2.mem ((c : Thread nD τ).loc main_arg0) = m ((c : Thread nD τ).loc main_arg0)

/-- A final state that has every window's array at contents `A`, where `A` is the launch contents on the argument's
    window and the stored value on the result's, satisfies `ValuePost`. -/
theorem valuePost_of (m : (ℓ : Loc nD τ sig) → Buf (Elt F) ℓ)
    (A : (c : Dev nD) → (w : Fin cfg0.W) → Buf (Elt F) ((cfg0.win w).arr.view.loc (c : Thread nD τ)))
    (hx : ∀ c : Dev nD, A c (0 : Fin 2) = m ((c : Thread nD τ).loc main_arg0))
    (hout : ∀ c : Dev nD, A c (1 : Fin 2) = outOf m c)
    (r : PUnit × MemSt nD τ sig (Elt F))
    (h : ∀ c : Dev nD, ∀ w : Fin cfg0.W, r.2.mem ((cfg0.win w).arr.view.loc (c : Thread nD τ)) = A c w) :
    ValuePost m r := fun c =>
  ⟨(h c (1 : Fin 2)).trans (hout c), (h c (0 : Fin 2)).trans (hx c)⟩

/-- The frame: from a run to `ValuePost`, every device's argument array ends unchanged. -/
theorem frame_of_run
    (hrun : ∀ (m : (ℓ : Loc nD τ sig) → Buf (Elt F) ℓ) (ρ : Dev nD → PrngReg),
      θ_run (defs (F := F)) (onTc (τ := τ) (main (F := F))) (Proto.s₀ m ρ) (ValuePost m))
    (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)) :=
  (θ_run (defs (F := F)) _ _).mono (fun _ h c => (h c).2) (hrun m g)

end Cert.KernelIdeal.FrameClaim

end
-- ==== Proof.Claims.lean ====
/-
  The value claim from a run of the kernel: each device's two staged blocks are its rows of the whole array, so what it
  stores is the reference's result, the column sums of the whole array; the reference's own run gives the same term.
-/
import proofs.«901089_g7700000000001090_dist_sum_ax0_shard0_i_m4096_n1024_v7x_i8_f32_1_alg».proof.Defs
import proofs.«901089_g7700000000001090_dist_sum_ax0_shard0_i_m4096_n1024_v7x_i8_f32_1_alg».proof.Proof.SumValue
import proofs.«901089_g7700000000001090_dist_sum_ax0_shard0_i_m4096_n1024_v7x_i8_f32_1_alg».proof.Proof.FrameClaim
import proofs.«901089_g7700000000001090_dist_sum_ax0_shard0_i_m4096_n1024_v7x_i8_f32_1_alg».proof.Proof.Gen.ReferenceIdeal.Run
import proofs.«901089_g7700000000001090_dist_sum_ax0_shard0_i_m4096_n1024_v7x_i8_f32_1_alg».proof.Proof.Gen.ReferenceIdeal.Read
import proofs.«901089_g7700000000001090_dist_sum_ax0_shard0_i_m4096_n1024_v7x_i8_f32_1_alg».proof.Proof.Gen.Pre_finite_inputs_Kernel
import proofs.«901089_g7700000000001090_dist_sum_ax0_shard0_i_m4096_n1024_v7x_i8_f32_1_alg».proof.Proof.Gen.Pre_finite_inputs_ReferenceIdeal
import Idealize.ShloMosaic.Lib.Layout

noncomputable section

namespace Cert.KernelIdeal.Claims

open Cert.KernelIdeal Cert.KernelIdeal.Gen Cert.KernelIdeal.Acc Cert.KernelIdeal.Proto Cert.KernelIdeal.SumValue
open Cert.KernelIdeal.FrameClaim

open Idealize.ShloMosaic
open Idealize.ShloMosaic.TcCoe
open Idealize.ShloMosaic.ValueIdx
open Idealize.SL.Sem

/-! ## A staged block is a run of rows of the device's array -/

section Blocks

variable {F : FTy → Type} [FloatOps F]
variable (m : (ℓ : Loc nD τ sig) → Buf (Elt F) ℓ)

/-- The grid point that stages block `g` of a device's rows. -/
def tOf : Fin 2 → Fin cfg0.N
  | 0 => t0_0
  | 1 => t0_1

theorem tOf_val (g : Fin 2) : (tOf g).val = g.val := by fin_cases g <;> rfl

/-- The argument window's index map: grid point `t` stages block `t` of the rows, all the columns. -/
theorem idx_facts : ∀ t : Fin cfg0.N, win0_0.index t (0 : Fin 2) = t.val ∧ win0_0.index t (1 : Fin 2) = 0 :=
  (by decide +kernel : ∀ t : Fin grid0.N, _)

/-- Row `r` of the block staged at grid point `g` is row `g · 2048 + r` of the device's array. -/
theorem xb_apply (c : Dev nD) (g : Fin 2) (r : Fin 2048) (j : Fin 1024) :
    xb m c (tOf g) (ix2 r j)
      = (m ((c : Thread nD τ).loc main_arg0) : S4096x1024.Idx → Elt F .f32)
          (ix2 ⟨g.val * 2048 + r.val, by have := g.isLt; have := r.isLt; omega⟩ j) := by
  obtain ⟨e0, e1⟩ := idx_facts (tOf g)
  have hg := tOf_val g
  show V m c main_arg0 (((cfg0.win 0).blk (tOf g)).view.emb (ix2 r j)) = _
  refine congrArg (m ((c : Thread nD τ).loc main_arg0) : S4096x1024.Idx → Elt F .f32) (funext fun a => Fin.ext ?_)
  match a with
  | ⟨0, _⟩ =>
    show win0_0.index (tOf g) (0 : Fin 2) * 2048 + 1 * r.val = g.val * 2048 + r.val
    rw [e0, hg]; omega
  | ⟨1, _⟩ =>
    show win0_0.index (tOf g) (1 : Fin 2) * 1024 + 1 * j.val = j.val
    rw [e1]; omega

end Blocks

/-! ## What a device stores is the reference's result -/

/-- The reference's result as a term of its argument array: the column sums, as one row. -/
def refValue (X : FVec Ideal Cert.ReferenceIdeal.S32768x1024 .f32) : FVec Ideal Cert.ReferenceIdeal.S1x1024 .f32 :=
  broadcastInDim Cert.ReferenceIdeal.S1x1024 ![1] Cert.ReferenceIdeal.Facts₀.bcast_S1024_S1x1024_1
    (Host.reduceAdd (F := Ideal) X (constant (F := Ideal) Cert.ReferenceIdeal.S_ .f32 0x00000000#32)
      Cert.ReferenceIdeal.Facts₀.reducesTo_S32768x1024_S1024_d0 Cert.ReferenceIdeal.Facts₀.h_S_)

section Value

variable (m : (ℓ : Loc nD τ sig) → Buf (Elt Ideal) ℓ) (X : FVec Ideal Cert.ReferenceIdeal.S32768x1024 .f32)

/-- When a device's array is its block of the whole array, row `r` of its block `g` is row
    `c · 4096 + g · 2048 + r` of the whole. -/
theorem xb_of_block
    (hagree : ∀ c : Dev nD,
      m ((c.tc : Thread nD τ).loc main_arg0) = Layout.block ⟨2, ![4096, 1024]⟩ ⟨2, ![32768, 1024]⟩ 0 8 c X)
    (c : Dev nD) (g : Fin 2) (r : Fin 2048) (j : Fin 1024) :
    xb m c (tOf g) (ix2 r j) = X (ix2 ⟨c.val * 4096 + g.val * 2048 + r.val, row_lt c g r⟩ j) := by
  rw [xb_apply]
  have h := congrFun (hagree c) (ix2 ⟨g.val * 2048 + r.val, by have := g.isLt; have := r.isLt; omega⟩ j)
  refine h.trans ?_
  rw [Layout.block_apply]
  refine congrArg X (funext fun a => Fin.ext ?_)
  match a with
  | ⟨0, _⟩ =>
    show c.val * 4096 + (g.val * 2048 + r.val) = c.val * 4096 + g.val * 2048 + r.val
    omega
  | ⟨1, _⟩ => rfl

/-- What device `c` stores is the reference's result of the whole array. -/
theorem outOf_eq
    (hagree : ∀ c : Dev nD,
      m ((c.tc : Thread nD τ).loc main_arg0) = Layout.block ⟨2, ![4096, 1024]⟩ ⟨2, ![32768, 1024]⟩ 0 8 c X)
    (c : Dev nD) : outOf m c = refValue X :=
  value_eq X (fun d g => xb m d (tOf g)) (fun d g r j => xb_of_block m X hagree d g r j) c

end Value

/-! ## The claims -/

/-- The value claim, from a run of the kernel that leaves every device's result at what it stores and its argument
    unchanged. The reference's result does not depend on the device, so one witness serves all eight. -/
theorem algebraic_of
    (hrun : ∀ (m : (ℓ : Loc nD τ sig) → Buf (Elt Ideal) ℓ) (ρ : Dev nD → PrngReg),
      θ_run (defs (F := Ideal)) (onTc (τ := τ) (main (F := Ideal))) (Proto.s₀ m ρ) (ValuePost m)) :
    Cert.algebraic_KernelIdeal_ReferenceIdeal := fun m g m' g' _ hagree =>
  ⟨refValue (m' (((0 : Dev Cert.ReferenceIdeal.nD).tc : Thread Cert.ReferenceIdeal.nD Cert.ReferenceIdeal.τ).loc Cert.ReferenceIdeal.main_arg0)),
    (θ_run (defs (F := Ideal)) _ _).mono (fun _ h c => ⟨(h c).1.trans (outOf_eq m _ hagree c), (h c).2⟩) (hrun m g),
    (θ_run (Cert.ReferenceIdeal.defs (F := Ideal)) _ _).mono (fun _ h => ⟨(h 0).1, (h 0).2⟩)
      (Cert.ReferenceIdeal.Value.run (F := Ideal) m' g')⟩

/-- The frame of the idealized kernel, from the same run. -/
theorem frame_KernelIdeal_of
    (hrun : ∀ (m : (ℓ : Loc nD τ sig) → Buf (Elt Ideal) ℓ) (ρ : Dev nD → PrngReg),
      θ_run (defs (F := Ideal)) (onTc (τ := τ) (main (F := Ideal))) (Proto.s₀ m ρ) (ValuePost m)) :
    Cert.frame_KernelIdeal := fun m g _ => frame_of_run hrun m g

/-- The reference's frame: its run with the result dropped. -/
theorem frame_ReferenceIdeal : Cert.frame_ReferenceIdeal := fun m ρ _ =>
  (θ_run (Cert.ReferenceIdeal.defs (F := Ideal)) _ _).mono (fun _ h c => (h c).2) (Cert.ReferenceIdeal.Value.run (F := Ideal) m ρ)

/-- Nothing was rewritten by the idealization. -/
theorem preserves : Cert.preserves_Kernel_KernelIdeal := trivial

end Cert.KernelIdeal.Claims

end
-- ==== Proof.LaunchA.lean ====
/-
  The launch, first half: the exchange's cells and duty tokens as one launch element, that element dealt out device by
  device, every cell's invariant allocated at once (the barrier semaphore is the runtime's, so all devices' cells are
  opened under one update), and the tokens dealt round to the devices that pay them.
-/
import proofs.«901089_g7700000000001090_dist_sum_ax0_shard0_i_m4096_n1024_v7x_i8_f32_1_alg».proof.Proof.Proto

noncomputable section

namespace Cert.KernelIdeal.Launch

open Cert.KernelIdeal Cert.KernelIdeal.Gen Cert.KernelIdeal.Acc Cert.KernelIdeal.Proto

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the fourteen own semaphores -/

theorem ownSemFacts : Pipeline.OwnSemFacts cfg0.spec osem := by decide

theorem share_eq (c : Dev nD) (w : Fin cfg0.W) : (dats m ρ 0 c).share w = fullShare := by unfold Dat.share; split <;> rfl

/-! ## The cells and the tokens -/

theorem kcell_injective : Function.Injective (kcell : Dev nD × Fin 15 → GSem nD τ sig) := by
  rintro ⟨c, j⟩ ⟨c', j'⟩ h
  have h1 : c = c' := by have := congrArg (fun g : GSem nD τ sig => g.1.1) h; exact this
  subst h1
  have h2 : csem j = csem j' := congrArg Prod.snd h
  rw [csem_inj h2]
def exCells : Finset (GSem nD τ sig) := Finset.univ.map ⟨kcell, kcell_injective⟩

/-- The semaphore and the duty of a device's twenty-one tokens: its barrier's seven duties, the one duty of each send
    cell, the one duty of each receive cell. -/
def tsem : Fin 3 × Fin 7 → SemLoc sig × Fin 7
  | (0, k) => (.reg barS, k)
  | (1, k) => (.dma (sendS k).sem, 0)
  | (2, k) => (.dma (recvS k).sem, 0)
theorem tsem_inj : Function.Injective tsem := by decide
abbrev tokOf (x : Dev nD × Fin 3 × Fin 7) : GSem nD τ sig × ℕ × Fin 7 := (((x.1 : Thread nD τ), (tsem x.2).1), 0, (tsem x.2).2)
theorem tokOf_injective : Function.Injective (tokOf : Dev nD × Fin 3 × Fin 7 → GSem nD τ sig × ℕ × Fin 7) := by
  rintro ⟨c, jk⟩ ⟨c', jk'⟩ h
  have h1 : c = c' := by have := congrArg (fun x : GSem nD τ sig × ℕ × Fin 7 => x.1.1.1) h; exact this
  subst h1
  have h2 : tsem jk = tsem jk' := Prod.ext (congrArg (fun x : GSem nD τ sig × ℕ × Fin 7 => x.1.2) h) (congrArg (fun x : GSem nD τ sig × ℕ × Fin 7 => x.2.2) h)
  rw [tsem_inj h2]
def exToks : Finset (GSem nD τ sig × ℕ × Fin 7) := Finset.univ.map ⟨tokOf, tokOf_injective⟩

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun k : Fin 7 => dutyTok ER (barCell c) 0 k)
    ∗ (bigSep Finset.univ fun k : Fin 7 => dutyTok ER (sendCell c k) 0 0)
    ∗ (bigSep Finset.univ fun k : Fin 7 => dutyTok ER (recvCell c k) 0 0))

/-- What the launch element deals device `c`. -/
def G (c : Dev nD) : sProp 𝕄 :=
  iprop((bigSep Finset.univ fun j : Fin 15 => roundState ER (rd m) (kcell (c, j)) 0)
    ∗ (bigSep Finset.univ fun j : Fin 15 => iprop(atPos ER (kcell (c, j)) 0 ∅ 0 ∗ reached ER (kcell (c, j)) 0)) ∗ toks c)

/-- What the global step makes of it. -/
def G' (c : Dev nD) : sProp 𝕄 := iprop(∃ K, ghost m K c)

theorem bigSep_fin3 (Φ : Fin 3 → sProp 𝕄) : bigSep Finset.univ Φ = iprop(Φ 0 ∗ Φ 1 ∗ Φ 2) := bigSep_univ_eq_bigSepL [0, 1, 2] (by decide) (by decide) Φ

/-- Fifteen summands: the first, and the fourteen after it. -/
theorem bigSep_fin15 (Φ : Fin 15 → sProp 𝕄) : bigSep Finset.univ Φ = iprop(Φ 0 ∗ bigSep Finset.univ fun j : Fin 14 => Φ j.succ) := by
  rw [Fin.univ_succ, Finset.cons_eq_insert, bigSep_insert (by simp), BI.bigSep_map]; rfl

theorem toks_eq (c : Dev nD) :
    (bigSep Finset.univ fun jk : Fin 3 × Fin 7 => (dutyTok ER (tokOf (c, jk)).1 (tokOf (c, jk)).2.1 (tokOf (c, jk)).2.2 : sProp 𝕄)) = toks c := by
  unfold toks; rw [bigSep_univ_prod, bigSep_fin3]; rfl

theorem fund_ex : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun j : Fin 15 => Φ (kcell (c, j)) := by
    unfold exCells; rw [BI.bigSep_map, bigSep_univ_prod]; rfl
  have hT : bigSep exToks (fun x => (dutyTok ER x.1 x.2.1 x.2.2 : sProp 𝕄)) = bigSep Finset.univ fun c : Dev nD => toks c := by
    unfold exToks; rw [BI.bigSep_map, bigSep_univ_prod]
    exact bigSep_congr fun c _ => toks_eq c
  iintro HX
  imod (Rounds.fund ER (rd m) exCells exToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, for all devices under one update -/

/-- The fourteen own semaphores and the barrier semaphore are the fifteen of the exchange. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 15 => semVal (kcell (c, j)) 0 : sProp 𝕄) := by
  rw [unscopedSems0_eq, bigSep_fin15]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j => iprop(∃ κ : ℕ, cellInv ER (rd m) κ (kcell (c, j))))
          ∗ (bigSep Finset.univ fun j : Fin 15 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 15 => semVal (kcell (c, j)) 0) ∗ bigSep Finset.univ fun j : Fin 15 => roundState ER (rd m) (kcell (c, j)) 0)
      ⊢ (|={Set.univ}=> bigSep Finset.univ fun j => iprop(∃ κ : ℕ, cellInv ER (rd m) κ (kcell (c, j))) : sProp 𝕄) from by
        rw [← bigSep_sep']
        exact (bigSep_mono fun j _ => (Rounds.body_intro ER (rd m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-- What stays with device `c`: its positions, and the tokens of the duties it pays. -/
def linear (c : Dev nD) : sProp 𝕄 := iprop(positions c ∗ sigToks c ∗ xferToks c)

theorem ghost_intro (K : Dev nD × Fin 15 → ℕ) (c : Dev nD) : iprop(records m K ∗ linear c) ⊢ G' m c := by
  unfold linear G' ghost
  iintro ⟨HR, Hp, Hs, Hx⟩
  iexists K
  isplitl [HR]; · iexact HR
  isplitl [Hp]; · iexact Hp
  isplitl [Hs]; · iexact Hs
  iexact Hx

/-- Slot `k`'s exchange partner, as a permutation of the devices. -/
def peerE (k : Fin 7) : Dev nD ≃ Dev nD := ⟨fun c => peer c k, fun c => peer c k, fun c => peer_peer c k, fun c => peer_peer c k⟩

/-- A family over (device, slot), summed over both, may be read at each slot's partner instead. -/
theorem deal (Φ : Dev nD → Fin 7 → sProp 𝕄) :
    (bigSep Finset.univ fun c : Dev nD => bigSep Finset.univ fun k : Fin 7 => Φ c k)
      = bigSep Finset.univ fun c : Dev nD => bigSep Finset.univ fun k : Fin 7 => Φ (peer c k) k := by
  rw [BI.bigSep_univ_comm, bigSep_congr (fun k _ => bigSep_univ_equiv (peerE k) (fun c => Φ c k)), BI.bigSep_univ_comm]
  rfl

/-- The tokens dealt round: a barrier's token `k` and a receive cell `k`'s token go to the partner at slot `k`, who pays
    them; the send tokens stay. -/
theorem toks_around : (bigSep Finset.univ fun c : Dev nD => (toks c : sProp 𝕄)) ⊢ bigSep Finset.univ fun c : Dev nD => iprop(sigToks c ∗ xferToks c) := by
  unfold toks sigToks xferToks
  rw [bigSep_sep', bigSep_sep', bigSep_sep',
    deal (fun c k => (dutyTok ER (barCell c) 0 k : sProp 𝕄)),
    deal (fun c k => (dutyTok ER (recvCell c k) 0 0 : sProp 𝕄)),
    bigSep_congr (s := Finset.univ) (fun (c : Dev nD) _ => bigSep_sep' Finset.univ (fun k : Fin 7 => (dutyTok ER (recvCell (peer c k) k) 0 0 : sProp 𝕄)) (fun k => dutyTok ER (sendCell c k) 0 0)),
    bigSep_sep']
  iintro ⟨H1, H2, H3⟩
  isplitl [H1]; · iexact H1
  isplitl [H3]; · iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun j => iprop(∃ κ : ℕ, cellInv ER (rd m) κ (kcell (c, j))))
          ∗ (bigSep Finset.univ fun j : Fin 15 => iprop(atPos ER (kcell (c, j)) 0 ∅ 0 ∗ reached ER (kcell (c, j)) 0)) ∗ toks c) : sProp 𝕄)
      ⊢ bigSep Finset.univ (G' m) := by
  rw [bigSep_sep', bigSep_sep', ← bigSep_univ_prod (fun cj : Dev nD × Fin 15 => iprop(∃ κ : ℕ, cellInv ER (rd m) κ (kcell cj))),
    bigSep_congr (s := Finset.univ) (fun (c : Dev nD) _ => bigSep_sep' Finset.univ (fun j : Fin 15 => (atPos ER (kcell (c, j)) 0 ∅ 0 : sProp 𝕄)) (fun j => reached ER (kcell (c, j)) 0)),
    bigSep_sep', ← bigSep_univ_prod (fun cj : Dev nD × Fin 15 => (reached ER (kcell cj) 0 : sProp 𝕄))]
  iintro ⟨HI, ⟨Hat, #HR⟩, Htok⟩
  ihave HK := (BI.bigSep_exists_pi Finset.univ (fun (cj : Dev nD × Fin 15) (κ : ℕ) => (cellInv ER (rd m) κ (kcell cj) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 15 => (atPos ER (kcell (c, j)) 0 ∅ 0 : sProp 𝕄)) (fun c => iprop(sigToks c ∗ xferToks c))).symm).trans
      (bigSep_mono fun c _ => show _ ⊢ linear c from Entails.of_eq (by unfold linear positions; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem recv_eq_iff {a b : Dev nD} {k k' : Fin 7} : Iff (recvCell a k = recvCell b k') (a = b ∧ k = k') :=
  ⟨fun h => ⟨Fin.ext (congrArg (fun g : GSem nD τ sig => g.1.1.val) h), recvS_inj k k' (congrArg Prod.snd h)⟩, fun ⟨h1, h2⟩ => h1 ▸ h2 ▸ rfl⟩

/-- A list of tallies summed onto a base, read at a cell. -/
theorem owedL_apply (base : CellTallies nD τ sig Unit) (f : Fin 7 → CellTallies nD τ sig Unit) (g : GSem nD τ sig) (u : Unit) :
    ∀ l : List (Fin 7), owedL base f l g u = base g u + (l.map fun k => f k g u).sum
  | [] => by unfold owedL; rw [List.map_nil, List.sum_nil, Nat.add_zero]
  | k :: ks => by
    unfold owedL
    rw [Pi.add_apply, Finsupp.add_apply, owedL_apply base f g u ks, List.map_cons, List.sum_cons]; omega

theorem sum_all7 (φ : Fin 7 → ℕ) : (all7.map φ).sum = ∑ k, φ k := by
  simp only [List.map_cons, List.map_nil, List.sum_cons, List.sum_nil, Fin.sum_univ_seven]; omega

/-- What device `d` owes device `c`'s barrier cell: one unit for every slot at which `d` is `c`'s partner. -/
theorem owed_bar (d c : Dev nD) : O₀ d (barCell c) () = ∑ k : Fin 7, if d = peer c k then 1 else 0 := by
  have hV : ∀ k : Fin 7, Vt d k (barCell c) () = 0 := fun k => by
    unfold Vt; rw [tallyAt_ne_cell (fun h => recv_ne_bar k (congrArg Prod.snd h).symm)]; rfl
  have hB : ∀ k : Fin 7, Bt d k (barCell c) () = if d = peer c k then 1 else 0 := fun k => by
    unfold Bt; rw [tallyAt_apply]
    by_cases h : d = peer c k
    · subst h; rw [peer_peer, if_pos ⟨rfl, rfl⟩, if_pos rfl]
    · rw [if_neg (fun ⟨h1, _⟩ => h (by rw [bar_eq_iff.mp h1, peer_peer])), if_neg h]
  unfold O₀ O₁
  rw [owedL_apply, owedL_apply, sum_all7, sum_all7, Finset.sum_congr rfl fun k _ => hV k, Finset.sum_congr rfl fun k _ => hB k,
    Finset.sum_const_zero]
  show 0 + 0 + _ = _
  rw [Nat.zero_add, Nat.zero_add]

/-- What device `d` owes receive cell `k` of device `c`: a row's credit if it is `c`'s partner at slot `k`. -/
theorem owed_recv (d c : Dev nD) (k : Fin 7) : O₀ d (recvCell c k) () = if d = peer c k then N else 0 := by
  have hB : ∀ k' : Fin 7, Bt d k' (recvCell c k) () = 0 := fun k' => by
    unfold Bt; rw [tallyAt_ne_cell (fun h => recv_ne_bar k (congrArg Prod.snd h))]; rfl
  have hV : ∀ k' : Fin 7, Vt d k' (recvCell c k) () = if k' = k then (if d = peer c k then N else 0) else 0 := fun k' => by
    unfold Vt; rw [tallyAt_apply]
    by_cases hk : k' = k
    · subst hk; rw [if_pos rfl]
      by_cases h : d = peer c k'
      · subst h; rw [peer_peer, if_pos ⟨rfl, rfl⟩, if_pos rfl]
      · rw [if_neg (fun ⟨h1, _⟩ => h (by rw [(recv_eq_iff.mp h1).1, peer_peer])), if_neg h]
    · rw [if_neg (fun ⟨h1, _⟩ => hk (recv_eq_iff.mp h1).2.symm), if_neg hk]
  unfold O₀ O₁
  rw [owedL_apply, owedL_apply, sum_all7, sum_all7, Finset.sum_congr rfl fun k' _ => hV k', Finset.sum_congr rfl fun k' _ => hB k',
    Finset.sum_const_zero, Finset.sum_ite_eq' Finset.univ k, if_pos (Finset.mem_univ _)]
  show 0 + _ + 0 = _
  rw [Nat.zero_add, Nat.add_zero]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun k _ => Finset.sum_ite_eq' Finset.univ (peer c k) fun _ => 1]
  simp only [Finset.mem_univ, if_true, Finset.sum_const, Finset.card_univ, Fintype.card_fin, smul_eq_mul, Nat.mul_one]

theorem launch_recv (c : Dev nD) (k : Fin 7) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (peer c k) fun _ => N, if_pos (Finset.mem_univ _)]

def recvEmb : Fin 7 ↪ SemLoc sig := ⟨fun k => .dma (recvS k).sem, fun k k' h => recvS_inj k k' h⟩

theorem creds_intro (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvEmb) (fun s hs => ?_)).trans ?_
  · obtain ⟨k, -, rfl⟩ := Finset.mem_map.mp hs
    exact Finset.mem_erase.mpr ⟨recv_ne_bar k, Finset.mem_univ _⟩
  · rw [BI.bigSep_map]
    exact Entails.of_eq (bigSep_congr fun k _ => congrArg cred (launch_recv c k))

/-- info: 'Cert.KernelIdeal.Launch.glob' depends on axioms: [propext, Classical.choice, Quot.sound] -/
#guard_msgs in #print axioms glob

/-- info: 'Cert.KernelIdeal.Launch.creds_intro' depends on axioms: [propext, Classical.choice, Quot.sound] -/
#guard_msgs in #print axioms creds_intro

end Cert.KernelIdeal.Launch

end
-- ==== Proof.Launch.lean ====
/-
  The launch, second half: what each device starts its first grid point from, what it hands back after its last, and
  the run of @main on the eight devices with the final arrays named.
-/
import proofs.«901089_g7700000000001090_dist_sum_ax0_shard0_i_m4096_n1024_v7x_i8_f32_1_alg».proof.Proof.LaunchA

noncomputable section

namespace Cert.KernelIdeal.Launch

open Cert.KernelIdeal Cert.KernelIdeal.Gen Cert.KernelIdeal.Acc Cert.KernelIdeal.Proto

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0]; · iexact H0
  iexact H1

theorem phi2_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₂ c from rfl, scopedRest0_eq]
  unfold Φ₂ Pipeline.ownSems0
  iintro ⟨H0, H1, HS⟩
  isplitr; · iempintro
  isplitl [HS]; · iexact HS
  isplitl [H0]; · iexact H0
  iexact H1

/-- A staging semaphore is neither the barrier nor a receive semaphore: it sits at level 0. -/
theorem lv_stage (c : Dev nD) (w : Fin (cfgs 0).W) (s : Fin ((cfgs 0).win w).nbuf) :
    lv ((c : Thread nD τ), .dma (((cfgs 0).win w).sem s)) () = 0 := by
  have h : recvIx (.dma (((cfgs 0).win w).sem s)) = none := by fin_cases w <;> fin_cases s <;> decide
  unfold lv; rw [if_neg (fun h => by cases h), h]; rfl

theorem waits (c : Dev nD) : (levAts L lv : sProp 𝕄) ⊢ Pipeline.cellsWaits cfgs (dats m ρ) () 0 c :=
  Pipeline.cellsWaits_intro cfgs (dats m ρ) () 0 c fun w s t =>
    mayWait_low c _ (lv_stage c w s) _ (by
      rcases t with ⟨_ | _ | t, ht⟩
      · exact Or.inl rfl
      · exact Or.inr (Or.inl rfl)
      · exact Or.inr (Or.inr rfl))

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: given each device's
    body proved, every weakly fair execution of @main terminates, and every final state has each device's arrays at the
    contents the proof data name. -/
theorem run_main (hbody : ∀ c : Dev nD, BodyObligation (dats (F := F) m ρ 0 c) (defs₀ (F := F)) 𝒱₀ () Set.univ) :
    θ_run defs (onTc (τ := τ) (main (F := F))) (Proto.s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ex m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi2_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run holds what the last grid point stored: that point alone writes it back, and its
    block is the whole array. -/
theorem finalA_out (c : Dev nD) : finalA m ρ c (1 : Fin 2) = outOf m c := by
  have hoff : (fun a => win0_1.index t0_1 a * win0_1.size a) = fun _ => 0 := funext fun a => by fin_cases a <;> decide +kernel
  unfold finalA
  rw [show (dats m ρ 0 c).arrAt 1 cfg0.N = (dats m ρ 0 c).arrAt 1 (t0_1.val + 1) from congrArg _ N_0,
    Dat.arrAt_succ, if_pos ((flush0_1 t0_1).mpr rfl)]
  exact Memref.write_access_unit_zero_univ (Elt F) main_v1 hoff _ _ (outOf m c)

/-- info: 'Cert.KernelIdeal.Launch.run_main' depends on axioms: [propext, Classical.choice, Quot.sound] -/
#guard_msgs in #print axioms run_main

/-- info: 'Cert.KernelIdeal.Launch.finalA_x' depends on axioms: [propext, Classical.choice, Quot.sound] -/
#guard_msgs in #print axioms finalA_x

/-- info: 'Cert.KernelIdeal.Launch.finalA_out' depends on axioms: [propext, Classical.choice, Quot.sound] -/
#guard_msgs in #print axioms finalA_out

end Cert.KernelIdeal.Launch

end
-- ==== Proof.RunValue.lean ====
/-
  The run of the kernel on the eight devices with its final memory read off: every device's result array at the value
  the device stores, every argument array unchanged; and the frame, which is the second half alone. For any float values.
-/
import proofs.«901089_g7700000000001090_dist_sum_ax0_shard0_i_m4096_n1024_v7x_i8_f32_1_alg».proof.Proof.FrameClaim
import proofs.«901089_g7700000000001090_dist_sum_ax0_shard0_i_m4096_n1024_v7x_i8_f32_1_alg».proof.Proof.Launch

noncomputable section

namespace Cert.KernelIdeal.RunValue

open Cert.KernelIdeal Cert.KernelIdeal.Gen Cert.KernelIdeal.Acc Cert.KernelIdeal.Proto Cert.KernelIdeal.FrameClaim

open Idealize.ShloMosaic
open Idealize.ShloMosaic.TcCoe
open Idealize.SL.Sem
open Idealize.ShloMosaic.Pipeline (BodyObligation)

variable {F : FTy → Type} [FloatOps F]

/-- Given each device's body proved, every run of @main ends with every device's result array at what the device
    stores and its argument array as it was. -/
theorem run_value
    (hbody : ∀ (m : (ℓ : Loc nD τ sig) → Buf (Elt F) ℓ) (ρ : Dev nD → PrngReg) (c : Dev nD),
      BodyObligation (dats (F := F) m ρ 0 c) (defs₀ (F := F)) 𝒱₀ () Set.univ)
    (m : (ℓ : Loc nD τ sig) → Buf (Elt F) ℓ) (ρ : Dev nD → PrngReg) :
    θ_run (defs (F := F)) (onTc (τ := τ) (main (F := F))) (Proto.s₀ m ρ) (ValuePost m) :=
  (θ_run (defs (F := F)) _ _).mono
    (fun r h => valuePost_of m (Launch.finalA m ρ) (Launch.finalA_x m ρ) (Launch.finalA_out m ρ) r h)
    (Launch.run_main m ρ (hbody m ρ))

/-- The frame: every run of @main ends with every device's argument array as it was. -/
theorem frame
    (hbody : ∀ (m : (ℓ : Loc nD τ sig) → Buf (Elt F) ℓ) (ρ : Dev nD → PrngReg) (c : Dev nD),
      BodyObligation (dats (F := F) m ρ 0 c) (defs₀ (F := F)) 𝒱₀ () Set.univ)
    (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)) :=
  frame_of_run (run_value hbody) m g

end Cert.KernelIdeal.RunValue

end
-- ==== Proof.ClaimsFinal.lean ====
/-
  The claims about the idealized kernel, given each device's body proved: its frame, and that it computes the
  reference's result.
-/
import proofs.«901089_g7700000000001090_dist_sum_ax0_shard0_i_m4096_n1024_v7x_i8_f32_1_alg».proof.Proof.Claims
import proofs.«901089_g7700000000001090_dist_sum_ax0_shard0_i_m4096_n1024_v7x_i8_f32_1_alg».proof.Proof.RunValue

noncomputable section

namespace Cert.KernelIdeal.ClaimsFinal

open Cert.KernelIdeal Cert.KernelIdeal.Gen Cert.KernelIdeal.Proto

open Idealize.ShloMosaic
open Idealize.SL.Sem
open Idealize.ShloMosaic.Pipeline (BodyObligation)

/-- The value claim. -/
theorem algebraic
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.algebraic_KernelIdeal_ReferenceIdeal :=
  Claims.algebraic_of (RunValue.run_value hbody)

/-- The idealized kernel's frame. -/
theorem frame_KernelIdeal
    (hbody : ∀ (m : (ℓ : Loc nD τ sig) → Buf (Elt Ideal) ℓ) (ρ : Dev nD → PrngReg) (c : Dev nD),
      BodyObligation (dats (F := Ideal) m ρ 0 c) (defs₀ (F := Ideal)) 𝒱₀ () Set.univ) :
    Cert.frame_KernelIdeal :=
  fun m g _ => RunValue.frame hbody m g

end Cert.KernelIdeal.ClaimsFinal

end
-- ==== Proof.lean ====
/- The proof of `Cert.Claim`: the three frames, that the idealized kernel is the kernel's own text read at the ideal
   instance, and that on eight devices the idealized kernel computes, on every device, the column sums of the whole
   array that the one-device reference computes.
   Each device sums the columns of its 4096 rows in two grid steps; after a handshake on the barrier semaphore (every
   device signals its seven peers `c xor m` and waits for seven signals) it copies its accumulator into one slot of
   each peer's receive buffer and adds its own accumulator and the seven rows it received. Over the extended reals
   addition is commutative and associative, so the eight accumulators sum, in any order, to the reference's sum over
   all 32768 rows. Both printed programs, the word-level one and the idealized one, run by the same argument, written
   once for any float values. -/
import proofs.«901089_g7700000000001090_dist_sum_ax0_shard0_i_m4096_n1024_v7x_i8_f32_1_alg».proof.Defs
import proofs.«901089_g7700000000001090_dist_sum_ax0_shard0_i_m4096_n1024_v7x_i8_f32_1_alg».proof.Proof.Gen.Kernel
import proofs.«901089_g7700000000001090_dist_sum_ax0_shard0_i_m4096_n1024_v7x_i8_f32_1_alg».proof.Proof.Gen.KernelIdeal
import proofs.«901089_g7700000000001090_dist_sum_ax0_shard0_i_m4096_n1024_v7x_i8_f32_1_alg».proof.Proof.Gen.ReferenceIdeal
import proofs.«901089_g7700000000001090_dist_sum_ax0_shard0_i_m4096_n1024_v7x_i8_f32_1_alg».proof.Proof.Gen.Pre_finite_inputs_Kernel
import proofs.«901089_g7700000000001090_dist_sum_ax0_shard0_i_m4096_n1024_v7x_i8_f32_1_alg».proof.Proof.Gen.Pre_finite_inputs_ReferenceIdeal
import proofs.«901089_g7700000000001090_dist_sum_ax0_shard0_i_m4096_n1024_v7x_i8_f32_1_alg».proof.Proof.Body
import proofs.«901089_g7700000000001090_dist_sum_ax0_shard0_i_m4096_n1024_v7x_i8_f32_1_alg».proof.Proof.WBody
import proofs.«901089_g7700000000001090_dist_sum_ax0_shard0_i_m4096_n1024_v7x_i8_f32_1_alg».proof.Proof.WRunValue
import proofs.«901089_g7700000000001090_dist_sum_ax0_shard0_i_m4096_n1024_v7x_i8_f32_1_alg».proof.Proof.ClaimsFinal
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    (fun m g _ => Cert.Kernel.RunValue.frame (F := Bits) (fun m ρ c => Cert.Kernel.Body.body_obligation m ρ c) m g),
    Cert.KernelIdeal.ClaimsFinal.frame_KernelIdeal (fun m ρ c => Cert.KernelIdeal.Body.body_obligation (F := Ideal) m ρ c),
    Cert.KernelIdeal.Claims.frame_ReferenceIdeal,
    Cert.KernelIdeal.Claims.preserves,
    Cert.KernelIdeal.ClaimsFinal.algebraic (fun m ρ c => Cert.KernelIdeal.Body.body_obligation (F := Ideal) m ρ c)⟩

end Cert.Proof

end
